-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2000x128 : Shape := ⟨2, ![2000, 128]⟩
abbrev S2000x1 : Shape := ⟨2, ![2000, 1]⟩
abbrev S10000x1 : Shape := ⟨2, ![10000, 1]⟩
abbrev S128x1 : Shape := ⟨2, ![128, 1]⟩
abbrev S1 : Shape := ⟨1, ![1]⟩
abbrev S2000000 : Shape := ⟨1, ![2000000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S2000x1 : S_.BroadcastsInDim S2000x1 (![] : Fin 0 → Fin S2000x1.rank)
  reducesTo_S2000x1_S_d0_1 : S2000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_arg10 : IVec S2000000 32) (main_arg11 : IVec S2000000 32) (main_v48 : IVec S_ 1) (main_v50 : IVec S2000000 1) : IVec S_ 1 :=
  let main_c_19 : IVec S_ 32 := constantI S_ 32 10000#32
  let main_v51 : IVec S2000000 32 := broadcastInDim S2000000 ![] bcast_S_S2000000 main_c_19
  let main_v52 : IVec S2000000 1 := cmpi .slt main_arg10 main_v51
  let main_v53 : IVec S2000000 1 := andi main_v50 main_v52
  let main_c_20 : IVec S_ 1 := constantI S_ 1 1#1
  let main_v54 : IVec S_ 1 := (fun x v => Host.reduce IntOp.andi x v reducesTo_S2000000_S_d0 h_S_) main_v53 main_c_20
  let main_v55 : IVec S_ 1 := andi main_v48 main_v54
  let main_c_21 : IVec S_ 32 := constantI S_ 32 0#32
  let main_v56 : IVec S2000000 32 := broadcastInDim S2000000 ![] bcast_S_S2000000 main_c_21
  let main_v57 : IVec S2000000 1 := cmpi .sge main_arg11 main_v56
  let main_c_22 : IVec S_ 32 := constantI S_ 32 2000#32
  let main_v58 : IVec S2000000 32 := broadcastInDim S2000000 ![] bcast_S_S2000000 main_c_22
  let main_v59 : IVec S2000000 1 := cmpi .slt main_arg11 main_v58
  let main_v60 : IVec S2000000 1 := andi main_v57 main_v59
  let main_c_23 : IVec S_ 1 := constantI S_ 1 1#1
  let main_v61 : IVec S_ 1 := (fun x v => Host.reduce IntOp.andi x v reducesTo_S2000000_S_d0 h_S_) main_v60 main_c_23
  let main_v62 : IVec S_ 1 := andi main_v55 main_v61
  main_v62

def fn_part2 {F : FTy → Type} [FloatOps F] (main_arg7 : FVec F S1 .f32) (main_arg8 : FVec F S128x1 .f32) (main_arg9 : FVec F S1 .f32) (main_arg10 : IVec S2000000 32) (main_arg11 : IVec S2000000 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2000000 32 := broadcastInDim S2000000 ![] bcast_S_S2000000 main_c_18
  let main_v50 : IVec S2000000 1 := cmpi .sge main_arg10 main_v49
  fn_part3 (F := F) main_arg10 main_arg11 main_v48 main_v50

def fn_part1 {F : FTy → Type} [FloatOps F] (main_arg4 : FVec F S128x1 .f32) (main_arg5 : FVec F S1 .f32) (main_arg6 : FVec F S128x1 .f32) (main_arg7 : FVec F S1 .f32) (main_arg8 : FVec F S128x1 .f32) (main_arg9 : FVec F S1 .f32) (main_arg10 : IVec S2000000 32) (main_arg11 : IVec S2000000 32) (main_v13 : IVec S_ 1) (main_v16 : IVec S10000x1 1) : IVec S_ 1 :=
  let main_c_5 : IVec S_ 1 := constantI S_ 1 1#1
  let main_v17 : IVec S_ 1 := (fun x v => Host.reduce IntOp.andi x v reducesTo_S10000x1_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S2000x128 .f32) (main_arg2 : FVec F S2000x1 .f32) (main_arg3 : FVec F S10000x1 .f32) (main_arg4 : FVec F S128x1 .f32) (main_arg5 : FVec F S1 .f32) (main_arg6 : FVec F S128x1 .f32) (main_arg7 : FVec F S1 .f32) (main_arg8 : FVec F S128x1 .f32) (main_arg9 : FVec F S1 .f32) (main_arg10 : IVec S2000000 32) (main_arg11 : IVec S2000000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S2000x1 .f32 := Host.absf main_arg2
  let main_cst_2 : FVec F S_ .f32 := constant S_ .f32 0x7F800000#32
  let main_v10 : FVec F S2000x1 .f32 := broadcastInDim S2000x1 ![] bcast_S_S2000x1 main_cst_2
  let main_v11 : IVec S2000x1 1 := cmpf .olt main_v9 main_v10
  let main_c_3 : IVec S_ 1 := constantI S_ 1 1#1
  let main_v12 : IVec S_ 1 := (fun x v => Host.reduce IntOp.andi x v reducesTo_S2000x1_S_d0_1 h_S_) main_v11 main_c_3
  let main_v13 : IVec S_ 1 := andi main_v8 main_v12
  let main_v14 : FVec F S10000x1 .f32 := Host.absf main_arg3
  let main_cst_4 : FVec F S_ .f32 := constant S_ .f32 0x7F800000#32
  let main_v15 : FVec F S10000x1 .f32 := broadcastInDim S10000x1 ![] bcast_S_S10000x1 main_cst_4
  let main_v16 : IVec S10000x1 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S2000x128 : Shape := ⟨2, ![2000, 128]⟩
abbrev S2000x1 : Shape := ⟨2, ![2000, 1]⟩
abbrev S10000x1 : Shape := ⟨2, ![10000, 1]⟩
abbrev S128x1 : Shape := ⟨2, ![128, 1]⟩
abbrev S1 : Shape := ⟨1, ![1]⟩
abbrev S2000000 : Shape := ⟨1, ![2000000]⟩
abbrev S_ : Shape := ⟨0, ![]⟩
abbrev S2002944 : Shape := ⟨1, ![2002944]⟩
abbrev S128x10000 : Shape := ⟨2, ![128, 10000]⟩
abbrev S128x2000 : Shape := ⟨2, ![128, 2000]⟩
abbrev S2002944x1 : Shape := ⟨2, ![2002944, 1]⟩
abbrev S1x1 : Shape := ⟨2, ![1, 1]⟩
abbrev S128x2002944 : Shape := ⟨2, ![128, 2002944]⟩
abbrev S10000 : Shape := ⟨1, ![10000]⟩
abbrev S1x2002944 : Shape := ⟨2, ![1, 2002944]⟩
abbrev S2000 : Shape := ⟨1, ![2000]⟩
abbrev S1x128 : Shape := ⟨2, ![1, 128]⟩
abbrev S5x128 : Shape := ⟨2, ![5, 128]⟩
abbrev S8x128 : Shape := ⟨2, ![8, 128]⟩
abbrev S5x1 : Shape := ⟨2, ![5, 1]⟩
abbrev S8x1 : Shape := ⟨2, ![8, 1]⟩
abbrev S3x2002944 : Shape := ⟨2, ![3, 2002944]⟩
abbrev S128x4096 : Shape := ⟨2, ![128, 4096]⟩
abbrev S1x4096 : Shape := ⟨2, ![1, 4096]⟩
abbrev S3x4096 : Shape := ⟨2, ![3, 4096]⟩
abbrev S8x4096 : Shape := ⟨2, ![8, 4096]⟩
abbrev S1x2000000 : Shape := ⟨2, ![1, 2000000]⟩
abbrev S2000000x1 : Shape := ⟨2, ![2000000, 1]⟩

abbrev nBuf : Space → Nat
  | .hbm => 137
  | .vmem => 12
  | .smem => 0
  | _ => 0

abbrev hbmTy0_0 (i : Nat) : BufTy := match i % 128 with
  | 0 => ⟨S10000x128, .f32⟩
  | 1 => ⟨S2000x128, .f32⟩
  | 2 => ⟨S2000x1, .f32⟩
  | 3 => ⟨S10000x1, .f32⟩
  | 4 => ⟨S128x1, .f32⟩
  | 5 => ⟨S1, .f32⟩
  | 6 => ⟨S128x1, .f32⟩
  | 7 => ⟨S1, .f32⟩
  | 8 => ⟨S128x1, .f32⟩
  | 9 => ⟨S1, .f32⟩
  | 10 => ⟨S2000000, .i32⟩
  | 11 => ⟨S2000000, .i32⟩
  | 12 => ⟨S_, .i32⟩
  | 13 => ⟨S_, .i32⟩
  | 14 => ⟨S2002944, .i32⟩
  | 15 => ⟨S_, .i32⟩
  | 16 => ⟨S_, .i32⟩
  | 17 => ⟨S2002944, .i32⟩
  | 18 => ⟨S128x10000, .f32⟩
  | 19 => ⟨S128x2000, .f32⟩
  | 20 => ⟨S_, .i32⟩
  | 21 => ⟨S2002944, .i32⟩
  | 22 => ⟨S2002944, .i1⟩
  | 23 => ⟨S_, .i32⟩
  | 24 => ⟨S2002944, .i32⟩
  | 25 => ⟨S2002944, .i32⟩
  | 26 => ⟨S2002944, .i32⟩
  | 27 => ⟨S2002944x1, .i32⟩
  | 28 => ⟨S1, .i32⟩
  | 29 => ⟨S_, .i32⟩
  | 30 => ⟨S2002944x1, .i32⟩
  | 31 => ⟨S2002944x1, .i1⟩
  | 32 => ⟨S1x1, .i32⟩
  | 33 => ⟨S2002944x1, .i32⟩
  | 34 => ⟨S2002944x1, .i1⟩
  | 35 => ⟨S2002944x1, .i1⟩
  | 36 => ⟨S_, .i1⟩
  | 37 => ⟨S2002944, .i1⟩
  | 38 => ⟨S128x2002944, .f32⟩
  | 39 => ⟨S128x2002944, .i1⟩
  | 40 => ⟨S_, .f32⟩
  | 41 => ⟨S128x2002944, .f32⟩
  | 42 => ⟨S128x2002944, .f32⟩
  | 43 => ⟨S_, .i32⟩
  | 44 => ⟨S2002944, .i32⟩
  | 45 => ⟨S2002944, .i1⟩
  | 46 => ⟨S_, .i32⟩
  | 47 => ⟨S2002944, .i32⟩
  | 48 => ⟨S2002944, .i32⟩
  | 49 => ⟨S2002944, .i32⟩
  | 50 => ⟨S2002944x1, .i32⟩
  | 51 => ⟨S1, .i32⟩
  | 52 => ⟨S_, .i32⟩
  | 53 => ⟨S2002944x1, .i32⟩
  | 54 => ⟨S2002944x1, .i1⟩
  | 55 => ⟨S1x1, .i32⟩
  | 56 => ⟨S2002944x1, .i32⟩
  | 57 => ⟨S2002944x1, .i1⟩
  | 58 => ⟨S2002944x1, .i1⟩
  | 59 => ⟨S_, .i1⟩
  | 60 => ⟨S2002944, .i1⟩
  | 61 => ⟨S128x2002944, .f32⟩
  | 62 => ⟨S128x2002944, .i1⟩
  | 63 => ⟨S_, .f32⟩
  | 64 => ⟨S128x2002944, .f32⟩
  | 65 => ⟨S128x2002944, .f32⟩
  | 66 => ⟨S10000, .f32⟩
  | 67 => ⟨S_, .i32⟩
  | 68 => ⟨S2002944, .i32⟩
  | 69 => ⟨S2002944, .i1⟩
  | 70 => ⟨S_, .i32⟩
  | 71 => ⟨S2002944, .i32⟩
  | 72 => ⟨S2002944, .i32⟩
  | 73 => ⟨S2002944, .i32⟩
  | 74 => ⟨S2002944x1, .i32⟩
  | 75 => ⟨S1, .i32⟩
  | 76 => ⟨S_, .i32⟩
  | 77 => ⟨S2002944x1, .i32⟩
  | 78 => ⟨S2002944x1, .i1⟩
  | 79 => ⟨S1x1, .i32⟩
  | 80 => ⟨S2002944x1, .i32⟩
  | 81 => ⟨S2002944x1, .i1⟩
  | 82 => ⟨S2002944x1, .i1⟩
  | 83 => ⟨S_, .i1⟩
  | 84 => ⟨S2002944, .i1⟩
  | 85 => ⟨S2002944, .f32⟩
  | 86 => ⟨S_, .f32⟩
  | 87 => ⟨S2002944, .f32⟩
  | 88 => ⟨S2002944, .f32⟩
  | 89 => ⟨S1x2002944, .f32⟩
  | 90 => ⟨S2000, .f32⟩
  | 91 => ⟨S_, .i32⟩
  | 92 => ⟨S2002944, .i32⟩
  | 93 => ⟨S2002944, .i1⟩
  | 94 => ⟨S_, .i32⟩
  | 95 => ⟨S2002944, .i32⟩
  | 96 => ⟨S2002944, .i32⟩
  | 97 => ⟨S2002944, .i32⟩
  | 98 => ⟨S2002944x1, .i32⟩
  | 99 => ⟨S1, .i32⟩
  | 100 => ⟨S_, .i32⟩
  | 101 => ⟨S2002944x1, .i32⟩
  | 102 => ⟨S2002944x1, .i1⟩
  | 103 => ⟨S1x1, .i32⟩
  | 104 => ⟨S2002944x1, .i32⟩
  | 105 => ⟨S2002944x1, .i1⟩
  | 106 => ⟨S2002944x1, .i1⟩
  | 107 => ⟨S_, .i1⟩
  | 108 => ⟨S2002944, .i1⟩
  | 109 => ⟨S2002944, .f32⟩
  | 110 => ⟨S_, .f32⟩
  | 111 => ⟨S2002944, .f32⟩
  | 112 => ⟨S2002944, .f32⟩
  | 113 => ⟨S1x2002944, .f32⟩
  | 114 => ⟨S1x128, .f32⟩
  | 115 => ⟨S1x128, .f32⟩
  | 116 => ⟨S1x128, .f32⟩
  | 117 => ⟨S_, .f32⟩
  | 118 => ⟨S5x128, .f32⟩
  | 119 => ⟨S8x128, .f32⟩
  | 120 => ⟨S8x128, .bf16⟩
  | 121 => ⟨S1x1, .f32⟩
  | 122 => ⟨S1x1, .f32⟩
  | 123 => ⟨S1x1, .f32⟩
  | 124 => ⟨S_, .f32⟩
  | 125 => ⟨S5x1, .f32⟩
  | 126 => ⟨S8x1, .f32⟩
  | 127 => ⟨S3x2002944, .f32⟩
  | _ => ⟨S10000x128, .f32⟩

abbrev hbmTy0_1 (i : Nat) : BufTy := match i % 128 with
  | 0 => ⟨S1x2000000, .f32⟩
  | 1 => ⟨S2000000, .f32⟩
  | 2 => ⟨S2000000x1, .f32⟩
  | 3 => ⟨S1x2000000, .f32⟩
  | 4 => ⟨S2000000, .f32⟩
  | 5 => ⟨S2000000x1, .f32⟩
  | 6 => ⟨S1x2000000, .f32⟩
  | 7 => ⟨S2000000, .f32⟩
  | 8 => ⟨S2000000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S8x128, .bf16⟩
  | .local _ .vmem, ⟨9, _⟩ => ⟨S8x1, .f32⟩
  | .local _ .vmem, ⟨10, _⟩ => ⟨S3x4096, .f32⟩
  | .local _ .vmem, ⟨11, _⟩ => ⟨S3x4096, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_v14 : Ref sig .tc := ⟨.hbm, 39, rfl⟩
abbrev main_call2_cst : Ref sig .tc := ⟨.hbm, 40, rfl⟩
abbrev main_call2_v15 : Ref sig .tc := ⟨.hbm, 41, rfl⟩
abbrev main_v4 : Ref sig .tc := ⟨.hbm, 42, rfl⟩
abbrev main_call3_c : Ref sig .tc := ⟨.hbm, 43, rfl⟩
abbrev main_call3_v0 : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_c_1 : Ref sig .tc := ⟨.hbm, 51, rfl⟩
abbrev main_call3_c_2 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_3 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_call3_cst : Ref sig .tc := ⟨.hbm, 63, rfl⟩
abbrev main_call3_v15 : Ref sig .tc := ⟨.hbm, 64, rfl⟩
abbrev main_v5 : Ref sig .tc := ⟨.hbm, 65, rfl⟩
abbrev main_v6 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_cst : Ref sig .tc := ⟨.hbm, 86, rfl⟩
abbrev main_call4_v14 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_cst : Ref sig .tc := ⟨.hbm, 110, rfl⟩
abbrev main_call5_v14 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_cst : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_cst_1 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S2000000_S2002944_029440 : S2000000.Pads (![0] : Fin 1 → Nat) ![2944] ![0] S2002944
  h_S_ : 0 < S_.numel
  transposes_S10000x128_S128x10000_1_0 : S10000x128.Transposes [1, 0] S128x10000
  transposes_S2000x128_S128x2000_1_0 : S2000x128.Transposes [1, 0] S128x2000
  bcast_S_S2002944 : S_.BroadcastsInDim S2002944 (![] : Fin 0 → Fin S2002944.rank)
  bcast_S2002944_S2002944x1_0 : S2002944.BroadcastsInDim S2002944x1 (![0] : Fin 1 → Fin S2002944x1.rank)
  bcast_S_S2002944x1 : S_.BroadcastsInDim S2002944x1 (![] : Fin 0 → Fin S2002944x1.rank)
  bcast_S1_S1x1_1 : S1.BroadcastsInDim S1x1 (![1] : Fin 1 → Fin S1x1.rank)
  bcast_S1x1_S2002944x1_0_1 : S1x1.BroadcastsInDim S2002944x1 (![0, 1] : Fin 2 → Fin S2002944x1.rank)
  reducesTo_S2002944x1_S2002944_d1 : S2002944x1.ReducesTo [1] S2002944
  bcast_S2002944_S128x2002944_1 : S2002944.BroadcastsInDim S128x2002944 (![1] : Fin 1 → Fin S128x2002944.rank)
  bcast_S_S128x2002944 : S_.BroadcastsInDim S128x2002944 (![] : Fin 0 → Fin S128x2002944.rank)
  shapeCasts_S10000x1_S10000 : S10000x1.ShapeCasts S10000
  shapeCasts_S2002944_S1x2002944 : S2002944.ShapeCasts S1x2002944
  shapeCasts_S2000x1_S2000 : S2000x1.ShapeCasts S2000
  transposes_S128x1_S1x128_1_0 : S128x1.Transposes [1, 0] S1x128
  bcast_S_S5x128 : S_.BroadcastsInDim S5x128 (![] : Fin 0 → Fin S5x128.rank)
  concatenates_S1x128_S1x128_S1x128_S5x128_S8x128_d0 : Shape.Concatenates [S1x128, S1x128, S1x128, S5x128] S8x128 0
  bitsLt_bf16_f32 : FTy.bits .bf16 < FTy.bits .f32
  shapeCasts_S1_S1x1 : S1.ShapeCasts S1x1
  bcast_S_S5x1 : S_.BroadcastsInDim S5x1 (![] : Fin 0 → Fin S5x1.rank)
  concatenates_S1x1_S1x1_S1x1_S5x1_S8x1_d0 : Shape.Concatenates [S1x1, S1x1, S1x1, S5x1] S8x1 0
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x4096 : S8x1.Broadcasts S8x4096
  slices_S8x4096_o0_0_S1x4096 : S8x4096.Slices ![0, 0] S1x4096
  slices_S8x4096_o1_0_S1x4096 : S8x4096.Slices ![1, 0] S1x4096
  slices_S8x4096_o2_0_S1x4096 : S8x4096.Slices ![2, 0] S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S3x4096_S1x4096_0_0 : ∀ a, (![0, 0] : Fin 2 → Nat) a + S1x4096.size a ≤ S3x4096.size a
  inb_S3x4096_S1x4096_1_0 : ∀ a, (![1, 0] : Fin 2 → Nat) a + S1x4096.size a ≤ S3x4096.size a
  inb_S3x4096_S1x4096_2_0 : ∀ a, (![2, 0] : Fin 2 → Nat) a + S1x4096.size a ≤ S3x4096.size a
  slices_S3x2002944_S1x2000000_0_0 : S3x2002944.Slices ![0, 0] S1x2000000
  shapeCasts_S1x2000000_S2000000 : S1x2000000.ShapeCasts S2000000
  shapeCasts_S2000000_S2000000x1 : S2000000.ShapeCasts S2000000x1
  slices_S3x2002944_S1x2000000_1_0 : S3x2002944.Slices ![1, 0] S1x2000000
  slices_S3x2002944_S1x2000000_2_0 : S3x2002944.Slices ![2, 0] S1x2000000
  gather_S128x10000_S2002944x1_S128x2002944_0_1_n_n_1_1_1281_wf : GatherDims.WF S128x10000 S2002944x1 S128x2002944 [0] [1] [] [1] [] 1 ![128, 1]
  gather_S128x2000_S2002944x1_S128x2002944_0_1_n_n_1_1_1281_wf : GatherDims.WF S128x2000 S2002944x1 S128x2002944 [0] [1] [] [1] [] 1 ![128, 1]
  gather_S10000_S2002944x1_S2002944_n_0_n_n_0_1_1_wf : GatherDims.WF S10000 S2002944x1 S2002944 [] [0] [] [0] [] 1 ![1]
  gather_S2000_S2002944x1_S2002944_n_0_n_n_0_1_1_wf : GatherDims.WF S2000 S2002944x1 S2002944 [] [0] [] [0] [] 1 ![1]
  dot_S8x128_S128x4096_S8x4096_1_0_0_1_n_n_wf : DotDims.WF S8x128 S128x4096 S8x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x2002944.size a
  hwx0_0 : ∀ i : grid0.Coords, EltTy.bits .f32 = 32 ∨ (Rect.block (s := S128x2002944) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x2002944.size a
  hwx0_1 : ∀ i : grid0.Coords, EltTy.bits .f32 = 32 ∨ (Rect.block (s := S128x2002944) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x2002944.size a
  hwx0_2 : ∀ i : grid0.Coords, EltTy.bits .f32 = 32 ∨ (Rect.block (s := S1x2002944) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x2002944.size a
  hwx0_3 : ∀ i : grid0.Coords, EltTy.bits .f32 = 32 ∨ (Rect.block (s := S1x2002944) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .bf16 = 32 ∨ (Rect.block (s := S8x128) S8x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x4096.size a ≤ S3x2002944.size a
  hwx0_6 : ∀ i : grid0.Coords, EltTy.bits .f32 = 32 ∨ (Rect.block (s := S3x2002944) S3x4096.size (cc0_transform_6 i) (hinb0_6 i)).WholeWords (EltTy.packing .f32)

variable [Facts₀]

def gather_S128x10000_S2002944x1_S128x2002944_0_1_n_n_1_1_1281 : GatherDims S128x10000 S2002944x1 S128x2002944 where
  offsetDims := [0]
  collapsedSliceDims := [1]
  operandBatchingDims := []
  startIndicesBatchingDims := []
  startIndexMap := [1]
  indexVectorDim := 1
  sliceSizes := ![128, 1]
  wf := gather_S128x10000_S2002944x1_S128x2002944_0_1_n_n_1_1_1281_wf
def gather_S128x2000_S2002944x1_S128x2002944_0_1_n_n_1_1_1281 : GatherDims S128x2000 S2002944x1 S128x2002944 where
  offsetDims := [0]
  collapsedSliceDims := [1]
  operandBatchingDims := []
  startIndicesBatchingDims := []
  startIndexMap := [1]
  indexVectorDim := 1
  sliceSizes := ![128, 1]
  wf := gather_S128x2000_S2002944x1_S128x2002944_0_1_n_n_1_1_1281_wf
def gather_S10000_S2002944x1_S2002944_n_0_n_n_0_1_1 : GatherDims S10000 S2002944x1 S2002944 where
  offsetDims := []
  collapsedSliceDims := [0]
  operandBatchingDims := []
  startIndicesBatchingDims := []
  startIndexMap := [0]
  indexVectorDim := 1
  sliceSizes := ![1]
  wf := gather_S10000_S2002944x1_S2002944_n_0_n_n_0_1_1_wf
def gather_S2000_S2002944x1_S2002944_n_0_n_n_0_1_1 : GatherDims S2000 S2002944x1 S2002944 where
  offsetDims := []
  collapsedSliceDims := [0]
  operandBatchingDims := []
  startIndicesBatchingDims := []
  startIndexMap := [0]
  indexVectorDim := 1
  sliceSizes := ![1]
  wf := gather_S2000_S2002944x1_S2002944_n_0_n_n_0_1_1_wf
def dot_S8x128_S128x4096_S8x4096_1_0_0_1_n_n : DotDims S8x128 S128x4096 S8x4096 where
  lhsContracting := [1]
  rhsContracting := [0]
  lhsNonContracting := [0]
  rhsNonContracting := [1]
  lhsBatch := []
  rhsBatch := []
  wf := dot_S8x128_S128x4096_S8x4096_1_0_0_1_n_n_wf

abbrev win0_0 : Pipeline.Window sig grid0 :=
  Pipeline.Window.ofSpec (Memref.whole main_v4) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S3x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S2000x128 : Shape := ⟨2, ![2000, 128]⟩
abbrev S2000x1 : Shape := ⟨2, ![2000, 1]⟩
abbrev S10000x1 : Shape := ⟨2, ![10000, 1]⟩
abbrev S128x1 : Shape := ⟨2, ![128, 1]⟩
abbrev S1 : Shape := ⟨1, ![1]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2000x128, .f32⟩
  | .hbm, ⟨2, _⟩ => ⟨S2000x1, .f32⟩
  | .hbm, ⟨3, _⟩ => ⟨S10000x1, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1, .f32⟩
  | .hbm, ⟨10, _⟩ => ⟨S2000000, .i32⟩
  | .hbm, ⟨11, _⟩ => ⟨S2000000, .i32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x128, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x128, .f32⟩
  | .hbm, ⟨30, _⟩ => ⟨S2000000x128, .f32⟩
  | .hbm, ⟨31, _⟩ => ⟨S2000000x1, .f32⟩
  | .hbm, ⟨32, _⟩ => ⟨S1x1, .f32⟩
  | .hbm, ⟨33, _⟩ => ⟨S2000000x1, .f32⟩
  | .hbm, ⟨34, _⟩ => ⟨S2000000x1, .f32⟩
  | .hbm, ⟨35, _⟩ => ⟨S2000000x1, .f32⟩
  | .hbm, ⟨36, _⟩ => ⟨S2000000x1, .f32⟩
  | .hbm, ⟨37, _⟩ => ⟨S_, .f32⟩
  | .hbm, ⟨38, _⟩ => ⟨S2000000x1, .f32⟩
  | .hbm, ⟨39, _⟩ => ⟨S2000000x1, .f32⟩
  | .hbm, ⟨40, _⟩ => ⟨S_, .f32⟩
  | .hbm, ⟨41, _⟩ => ⟨S2000000x1, .f32⟩
  | .hbm, ⟨42, _⟩ => ⟨S2000000x1, .f32⟩
  | .hbm, ⟨43, _⟩ => ⟨S2000000x1, .f32⟩
  | .hbm, ⟨44, _⟩ => ⟨S1x1, .f32⟩
  | .hbm, ⟨45, _⟩ => ⟨S2000000x1, .f32⟩
  | .hbm, ⟨46, _⟩ => ⟨S2000000x1, .f32⟩
  | .hbm, ⟨47, _⟩ => ⟨S2000000x1, .f32⟩
  | .hbm, ⟨48, _⟩ => ⟨S1x1, .f32⟩
  | .hbm, ⟨49, _⟩ => ⟨S2000000x1, .f32⟩
  | .hbm, ⟨50, _⟩ => ⟨S2000000x1, .f32⟩
  | .hbm, ⟨51, _⟩ => ⟨S2000000x1, .f32⟩
  | .hbm, ⟨52, _⟩ => ⟨S2000000x1, .f32⟩
  | .hbm, ⟨53, _⟩ => ⟨S_, .f32⟩
  | .hbm, ⟨54, _⟩ => ⟨S2000000x1, .f32⟩
  | .hbm, ⟨55, _⟩ => ⟨S2000000x1, .f32⟩
  | .hbm, ⟨56, _⟩ => ⟨S_, .f32⟩
  | .hbm, ⟨57, _⟩ => ⟨S2000000x1, .f32⟩
  | .hbm, ⟨58, _⟩ => ⟨S2000000x1, .f32⟩
  | .hbm, ⟨59, _⟩ => ⟨S_, .i32⟩
  | .hbm, ⟨60, _⟩ => ⟨S2000000, .i32⟩
  | .hbm, ⟨61, _⟩ => ⟨S2000000, .i1⟩
  | .hbm, ⟨62, _⟩ => ⟨S_, .i32⟩
  | .hbm, ⟨63, _⟩ => ⟨S2000000, .i32⟩
  | .hbm, ⟨64, _⟩ => ⟨S2000000, .i32⟩
  | .hbm, ⟨65, _⟩ => ⟨S2000000, .i32⟩
  | .hbm, ⟨66, _⟩ => ⟨S2000000x1, .i32⟩
  | .hbm, ⟨67, _⟩ => ⟨S2000000x1, .f32⟩
  | .hbm, ⟨68, _⟩ => ⟨S_, .i32⟩
  | .hbm, ⟨69, _⟩ => ⟨S2000000, .i32⟩
  | .hbm, ⟨70, _⟩ => ⟨S2000000, .i1⟩
  | .hbm, ⟨71, _⟩ => ⟨S_, .i32⟩
  | .hbm, ⟨72, _⟩ => ⟨S2000000, .i32⟩
  | .hbm, ⟨73, _⟩ => ⟨S2000000, .i32⟩
  | .hbm, ⟨74, _⟩ => ⟨S2000000, .i32⟩
  | .hbm, ⟨75, _⟩ => ⟨S2000000x1, .i32⟩
  | .hbm, ⟨76, _⟩ => ⟨S2000000x1, .f32⟩
  | .hbm, ⟨77, _⟩ => ⟨S2000000x1, .f32⟩
  | .hbm, ⟨78, _⟩ => ⟨S_, .f32⟩
  | .hbm, ⟨79, _⟩ => ⟨S2000000x1, .f32⟩
  | .hbm, ⟨80, _⟩ => ⟨S2000000x1, .f32⟩
  | .hbm, ⟨81, _⟩ => ⟨S2000000x1, .f32⟩
  | .hbm, ⟨82, _⟩ => ⟨S2000000x1, .f32⟩
  | .hbm, ⟨83, _⟩ => ⟨S2000000x1, .i1⟩
  | .hbm, ⟨84, _⟩ => ⟨S2000000x1, .f32⟩
  | .hbm, ⟨85, _⟩ => ⟨S2000000x1, .f32⟩
  | .hbm, ⟨86, _⟩ => ⟨S2000000x1, .f32⟩
  | .hbm, ⟨87, _⟩ => ⟨S2000000x1, .f32⟩
  | .hbm, ⟨88, _⟩ => ⟨S2000000x1, .f32⟩
  | .hbm, ⟨89, _⟩ => ⟨S2000000x1, .f32⟩
  | .hbm, ⟨90, _⟩ => ⟨S2000000x1, .f32⟩
  | .hbm, ⟨91, _⟩ => ⟨S2000000x1, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S2000000x1, .f32⟩
  | .hbm, ⟨96, _⟩ => ⟨S2000000x1, .f32⟩
  | .hbm, ⟨97, _⟩ => ⟨S_, .f32⟩
  | .hbm, ⟨98, _⟩ => ⟨S2000000x1, .f32⟩
  | .hbm, ⟨99, _⟩ => ⟨S2000000x1, .f32⟩
  | .hbm, ⟨100, _⟩ => ⟨S2000000x1, .f32⟩
  | .hbm, ⟨101, _⟩ => ⟨S2000000x1, .f32⟩
  | .hbm, ⟨102, _⟩ => ⟨S_, .f32⟩
  | .hbm, ⟨103, _⟩ => ⟨S2000000x1, .f32⟩
  | .hbm, ⟨104, _⟩ => ⟨S2000000x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S2000000x1, .f32⟩
  | .hbm, ⟨109, _⟩ => ⟨S2000000x1, .f32⟩
  | .hbm, ⟨110, _⟩ => ⟨S_, .f32⟩
  | .hbm, ⟨111, _⟩ => ⟨S2000000x1, .f32⟩
  | .hbm, ⟨112, _⟩ => ⟨S2000000x1, .f32⟩
  | .hbm, ⟨113, _⟩ => ⟨S2000000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v54 : Ref sig .tc := ⟨.hbm, 91, rfl⟩
abbrev main_cst_10 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_12 : Ref sig .tc := ⟨.hbm, 102, rfl⟩
abbrev main_v58 : Ref sig .tc := ⟨.hbm, 103, rfl⟩
abbrev main_v59 : Ref sig .tc := ⟨.hbm, 104, rfl⟩
abbrev main_cst_13 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v60 : Ref sig .tc := ⟨.hbm, 112, rfl⟩
abbrev main_v61 : Ref sig .tc := ⟨.hbm, 113, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  gather_S10000x128_S2000000x1_S2000000x128_1_0_n_n_0_1_1128_wf : GatherDims.WF S10000x128 S2000000x1 S2000000x128 [1] [0] [] [0] [] 1 ![1, 128]
  gather_S2000x128_S2000000x1_S2000000x128_1_0_n_n_0_1_1128_wf : GatherDims.WF S2000x128 S2000000x1 S2000000x128 [1] [0] [] [0] [] 1 ![1, 128]
  dot_S2000000x128_S128x1_S2000000x1_1_0_0_1_n_n_wf : DotDims.WF S2000000x128 S128x1 S2000000x1 [1] [0] [0] [1] [] []
  gather_S2000x1_S2000000x1_S2000000x1_1_0_n_n_0_1_11_wf : GatherDims.WF S2000x1 S2000000x1 S2000000x1 [1] [0] [] [0] [] 1 ![1, 1]
  gather_S10000x1_S2000000x1_S2000000x1_1_0_n_n_0_1_11_wf : GatherDims.WF S10000x1 S2000000x1 S2000000x1 [1] [0] [] [0] [] 1 ![1, 1]

variable [Facts₀]

def gather_S10000x128_S2000000x1_S2000000x128_1_0_n_n_0_1_1128 : GatherDims S10000x128 S2000000x1 S2000000x128 where
  offsetDims := [1]
  collapsedSliceDims := [0]
  operandBatchingDims := []
  startIndicesBatchingDims := []
  startIndexMap := [0]
  indexVectorDim := 1
  sliceSizes := ![1, 128]
  wf := gather_S10000x128_S2000000x1_S2000000x128_1_0_n_n_0_1_1128_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def gather_S2000x1_S2000000x1_S2000000x1_1_0_n_n_0_1_11 : GatherDims S2000x1 S2000000x1 S2000000x1 where
  offsetDims := [1]
  collapsedSliceDims := [0]
  operandBatchingDims := []
  startIndicesBatchingDims := []
  startIndexMap := [0]
  indexVectorDim := 1
  sliceSizes := ![1, 1]
  wf := gather_S2000x1_S2000000x1_S2000000x1_1_0_n_n_0_1_11_wf
def gather_S10000x1_S2000000x1_S2000000x1_1_0_n_n_0_1_11 : GatherDims S10000x1 S2000000x1 S2000000x1 where
  offsetDims := [1]
  collapsedSliceDims := [0]
  operandBatchingDims := []
  startIndicesBatchingDims := []
  startIndexMap := [0]
  indexVectorDim := 1
  sliceSizes := ![1, 1]
  wf := gather_S10000x1_S2000000x1_S2000000x1_1_0_n_n_0_1_11_wf

class Facts : Prop extends Facts₀ where

variable [Facts]
-- ==== Proof.KIRegion.lean ====
/-
  The idealized kernel's one region, seen from @main: what each window's array holds when the region is entered
  (the host lines before it applied to the argument arrays), each window's block at a grid point, what the body
  leaves in the output window's buffer at a point — three row pieces of a 3 x 4096 block: the mean head scaled by
  the size factor, the clipped softplus of the dispersion head, and the sigmoid of the dropout head, each a function
  of the six input blocks — and the proof data built from these.
-/
import proofs.«414667_j76184129896495_3_alg».proof.Proof.Gen.KernelIdeal.Launch
import proofs.«414667_j76184129896495_3_alg».proof.Proof.Gen.KernelIdeal.Skeleton
import proofs.«414667_j76184129896495_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The twelve stretches of host lines before the region, in order. -/
abbrev preOps : List (List (HloOp τ sig (Elt F))) :=
  [hostOps0, hostOps0_1, hostOps0_2, hostOps0_3, hostOps0_4, hostOps0_5, hostOps0_6, hostOps0_7, hostOps0_8,
   hostOps0_9, hostOps0_10, hostOps0_11]

/-- Core `c`'s buffer contents when the region is entered: the host lines before it applied to the launch contents. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes -/

abbrev rFeat : Rect S128x4096 := Rect.unit (s := S128x4096) ![0, 0] S128x4096.size inb_S128x4096_S128x4096_0_0
abbrev rRow : Rect S1x4096 := Rect.unit (s := S1x4096) ![0, 0] S1x4096.size inb_S1x4096_S1x4096_0_0
abbrev rWt : Rect S8x128 := Rect.unit (s := S8x128) ![0, 0] S8x128.size inb_S8x128_S8x128_0_0
abbrev rBias : Rect S8x1 := Rect.unit (s := S8x1) ![0, 0] S8x1.size inb_S8x1_S8x1_0_0
abbrev rOut0 : Rect S3x4096 := Rect.unit (s := S3x4096) ![0, 0] S1x4096.size inb_S3x4096_S1x4096_0_0
abbrev rOut1 : Rect S3x4096 := Rect.unit (s := S3x4096) ![1, 0] S1x4096.size inb_S3x4096_S1x4096_1_0
abbrev rOut2 : Rect S3x4096 := Rect.unit (s := S3x4096) ![2, 0] S1x4096.size inb_S3x4096_S1x4096_2_0

/-! ## What the body leaves in the output window's buffer -/

/-- Row 0 of the output block: the size factor times the clipped `exp(gene factor · sigmoid(mean head)) − 1`. -/
def rowMu (x0 x1 : Vec F S128x4096 .f32) (x2 x3 : Vec F S1x4096 .f32) (x4 : Vec F S8x128 .bf16) (x5 : Vec F S8x1 .f32) : FVec F S1x4096 .f32 :=
  k0_pay1 (k0_pay3 (View.ld x2 rRow)) (k0_pay7 (View.ld x0 rFeat) (View.ld x1 rFeat) (View.ld x4 rWt) (View.ld x5 rBias) (View.ld x3 rRow))
/-- Row 1: the clipped softplus of the gene factor times the dispersion head. -/
def rowDisp (x0 x1 : Vec F S128x4096 .f32) (x3 : Vec F S1x4096 .f32) (x4 : Vec F S8x128 .bf16) (x5 : Vec F S8x1 .f32) : FVec F S1x4096 .f32 :=
  k0_pay6 (View.ld x0 rFeat) (View.ld x1 rFeat) (View.ld x4 rWt) (View.ld x5 rBias) (View.ld x3 rRow)
/-- Row 2: the sigmoid of the dropout head. -/
def rowPi (x0 x1 : Vec F S128x4096 .f32) (x4 : Vec F S8x128 .bf16) (x5 : Vec F S8x1 .f32) : FVec F S1x4096 .f32 :=
  k0_pay5 (View.ld x0 rFeat) (View.ld x1 rFeat) (View.ld x4 rWt) (View.ld x5 rBias)

/-- The output window's buffer after the body, from the six input blocks: its three row stores as pieces, last first. -/
def outBlk (x0 x1 : Vec F S128x4096 .f32) (x2 x3 : Vec F S1x4096 .f32) (x4 : Vec F S8x128 .bf16) (x5 : Vec F S8x1 .f32) : Vec F S3x4096 .f32 :=
  View.canon [⟨rOut2, rowPi x0 x1 x4 x5⟩, ⟨rOut1, rowDisp x0 x1 x3 x4 x5⟩, ⟨rOut0, rowMu x0 x1 x2 x3 x4 x5⟩]

/-! ## The proof data -/

/-- The proof data of the one pipeline on core `c`: the arrays as the region finds them; after the body at point `t`
    each input's buffer at its block and the output's at `outBlk` of the input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t =
    outBlk (iblk m c 0 t) (iblk m c 1 t) (iblk m c 2 t) (iblk m c 3 t) (iblk m c 4 t) (iblk m c 5 t) := by dsimp only [dats]

end Cert.KernelIdeal.Region

end
-- ==== Proof.KIHost.lean ====
/-
  @main around the region: the twelve stretches of host lines before it allocate nothing and touch TensorCore buffers
  only, so @main reduces to the region continued by the nine lines after it; those nine lines touch only unscoped
  buffers, allocate nothing and write no window's array. No host line, before or after, writes an argument array, so
  each argument is found by the region as launched and ends as launched: the frame claim's post follows from any run
  to the region's frame post.
-/
import proofs.«414667_j76184129896495_3_alg».proof.Proof.KIRegion

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which buffers a host line writes

Every host line of this program writes exactly one buffer, its result. So a line keeps every buffer of a list once its
result is not in the list, and which reference is which is decided on the references alone. -/

/-- The twelve argument arrays. -/
abbrev argRefs : List (Ref sig .tc) :=
  [main_arg0, main_arg1, main_arg2, main_arg3, main_arg4, main_arg5, main_arg6, main_arg7, main_arg8, main_arg9, main_arg10, main_arg11]

/-- The seven windows' arrays. -/
abbrev arrRefs : List (Ref sig .tc) :=
  [main_v4, main_v5, main_v8, main_v11, main_v17, main_v22, main_v23]

/-- An operation whose only written buffer is `y` writes no buffer of a list that does not hold `y`. -/
theorem keeps_of_writes (L : List (Ref sig .tc)) {op : HloOp τ sig (Elt F)} {y : Ref sig .tc}
    (hw : op.writes = {Proc.devRef .tc y}) (hy : y ∉ L) : ∀ r ∈ L, Proc.devRef (τ := τ) .tc r ∉ op.writes := by
  intro r hr h
  rw [hw, Finset.mem_singleton] at h
  exact hy (Proc.devRef_injective _ h ▸ hr)

/-- Every window's array is in the list of them. -/
theorem arrRef_mem : ∀ w, Pipeline.arrRef spec0 w ∈ arrRefs := by decide
/-- No argument array is a window's array. -/
theorem arrRef_ne_arg : ∀ r ∈ argRefs, ∀ w, Pipeline.arrRef spec0 w ≠ r := by decide
/-- The argument arrays are unscoped. -/
theorem arg_unscoped : ∀ r ∈ argRefs, r.isScoped = false := by decide

/-! ## The lines before the region

Stretch by stretch: no line allocates, and no line's result is an argument array. -/

theorem hostOps0_fresh : (hostOps0 : List (HloOp τ sig (Elt F))).Forall fun op => op.fresh = ∅ := by
  simp only [List.Forall]; repeat' constructor
theorem hostOps0_keeps : (hostOps0 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_1_fresh : (hostOps0_1 : List (HloOp τ sig (Elt F))).Forall fun op => op.fresh = ∅ := by
  simp only [List.Forall]; repeat' constructor
theorem hostOps0_1_keeps : (hostOps0_1 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_2_fresh : (hostOps0_2 : List (HloOp τ sig (Elt F))).Forall fun op => op.fresh = ∅ := by
  simp only [List.Forall]; repeat' constructor
theorem hostOps0_2_keeps : (hostOps0_2 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_3_fresh : (hostOps0_3 : List (HloOp τ sig (Elt F))).Forall fun op => op.fresh = ∅ := by
  simp only [List.Forall]; repeat' constructor
theorem hostOps0_3_keeps : (hostOps0_3 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_4_fresh : (hostOps0_4 : List (HloOp τ sig (Elt F))).Forall fun op => op.fresh = ∅ := by
  simp only [List.Forall]; repeat' constructor
theorem hostOps0_4_keeps : (hostOps0_4 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_5_fresh : (hostOps0_5 : List (HloOp τ sig (Elt F))).Forall fun op => op.fresh = ∅ := by
  simp only [List.Forall]; repeat' constructor
theorem hostOps0_5_keeps : (hostOps0_5 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_6_fresh : (hostOps0_6 : List (HloOp τ sig (Elt F))).Forall fun op => op.fresh = ∅ := by
  simp only [List.Forall]; repeat' constructor
theorem hostOps0_6_keeps : (hostOps0_6 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_7_fresh : (hostOps0_7 : List (HloOp τ sig (Elt F))).Forall fun op => op.fresh = ∅ := by
  simp only [List.Forall]; repeat' constructor
theorem hostOps0_7_keeps : (hostOps0_7 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_8_fresh : (hostOps0_8 : List (HloOp τ sig (Elt F))).Forall fun op => op.fresh = ∅ := by
  simp only [List.Forall]; repeat' constructor
theorem hostOps0_8_keeps : (hostOps0_8 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_9_fresh : (hostOps0_9 : List (HloOp τ sig (Elt F))).Forall fun op => op.fresh = ∅ := by
  simp only [List.Forall]; repeat' constructor
theorem hostOps0_9_keeps : (hostOps0_9 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_10_fresh : (hostOps0_10 : List (HloOp τ sig (Elt F))).Forall fun op => op.fresh = ∅ := by
  simp only [List.Forall]; repeat' constructor
theorem hostOps0_10_keeps : (hostOps0_10 : List (HloOp τ sig (Elt F))).Forall fun op =>
    ∀ r ∈ argRefs, Proc.devRef (τ := τ) .tc r ∉ op.writes := by
  simp only [List.Forall]; repeat' apply And.intro
  all_goals exact keeps_of_writes argRefs rfl (by decide)
theorem hostOps0_11_fresh : (hostOps0_11 : List (HloOp τ sig (Elt F))).Forall fun op => op.fresh = ∅ := by
  simp only [List.Forall]; repeat' constructor
theorem hostOps0_11_keeps : (hostOps0_11 : List (HloOp τ sig (Elt F))).Forall fun op =>
    ∀ r ∈ argRefs, Proc.devRef (τ := τ) .tc r ∉ op.writes := by
  simp only [List.Forall]; repeat' apply And.intro
  all_goals exact keeps_of_writes argRefs rfl (by decide)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩
theorem preOps_fresh : (preOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩
/-- No line before the region writes an argument array. -/
theorem preOps_keeps : ∀ op ∈ List.flatten (preOps (F := F)), ∀ r ∈ argRefs, Proc.devRef (τ := τ) .tc r ∉ op.writes :=
  List.forall_mem_flatten.mpr fun ops hops => List.forall_iff_forall_mem.mp
    (List.forall_iff_forall_mem.mp
      (show (preOps (F := F)).Forall fun ops => ops.Forall fun op => ∀ r ∈ argRefs, Proc.devRef (τ := τ) .tc r ∉ op.writes from
        ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps⟩) ops hops)

/-! ## The lines after the region -/

theorem hostOps1_fresh : (hostOps1 : List (HloOp τ sig (Elt F))).Forall fun op => op.fresh = ∅ := by
  simp only [List.Forall]; repeat' constructor
/-- No line after the region writes an argument array or a window's array. -/
theorem hostOps1_keeps : (hostOps1 : List (HloOp τ sig (Elt F))).Forall fun op =>
    ∀ r ∈ argRefs ++ arrRefs, Proc.devRef (τ := τ) .tc r ∉ op.writes := by
  simp only [List.Forall]; repeat' apply And.intro
  all_goals exact keeps_of_writes (argRefs ++ arrRefs) rfl (by decide)

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The lines after the region touch unscoped TensorCore buffers only, and with nothing prefetched every such buffer is a
    window's array or bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := List.mem_singleton.mp hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  obtain rfl : ops = hostOps1 := List.mem_singleton.mp hops
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := List.mem_singleton.mp hops
  exact (List.forall_iff_forall_mem.mp hostOps1_keeps) op hop _ (List.mem_append_right _ (arrRef_mem w))

/-! ## The argument arrays, at the region and at the end -/

/-- No host line before the region writes an argument array: the region finds it as launched. -/
theorem V_arg (c : Dev nD) {r : Ref sig .tc} (hr : r ∈ argRefs) : V m c r = m ((c : Thread nD τ).loc r) :=
  StableHlo.after_of_forall_not_mem (b := Proc.devRef .tc r) _ _ fun op hop => preOps_keeps op hop r hr

/-- No host line after the region writes an argument array, and it is no window's array: it ends as launched. -/
theorem W_arg (dats : (p : Fin 1) → (c : Dev nD) → Dat τ (Elt F) Unit ℕ (UR sig nD τ) ℕ (cfgs p) c) (c : Dev nD)
    {r : Ref sig .tc} (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => by
      rw [List.flatten_singleton] at hop
      exact (List.forall_iff_forall_mem.mp hostOps1_keeps) op hop r (List.mem_append_left _ hr)),
    Pipeline.withArrays_of_ne _ c (V0 m c) _ r (arrRef_ne_arg r hr)]
  exact V_arg m c hr

theorem V_main_arg0 (c : Dev nD) : V m c main_arg0 = m ((c : Thread nD τ).loc main_arg0) := V_arg m c (by decide)
theorem V_main_arg1 (c : Dev nD) : V m c main_arg1 = m ((c : Thread nD τ).loc main_arg1) := V_arg m c (by decide)
theorem V_main_arg2 (c : Dev nD) : V m c main_arg2 = m ((c : Thread nD τ).loc main_arg2) := V_arg m c (by decide)
theorem V_main_arg3 (c : Dev nD) : V m c main_arg3 = m ((c : Thread nD τ).loc main_arg3) := V_arg m c (by decide)
theorem V_main_arg4 (c : Dev nD) : V m c main_arg4 = m ((c : Thread nD τ).loc main_arg4) := V_arg m c (by decide)
theorem V_main_arg5 (c : Dev nD) : V m c main_arg5 = m ((c : Thread nD τ).loc main_arg5) := V_arg m c (by decide)
theorem V_main_arg6 (c : Dev nD) : V m c main_arg6 = m ((c : Thread nD τ).loc main_arg6) := V_arg m c (by decide)
theorem V_main_arg7 (c : Dev nD) : V m c main_arg7 = m ((c : Thread nD τ).loc main_arg7) := V_arg m c (by decide)
theorem V_main_arg8 (c : Dev nD) : V m c main_arg8 = m ((c : Thread nD τ).loc main_arg8) := V_arg m c (by decide)
theorem V_main_arg9 (c : Dev nD) : V m c main_arg9 = m ((c : Thread nD τ).loc main_arg9) := V_arg m c (by decide)
theorem V_main_arg10 (c : Dev nD) : V m c main_arg10 = m ((c : Thread nD τ).loc main_arg10) := V_arg m c (by decide)
theorem V_main_arg11 (c : Dev nD) : V m c main_arg11 = m ((c : Thread nD τ).loc main_arg11) := V_arg m c (by decide)
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := W_arg m dats c (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := W_arg m dats c (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := W_arg m dats c (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := W_arg m dats c (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := W_arg m dats c (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := W_arg m dats c (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := W_arg m dats c (by decide)

/-- At the end of a frame run an argument array, bypassing the region, holds what the lines after the region leave of its
    region-entry contents: its launch contents. -/
theorem arg_end (dats : (p : Fin 1) → (c : Dev nD) → Dat τ (Elt F) Unit ℕ (UR sig nD τ) ℕ (cfgs p) c)
    {r' : PUnit × MemSt nD τ sig (Elt F)}
    (h : Pipeline.FramePost cfgs dats 0 (Pipeline.afterTail₀ cfgs dats 0 (V0 m) [hostOps1]) r') (c : Dev nD)
    {r : Ref sig .tc} (hr : r ∈ argRefs) : r'.2.mem ((c.tc : Thread nD τ).loc r) = m ((c.tc : Thread nD τ).loc r) :=
  ((h c).2 r (Pipeline.mem_restRefs_of r (arg_unscoped r hr) (arrRef_ne_arg r hr))).trans (W_arg m dats c hr)

/-- THE FRAME from a frame run: for any proof data whose arrays are the region-entry contents, a run to the region's
    frame post leaves every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨arg_end m dats h c (r := main_arg0) (by decide),
     arg_end m dats h c (r := main_arg1) (by decide),
     arg_end m dats h c (r := main_arg2) (by decide),
     arg_end m dats h c (r := main_arg3) (by decide),
     arg_end m dats h c (r := main_arg4) (by decide),
     arg_end m dats h c (r := main_arg5) (by decide),
     arg_end m dats h c (r := main_arg6) (by decide),
     arg_end m dats h c (r := main_arg7) (by decide),
     arg_end m dats h c (r := main_arg8) (by decide),
     arg_end m dats h c (r := main_arg9) (by decide),
     arg_end m dats h c (r := main_arg10) (by decide),
     arg_end m dats h c (r := main_arg11) (by decide)⟩) h

end Cert.KernelIdeal.Region

end
-- ==== Proof.KIBody.lean ====
/-
  The body at a grid point: on the six input windows' staging buffers holding their blocks and the output window's
  holding anything, the kernel function loads the inputs whole, computes, and stores three rows that tile the output
  buffer, so it ends with the inputs' buffers as they were and the output's at the three row pieces.
-/
import proofs.«414667_j76184129896495_3_alg».proof.Proof.KIRegion

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three row stores tile the 3 x 4096 buffer. -/
theorem cover_out (p2 p1 p0 : Vec F S1x4096 .f32) (y : S3x4096.Idx) :
    ∃ pc ∈ ([⟨rOut2, p2⟩, ⟨rOut1, p1⟩, ⟨rOut0, p0⟩] : List (View.Piece (Elt F) S3x4096 .f32)), y ∈ pc.1.set :=
  View.cover_of_tiled [⟨rOut2, p2⟩, ⟨rOut1, p1⟩, ⟨rOut0, p0⟩] S1x4096.size (by rfl) y

/-! ## The kernel function's triple -/

set_option maxHeartbeats 1000000 in
/-- The kernel function on whole staging memrefs, the six inputs' reading `x0 … x5` and the output's holding anything:
    it loads each input whole, loads and then overwrites each of the output's three rows, and continues with the
    inputs' memrefs as they were and the output's reading `outBlk x0 … x5`. -/
theorem sound_kernel (c : Dev nD) (E : Set ℕ) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S8x128 .bf16) (harg5 : arg5.IsWhole) (arg6 : Memref sig .tc .vmem S8x1 .f32) (harg6 : arg6.IsWhole) (arg7 : Memref sig .tc .vmem S3x4096 .f32) (harg7 : arg7.IsWhole)
    (x0 x1 : Vec F S128x4096 .f32) (x2 x3 : Vec F S1x4096 .f32) (x4 : Vec F S8x128 .bf16) (x5 : Vec F S8x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  dsimp only
  unfold outBlk rowPi rowDisp rowMu
  exact View.read_writes_eq_canon _ _ _ (cover_out _ _ _)

/-! ## The input windows' buffers before the body -/

/-- Input window 0's current staging buffer reads its block at every point, where it is fetched at each point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- Input window 1's current staging buffer reads its block at every point, where it is fetched at each point. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Input window 2's current staging buffer reads its block at every point, where it is fetched at each point. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- Input window 3's current staging buffer reads its block at every point, where it is fetched at each point. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- Input window 4's current staging buffer reads its block at every point, though it is fetched at the first point only: its block index never moves, so the block it was left at is this point's. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- Input window 5's current staging buffer reads its block at every point, though it is fetched at the first point only: its block index never moves, so the block it was left at is this point's. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body at a point -/

/-- What the body is handed at point `t`: the invariant, the core's debt, and each window's current staging buffer at what
    it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back: the invariant and the debt at the next point, each buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six input buffers read their blocks, so the kernel function's triple applies at those
    blocks; the invariant and the debt are not touched and pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.KIRun.lean ====
/-
  The run of the idealized kernel's @main and its frame: every weakly fair execution terminates; each window's array
  ends at what the proof data's write-backs make of it and every other unscoped buffer at what the nine lines after
  the region leave; in particular the argument arrays end as launched.
-/
import proofs.«414667_j76184129896495_3_alg».proof.Proof.KIHost
import proofs.«414667_j76184129896495_3_alg».proof.Proof.KIBody

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Region

end
-- ==== Proof.KINames.lean ====
/-
  Index constructors at this kernel's literal sizes: an edge `e < 2000000` as a position in the padded edge axis
  (2002944 = 489 blocks of 4096), and the argument arrays of a memory named by what they hold.
-/
import proofs.«414667_j76184129896495_3_alg».proof.Proof.KIRegion
import Idealize.ShloMosaic.Lib.ValueIdx

noncomputable section

namespace Cert.KernelIdeal.Region

open Idealize.ShloMosaic Idealize.ShloMosaic.TcCoe Idealize.SL.Sem
open Cert.KernelIdeal Cert.KernelIdeal.Gen

/-- An edge as a position in the padded edge axis. -/
def padE (e : Fin 2000000) : Fin 2002944 := ⟨e.val, by have := e.isLt; omega⟩

@[simp] theorem padE_val (e : Fin 2000000) : (padE e).val = e.val := rfl

variable (m : (ℓ : Loc nD τ sig) → Buf (Elt Ideal) ℓ)

/-- The argument arrays of core `c` as launched, by what they hold. -/
abbrev cellFeat (c : Dev nD) : S10000x128.Idx → EReal := m ((c : Thread nD τ).loc main_arg0)
abbrev geneFeat (c : Dev nD) : S2000x128.Idx → EReal := m ((c : Thread nD τ).loc main_arg1)
abbrev geneFac (c : Dev nD) : S2000x1.Idx → EReal := m ((c : Thread nD τ).loc main_arg2)
abbrev sizeFac (c : Dev nD) : S10000x1.Idx → EReal := m ((c : Thread nD τ).loc main_arg3)
abbrev wMean (c : Dev nD) : S128x1.Idx → EReal := m ((c : Thread nD τ).loc main_arg4)
abbrev bMean (c : Dev nD) : S1.Idx → EReal := m ((c : Thread nD τ).loc main_arg5)
abbrev wDisp (c : Dev nD) : S128x1.Idx → EReal := m ((c : Thread nD τ).loc main_arg6)
abbrev bDisp (c : Dev nD) : S1.Idx → EReal := m ((c : Thread nD τ).loc main_arg7)
abbrev wPi (c : Dev nD) : S128x1.Idx → EReal := m ((c : Thread nD τ).loc main_arg8)
abbrev bPi (c : Dev nD) : S1.Idx → EReal := m ((c : Thread nD τ).loc main_arg9)
abbrev srcW (c : Dev nD) : S2000000.Idx → BitVec 32 := m ((c : Thread nD τ).loc main_arg10)
abbrev dstW (c : Dev nD) : S2000000.Idx → BitVec 32 := m ((c : Thread nD τ).loc main_arg11)

/-- The window arrays as the region finds them, by what they hold. -/
abbrev entU (c : Dev nD) : S128x2002944.Idx → EReal := V m c main_v4
abbrev entV (c : Dev nD) : S128x2002944.Idx → EReal := V m c main_v5
abbrev entSz (c : Dev nD) : S1x2002944.Idx → EReal := V m c main_v8
abbrev entGe (c : Dev nD) : S1x2002944.Idx → EReal := V m c main_v11
abbrev entW (c : Dev nD) : S8x128.Idx → EReal := V m c main_v17
abbrev entB (c : Dev nD) : S8x1.Idx → EReal := V m c main_v22

/-- The packed 3 x 2002944 array after the region's last write-back. -/
abbrev packed (c : Dev nD) : S3x2002944.Idx → EReal := (dats m 0 c).arrAt 6 cfg0.N

end Cert.KernelIdeal.Region

end
-- ==== Proof.LibLayoutReads.lean ====
/-
  Layout operations of index vectors, read at one element given by its coordinates.

  A vector of n entries cut from position o on reads, at position j, the source at position o + j.  A
  matrix of a rows and b columns and the vector of its a·b entries laid row after row are the same
  numbers: entry (i, j) of the matrix is entry i·b + j of the vector, whichever of the two is the
  reshape of the other.  A vector made a column, by a reshape or by a broadcast along a new unit axis,
  reads at (i, 0) the vector's entry i.  Three vectors laid end to end read, at a position, the first
  vector there if the position is below its length, else the second at the position less the first's
  length if that is below the second's length, else the third at the position less both lengths.  Two
  matrices of equal width stacked read, at row r, the upper matrix's row r if r is below its height,
  else the lower matrix's row r less that height.
-/
import Idealize.ShloMosaic.Lib.ValueLayout

namespace Cert.Gcn.LayoutReads

open Idealize.ShloMosaic Idealize.ShloMosaic.ValueIdx

variable {α : Type}

/-! ## A vector cut from a position on -/

/-- A vector cut from `o` on reads, at `j`, the source at `k = o + j`. -/
theorem slice1_apply {n m : Nat} (o : Nat) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-! ## A matrix and the vector of its entries laid row after row -/

/-- The vector of a matrix's entries reads, at position `k = i·b + j`, the matrix at `(i, j)`. -/
theorem shapeCast_ab_n_apply {a b n : Nat} (x : (⟨2, ![a, b]⟩ : Shape).Idx → α)
    (h : (⟨2, ![a, b]⟩ : Shape).ShapeCasts ⟨1, ![n]⟩) (k : Fin n) (i : Fin a) (j : Fin b)
    (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- A vector folded into rows of length `b` reads, at `(i, j)`, the vector at position `k = i·b + j`. -/
theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

/-- A vector made a column by a reshape reads, at `(i, 0)`, the vector's entry `i`. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

/-- A vector made a column by a broadcast along a new unit axis reads, at `(i, 0)`, the vector's entry `i`. -/
theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

/-! ## Three vectors laid end to end -/

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

/-- Below the first length: the first vector at the same position. -/
theorem concat3_fst_apply (k : Fin n) (i : Fin n1) (hk : k.val = i.val) :
    concatenate ⟨1, ![n]⟩ 0 [⟨⟨1, ![n1]⟩, x1⟩, ⟨⟨1, ![n2]⟩, x2⟩, ⟨⟨1, ![n3]⟩, x3⟩] h (ix1 k) = x1 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    0 (by simp) ⟨1, ![n1]⟩ x1 rfl rfl 0 rfl (ix1 i)
    (fun b hb => absurd (Subsingleton.elim _ _) hb)
    (by show 0 + i.val = k.val; omega)

/-- From the first length on and below the first two: the second vector at the position less the first length. -/
theorem concat3_snd_apply (k : Fin n) (i : Fin n2) (hk : k.val = n1 + i.val) :
    concatenate ⟨1, ![n]⟩ 0 [⟨⟨1, ![n1]⟩, x1⟩, ⟨⟨1, ![n2]⟩, x2⟩, ⟨⟨1, ![n3]⟩, x3⟩] h (ix1 k) = x2 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    1 (by simp) ⟨1, ![n2]⟩ x2 rfl rfl n1 (by simp) (ix1 i)
    (fun b hb => absurd (Subsingleton.elim _ _) hb)
    (by show n1 + i.val = k.val; omega)

/-- From the first two lengths on: the third vector at the position less both. -/
theorem concat3_thd_apply (k : Fin n) (i : Fin n3) (hk : k.val = n1 + n2 + i.val) :
    concatenate ⟨1, ![n]⟩ 0 [⟨⟨1, ![n1]⟩, x1⟩, ⟨⟨1, ![n2]⟩, x2⟩, ⟨⟨1, ![n3]⟩, x3⟩] h (ix1 k) = x3 (ix1 i) :=
  concatenate_apply_piece (t := ⟨1, ![n]⟩) (0 : Fin 1) [⟨⟨1, ![n1]⟩, x1⟩, ⟨⟨1, ![n2]⟩, x2⟩, ⟨⟨1, ![n3]⟩, x3⟩] h (ix1 k)
    2 (by simp) ⟨1, ![n3]⟩ x3 rfl rfl (n1 + n2) (by simp) (ix1 i)
    (fun b hb => absurd (Subsingleton.elim _ _) hb)
    (by show n1 + n2 + i.val = k.val; omega)

end Concat3

/-! ## Two matrices of one width stacked -/

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

/-- A row below the upper height: the upper matrix's row. -/
theorem stack2_top_apply (r : Fin m) (c : Fin f) (i : Fin m1) (hr : r.val = i.val) :
    concatenate ⟨2, ![m, f]⟩ 0 [⟨⟨2, ![m1, f]⟩, x1⟩, ⟨⟨2, ![m2, f]⟩, x2⟩] h (ix2 r c) = x1 (ix2 i c) :=
  concatenate_pair_apply_left (0 : Fin 2) x1 x2 h (ix2 r c) rfl (ix2 i c) (fun b => by
    match b with
    | ⟨0, _⟩ => exact hr.symm
    | ⟨1, _⟩ => rfl)

/-- A row from the upper height on: the lower matrix's row, the upper height less. -/
theorem stack2_bot_apply (r : Fin m) (c : Fin f) (i : Fin m2) (hr : r.val = m1 + i.val) :
    concatenate ⟨2, ![m, f]⟩ 0 [⟨⟨2, ![m1, f]⟩, x1⟩, ⟨⟨2, ![m2, f]⟩, x2⟩] h (ix2 r c) = x2 (ix2 i c) :=
  concatenate_pair_apply_right (0 : Fin 2) x1 x2 h (ix2 r c) rfl rfl (ix2 i c) (fun b hb => by
    match b, hb with
    | ⟨0, _⟩, hb => exact absurd rfl hb
    | ⟨1, _⟩, _ => rfl)
    (by show i.val + m1 = r.val; omega)

end Stack2

end Cert.Gcn.LayoutReads
-- ==== Proof.KITail.lean ====
/-
  The nine host lines after the region cut the three rows of the packed 3 x 2002944 array down to the 2000000 real
  edges and lay each out as a column: result `r` at edge `e` is the packed array at `(r, e)`.
-/
import proofs.«414667_j76184129896495_3_alg».proof.Proof.KINames
import proofs.«414667_j76184129896495_3_alg».proof.Proof.LibLayoutReads
import Idealize.ShloMosaic.Lib.Pipeline.Value
import Idealize.ShloMosaic.Lib.ValueLayout
import Idealize.ShloMosaic.Lib.StableHlo.Run

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open Cert.Gcn

variable (m : (ℓ : Loc nD τ sig) → Buf (Elt Ideal) ℓ)

/-- After the region the output window's array holds the packed array: the write-backs' result, whatever the other
    buffers hold. -/
theorem packed_at (c : Dev nD) :
    Pipeline.withArrays (cfgs 0).spec c (V0 m c) (fun w => (dats m 0 c).arrAt w (cfgs 0).N) (Proc.devRef .tc main_v23) = packed m c :=
  Pipeline.withArrays_arr spec0 launch0.win.arr_inj c (V0 m c) (fun w => (dats m 0 c).arrAt w cfg0.N) 6

/-- Result `main_v26` is row 0 of the packed array, cut to the 2000000 real edges and laid out as a column. -/
theorem mu_term (c : Dev nD) :
    (Pipeline.afterTail₀ cfgs (dats m) 0 (V0 m) [hostOps1] c main_v26 : S2000000x1.Idx → EReal) =
      shapeCast S2000000x1 (shapeCast S2000000 (extractStridedSlice S1x2000000 ![0, 0] (packed m c)
        slices_S3x2002944_S1x2000000_0_0) shapeCasts_S1x2000000_S2000000) shapeCasts_S2000000_S2000000x1 := by
  unfold Pipeline.afterTail₀
  show StableHlo.after hostOps1 _ (Proc.devRef .tc main_v26) = _
  after_results
  rw [packed_at m c]
  rfl

theorem out_mu (c : Dev nD) (e : Fin 2000000) :
    (Pipeline.afterTail₀ cfgs (dats m) 0 (V0 m) [hostOps1] c main_v26 : S2000000x1.Idx → EReal) (ix2 e 0) = packed m c (ix2 0 (padE e)) := by
  rw [mu_term]
  rw [LayoutReads.shapeCast_a_a1_apply _ _ e 0,
    LayoutReads.shapeCast_ab_n_apply _ _ e (0 : Fin 1) e (by simp)]
  exact extractStridedSlice_apply _ _ _ _ _ (fun ax => by
    match ax with
    | ⟨0, _⟩ => rfl
    | ⟨1, _⟩ => show e.val = 0 + e.val; omega)

/-- Result `main_v29` is row 1 of the packed array, cut to the 2000000 real edges and laid out as a column. -/
theorem disp_term (c : Dev nD) :
    (Pipeline.afterTail₀ cfgs (dats m) 0 (V0 m) [hostOps1] c main_v29 : S2000000x1.Idx → EReal) =
      shapeCast S2000000x1 (shapeCast S2000000 (extractStridedSlice S1x2000000 ![1, 0] (packed m c)
        slices_S3x2002944_S1x2000000_1_0) shapeCasts_S1x2000000_S2000000) shapeCasts_S2000000_S2000000x1 := by
  unfold Pipeline.afterTail₀
  show StableHlo.after hostOps1 _ (Proc.devRef .tc main_v29) = _
  after_results
  rw [packed_at m c]
  rfl

theorem out_disp (c : Dev nD) (e : Fin 2000000) :
    (Pipeline.afterTail₀ cfgs (dats m) 0 (V0 m) [hostOps1] c main_v29 : S2000000x1.Idx → EReal) (ix2 e 0) = packed m c (ix2 1 (padE e)) := by
  rw [disp_term]
  rw [LayoutReads.shapeCast_a_a1_apply _ _ e 0,
    LayoutReads.shapeCast_ab_n_apply _ _ e (0 : Fin 1) e (by simp)]
  exact extractStridedSlice_apply _ _ _ _ _ (fun ax => by
    match ax with
    | ⟨0, _⟩ => rfl
    | ⟨1, _⟩ => show e.val = 0 + e.val; omega)

/-- Result `main_v32` is row 2 of the packed array, cut to the 2000000 real edges and laid out as a column. -/
theorem pi_term (c : Dev nD) :
    (Pipeline.afterTail₀ cfgs (dats m) 0 (V0 m) [hostOps1] c main_v32 : S2000000x1.Idx → EReal) =
      shapeCast S2000000x1 (shapeCast S2000000 (extractStridedSlice S1x2000000 ![2, 0] (packed m c)
        slices_S3x2002944_S1x2000000_2_0) shapeCasts_S1x2000000_S2000000) shapeCasts_S2000000_S2000000x1 := by
  unfold Pipeline.afterTail₀
  show StableHlo.after hostOps1 _ (Proc.devRef .tc main_v32) = _
  after_results
  rw [packed_at m c]
  rfl

theorem out_pi (c : Dev nD) (e : Fin 2000000) :
    (Pipeline.afterTail₀ cfgs (dats m) 0 (V0 m) [hostOps1] c main_v32 : S2000000x1.Idx → EReal) (ix2 e 0) = packed m c (ix2 2 (padE e)) := by
  rw [pi_term]
  rw [LayoutReads.shapeCast_a_a1_apply _ _ e 0,
    LayoutReads.shapeCast_ab_n_apply _ _ e (0 : Fin 1) e (by simp)]
  exact extractStridedSlice_apply _ _ _ _ _ (fun ax => by
    match ax with
    | ⟨0, _⟩ => rfl
    | ⟨1, _⟩ => show e.val = 0 + e.val; omega)

end Cert.KernelIdeal.Region

end
-- ==== Proof.Decoder.lean ====
/-
  The decoder's arithmetic at one edge, on the extended reals. An edge carries two index words; each picks a row of a
  table (read signed and clamped into the table, as a gather reads a start index). From the picked cell row `u` and gene
  row `v` (128 features each) a linear head is `∑ₖ wₖ · (uₖ · vₖ) + b`. The three results are: the size factor times the
  clipped `exp(gene factor · sigmoid(mean head)) − 1`; the clipped softplus of the gene factor times the dispersion
  head; and the sigmoid of the dropout head.
-/
import Idealize.ShloMosaic.PureOps.Ideal
import Idealize.ShloMosaic.PureOps.Ideal.Laws
import Idealize.ShloMosaic.Lib.ValueIdx

noncomputable section

namespace Cert.Decoder

open Idealize.ShloMosaic

/-- The row of the 10000-row cell tables an index word picks: the word read signed, clamped into `[0, 9999]`. -/
def cellRow (w : BitVec 32) : Fin 10000 := ⟨min w.toInt.toNat 9999, by omega⟩
/-- The row of the 2000-row gene tables an index word picks. -/
def geneRow (w : BitVec 32) : Fin 2000 := ⟨min w.toInt.toNat 1999, by omega⟩

/-- An in-range word picks the row it names. -/
theorem cellRow_val {w : BitVec 32} (h : w.toNat < 10000) : (cellRow w).val = w.toNat := by
  have h31 : w.toNat < 2 ^ 31 := by omega
  have : w.toInt = (w.toNat : Int) := by
    rw [BitVec.toInt_eq_toNat_cond]; simp only [Nat.reducePow] at h31 ⊢; split <;> omega
  simp only [cellRow, this, Int.toNat_natCast]; omega
theorem geneRow_val {w : BitVec 32} (h : w.toNat < 2000) : (geneRow w).val = w.toNat := by
  have h31 : w.toNat < 2 ^ 31 := by omega
  have : w.toInt = (w.toNat : Int) := by
    rw [BitVec.toInt_eq_toNat_cond]; simp only [Nat.reducePow] at h31 ⊢; split <;> omega
  simp only [geneRow, this, Int.toNat_natCast]; omega

/-- One linear head at one edge: the weights against the elementwise product of the two feature rows, plus the bias. -/
def head (u v w : Fin 128 → EReal) (b : EReal) : EReal := (∑ k : Fin 128, w k * (u k * v k)) + b

/-- The softplus as both programs compute it: `max(x, 0) + log(1 + exp(−|x|))`, with `|x| = max(x, −x)`. -/
def softplus (x : EReal) : EReal := max x 0 + Ideal.log1p (Ideal.exp (-(max x (-x))))

/-- The mean result: the size factor times `exp(gene factor · sigmoid(head)) − 1` clipped to `[1e-5, 1e6]` (the two
    bounds as their f32 words). -/
def meanAct (szf gef s : EReal) : EReal :=
  szf * min (Ideal.ofBits .f32 0x49742400#32) (max (Ideal.ofBits .f32 0x3727C5AC#32)
    (Ideal.exp (gef * Ideal.logistic s) - Ideal.ofBits .f32 0x3F800000#32))

/-- The dispersion result: the softplus of the gene factor times the head, clipped to `[1e-4, 1e4]`. -/
def dispAct (gef s : EReal) : EReal :=
  min (Ideal.ofBits .f32 0x461C4000#32) (max (Ideal.ofBits .f32 0x38D1B717#32) (softplus (gef * s)))

/-- The dropout result: the sigmoid of the head. -/
def dropAct (s : EReal) : EReal := Ideal.logistic s

end Cert.Decoder

end
-- ==== Proof.LibRowCol.lean ====
/-
  Layout operations of rank-2 vectors read at an index: one column `[a, 1]` broadcast over `b` lanes; a column cut
  out of a matrix and so broadcast; a row cut out of a matrix, flattened to a vector, lifted back to one row and
  broadcast over `a` sublanes. Each is the source matrix at one fixed row or column.
-/
import Idealize.ShloMosaic.Lib.ValueIdx
import Idealize.ShloMosaic.Lib.ValueLayout
import Idealize.ShloMosaic.Lib.Pipeline.Value

namespace Cert.LibRowCol

open Idealize.ShloMosaic Idealize.ShloMosaic.ValueIdx

variable {α : Type}

/-- An `[a, 1]` column broadcast to `[a, b]` reads, at `(p, c)`, the column's entry `p`, whatever the lane `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `d` of an `[a, n]` matrix, cut out as `[a, 1]` and broadcast over `b` lanes, reads at `(p, c)` the matrix
    at `(p, d)`. -/
theorem col_bcast_apply {a n b : ℕ} (d : ℕ) (X : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] X hs) hb (ix2 p c) = X (ix2 p k) := by
  rw [broadcastTo_a1_ab_apply, slice2_axis1_apply d X hs p (0 : Fin 1) k (by rw [hk]; rfl)]

/-- Row `d` of an `[n, b]` matrix, cut out as `[1, b]`, flattened to `[b]`, lifted back to `[1, b]` and broadcast
    over `a` sublanes, reads at `(p, c)` the matrix at `(d, c)`. -/
theorem row_bcast_apply {n b a : ℕ} (d : ℕ) (X : (⟨2, ![n, b]⟩ : Shape).Idx → α)
    (hs : (⟨2, ![n, b]⟩ : Shape).Slices ![d, 0] ⟨2, ![1, b]⟩)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) (k : Fin n) (hk : k.val = d) :
    broadcastTo ⟨2, ![a, b]⟩
        (shapeCast ⟨2, ![1, b]⟩ (shapeCast ⟨1, ![b]⟩ (extractStridedSlice ⟨2, ![1, b]⟩ ![d, 0] X hs) h1) h2) hb (ix2 p c)
      = X (ix2 k c) := by
  rw [broadcastTo_1b_ab_apply, shapeCast_a_1a_apply, shapeCast_1a_a_apply,
    slice2_axis0_apply d X hs (0 : Fin 1) c k (by rw [hk]; rfl)]

/-- A row `[1, b]` cut at row `d` out of an `[n, b]` matrix and broadcast over `a` sublanes reads at `(p, c)` the
    matrix at `(d, c)`. -/
theorem row_direct_bcast_apply {n b a : ℕ} (d : ℕ) (X : (⟨2, ![n, b]⟩ : Shape).Idx → α)
    (hs : (⟨2, ![n, b]⟩ : Shape).Slices ![d, 0] ⟨2, ![1, b]⟩)
    (hb : (⟨2, ![1, b]⟩ : Shape).Broadcasts ⟨2, ![a, b]⟩) (p : Fin a) (c : Fin b) (k : Fin n) (hk : k.val = d) :
    broadcastTo ⟨2, ![a, b]⟩ (extractStridedSlice ⟨2, ![1, b]⟩ ![d, 0] X hs) hb (ix2 p c) = X (ix2 k c) := by
  rw [broadcastTo_1b_ab_apply, slice2_axis0_apply d X hs (0 : Fin 1) c k (by rw [hk]; rfl)]

end Cert.LibRowCol
-- ==== Proof.KIRows.lean ====
/-
  The body's three row pieces read at one lane `q` of a block, on the extended reals: the matrix unit's product of
  the 8 x 128 weight block with the 128 x 4096 product of the two feature blocks (the change of float format on the
  way in is the identity, and the accumulator starts at zero) plus the bias column gives, in rows 0, 1, 2 at lane `q`,
  the three linear heads of lane `q`'s two feature columns; the rows stored are the decoder's three activations of
  them. The kernel's softplus spells `0 − |x|` where the decoder has `−|x|`, subtracts and adds a zero, and guards with
  `x ≠ x`, which never holds on the extended reals.
-/
import proofs.«414667_j76184129896495_3_alg».proof.Proof.KIRegion
import proofs.«414667_j76184129896495_3_alg».proof.Proof.Decoder
import proofs.«414667_j76184129896495_3_alg».proof.Proof.LibRowCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

/-! ## The matrix unit's operand indices, axis by axis -/

theorem headDot_lhs_0 (i : S8x4096.Idx) (q : dot_S8x128_S128x4096_S8x4096_1_0_0_1_n_n.contr.Idx) :
    (dot_S8x128_S128x4096_S8x4096_1_0_0_1_n_n.lhsIdx i q 0).val = (i 0).val := by
  unfold DotDims.lhsIdx
  rw [dif_neg (show ¬(0 : Fin S8x128.rank) ∈ dot_S8x128_S128x4096_S8x4096_1_0_0_1_n_n.lhsBatch by decide), dif_pos (show (0 : Fin S8x128.rank) ∈ dot_S8x128_S128x4096_S8x4096_1_0_0_1_n_n.lhsNonContracting by decide)]
  rfl
theorem headDot_lhs_1 (i : S8x4096.Idx) (q : dot_S8x128_S128x4096_S8x4096_1_0_0_1_n_n.contr.Idx) :
    (dot_S8x128_S128x4096_S8x4096_1_0_0_1_n_n.lhsIdx i q 1).val = (q ⟨0, by decide⟩).val :=
  dot_S8x128_S128x4096_S8x4096_1_0_0_1_n_n.lhsIdx_val_of_single rfl i q
theorem headDot_rhs_0 (i : S8x4096.Idx) (q : dot_S8x128_S128x4096_S8x4096_1_0_0_1_n_n.contr.Idx) :
    (dot_S8x128_S128x4096_S8x4096_1_0_0_1_n_n.rhsIdx i q 0).val = (q ⟨0, by decide⟩).val :=
  dot_S8x128_S128x4096_S8x4096_1_0_0_1_n_n.rhsIdx_val_of_single rfl i q
theorem headDot_rhs_1 (i : S8x4096.Idx) (q : dot_S8x128_S128x4096_S8x4096_1_0_0_1_n_n.contr.Idx) :
    (dot_S8x128_S128x4096_S8x4096_1_0_0_1_n_n.rhsIdx i q 1).val = (i 1).val := by
  unfold DotDims.rhsIdx
  rw [dif_neg (show ¬(1 : Fin S128x4096.rank) ∈ dot_S8x128_S128x4096_S8x4096_1_0_0_1_n_n.rhsBatch by decide), dif_pos (show (1 : Fin S128x4096.rank) ∈ dot_S8x128_S128x4096_S8x4096_1_0_0_1_n_n.rhsNonContracting by decide)]
  rfl

/-- The matrix unit's product into a zero accumulator, read at row `r` and lane `q`: the sum over the 128 contracted
    positions of the left operand's row `r` against the right operand's column `q`. -/
theorem headDot_apply (l : FVec Ideal S8x128 .bf16) (rr : FVec Ideal S128x4096 .bf16) (r : Fin 8) (q : Fin 4096) :
    matmul dot_S8x128_S128x4096_S8x4096_1_0_0_1_n_n none l rr (constant (F := Ideal) S8x4096 .f32 0x00000000#32) (ix2 r q)
      = ∑ k : Fin 128, l (ix2 r k) * rr (ix2 k q) := by
  show FloatOps.matmul dot_S8x128_S128x4096_S8x4096_1_0_0_1_n_n none l rr (constant (F := Ideal) S8x4096 .f32 0x00000000#32) (ix2 r q) = _
  rw [Ideal.matmul_constant_zero_apply, ← Equiv.sum_comp (ValueIdx.contrEquiv1 dot_S8x128_S128x4096_S8x4096_1_0_0_1_n_n 128 rfl rfl).symm]
  refine Finset.sum_congr rfl fun k _ => ?_
  have hk := ValueIdx.contrEquiv1_symm_val dot_S8x128_S128x4096_S8x4096_1_0_0_1_n_n 128 rfl rfl k
  have el : dot_S8x128_S128x4096_S8x4096_1_0_0_1_n_n.lhsIdx (ix2 r q) ((ValueIdx.contrEquiv1 dot_S8x128_S128x4096_S8x4096_1_0_0_1_n_n 128 rfl rfl).symm k) = ix2 r k := funext fun a => Fin.ext (by
    match a with
    | ⟨0, _⟩ => exact headDot_lhs_0 _ _
    | ⟨1, _⟩ => exact (headDot_lhs_1 _ _).trans hk)
  have er : dot_S8x128_S128x4096_S8x4096_1_0_0_1_n_n.rhsIdx (ix2 r q) ((ValueIdx.contrEquiv1 dot_S8x128_S128x4096_S8x4096_1_0_0_1_n_n 128 rfl rfl).symm k) = ix2 k q := funext fun a => Fin.ext (by
    match a with
    | ⟨0, _⟩ => exact (headDot_rhs_0 _ _).trans hk
    | ⟨1, _⟩ => exact headDot_rhs_1 _ _)
  rw [el, er]

variable (x0 x1 : Vec Ideal S128x4096 .f32) (x2 x3 : Vec Ideal S1x4096 .f32) (x4 : Vec Ideal S8x128 .bf16) (x5 : Vec Ideal S8x1 .f32)

/-- The eight linear heads at lane `q`: row `r` of the weight block against the elementwise product of the two feature
    columns, plus row `r` of the bias column. -/
theorem heads_apply (r : Fin 8) (q : Fin 4096) :
    k0_pay2 (F := Ideal) x0 x1 x4 x5 (ix2 r q)
      = Decoder.head (fun k => x0 (ix2 k q)) (fun k => x1 (ix2 k q)) (fun k => x4 (ix2 r k)) (x5 (ix2 r 0)) := by
  unfold k0_pay2
  simp only [shapeCast_self]
  rw [addf_apply, headDot_apply, Cert.LibRowCol.broadcastTo_a1_ab_apply]
  rfl

/-- Row `d` of the eight heads, cut out as a one-row vector, read at lane `q`. -/
theorem headRow_apply (d : ℕ) (hs : S8x4096.Slices ![d, 0] S1x4096) (r : Fin 8) (hr : r.val = d) (q : Fin 4096) :
    extractStridedSlice S1x4096 ![d, 0] (k0_pay2 (F := Ideal) x0 x1 x4 x5) hs (ix2 0 q)
      = Decoder.head (fun k => x0 (ix2 k q)) (fun k => x1 (ix2 k q)) (fun k => x4 (ix2 r k)) (x5 (ix2 r 0)) := by
  rw [slice2_axis0_apply d _ hs (0 : Fin 1) q r (by rw [hr]; rfl), heads_apply]

/-- The offsets of a whole-block load are zero on both axes. -/
theorem rows_off_zero : (![0, 0] : Fin 2 → ℕ) = fun _ => 0 :=
  funext fun a => match a with | ⟨0, _⟩ => rfl | ⟨1, _⟩ => rfl

/-- A comparison "differs from itself" never holds on the extended reals. -/
theorem rows_cmp_one_self (y : EReal) : Ideal.cmp .one y y = 0#1 := by
  simp [Ideal.cmp]

/-- The kernel's spelling of the softplus is the decoder's. -/
theorem rows_softplus_spelt (y : EReal) :
    Scalar.select (Ideal.cmp .one (y - Ideal.ofBits .f32 0x00000000#32) (y - Ideal.ofBits .f32 0x00000000#32))
        (y + Ideal.ofBits .f32 0x00000000#32)
        (max y (Ideal.ofBits .f32 0x00000000#32) + Ideal.log1p (Ideal.exp (Ideal.ofBits .f32 0x00000000#32
          - max (y - Ideal.ofBits .f32 0x00000000#32) (-(y - Ideal.ofBits .f32 0x00000000#32)))))
      = Decoder.softplus y := by
  rw [rows_cmp_one_self, select_zero, Ideal.ofBits_zero_f32, sub_zero, zero_sub]
  rfl

theorem rowMu_apply (q : Fin 4096) :
    rowMu x0 x1 x2 x3 x4 x5 (ix2 0 q) = Decoder.meanAct (x2 (ix2 0 q)) (x3 (ix2 0 q)) (Decoder.head (fun k => x0 (ix2 k q)) (fun k => x1 (ix2 k q)) (fun k => x4 (ix2 0 k)) (x5 (ix2 0 0))) := by
  unfold rowMu
  simp only [View.ld_unit_zero (S := S128x4096) rows_off_zero, View.ld_unit_zero (S := S1x4096) rows_off_zero,
    View.ld_unit_zero (S := S8x128) rows_off_zero, View.ld_unit_zero (S := S8x1) rows_off_zero]
  unfold k0_pay1 k0_pay3 k0_pay7 k0_pay4
  simp only [shapeCast_self]
  have hs := headRow_apply x0 x1 x4 x5 0 slices_S8x4096_o0_0_S1x4096 0 rfl q
  show x2 (ix2 0 q) * min (Ideal.ofBits .f32 0x49742400#32) (max (Ideal.ofBits .f32 0x3727C5AC#32)
    (Ideal.exp (x3 (ix2 0 q) * Ideal.logistic (extractStridedSlice S1x4096 ![0, 0] (k0_pay2 (F := Ideal) x0 x1 x4 x5) slices_S8x4096_o0_0_S1x4096 (ix2 0 q))) - Ideal.ofBits .f32 0x3F800000#32)) = _
  rw [hs]
  rfl
theorem rowDisp_apply (q : Fin 4096) :
    rowDisp x0 x1 x3 x4 x5 (ix2 0 q) = Decoder.dispAct (x3 (ix2 0 q)) (Decoder.head (fun k => x0 (ix2 k q)) (fun k => x1 (ix2 k q)) (fun k => x4 (ix2 1 k)) (x5 (ix2 1 0))) := by
  unfold rowDisp
  simp only [View.ld_unit_zero (S := S128x4096) rows_off_zero, View.ld_unit_zero (S := S1x4096) rows_off_zero,
    View.ld_unit_zero (S := S8x128) rows_off_zero, View.ld_unit_zero (S := S8x1) rows_off_zero]
  unfold k0_pay6 k0_pay4
  simp only [shapeCast_self]
  have hs := headRow_apply x0 x1 x4 x5 1 slices_S8x4096_o1_0_S1x4096 1 rfl q
  show min (Ideal.ofBits .f32 0x461C4000#32) (max (Ideal.ofBits .f32 0x38D1B717#32)
    (Scalar.select (Ideal.cmp .one ((x3 (ix2 0 q) * extractStridedSlice S1x4096 ![1, 0] (k0_pay2 (F := Ideal) x0 x1 x4 x5) slices_S8x4096_o1_0_S1x4096 (ix2 0 q)) - Ideal.ofBits .f32 0x00000000#32) ((x3 (ix2 0 q) * extractStridedSlice S1x4096 ![1, 0] (k0_pay2 (F := Ideal) x0 x1 x4 x5) slices_S8x4096_o1_0_S1x4096 (ix2 0 q)) - Ideal.ofBits .f32 0x00000000#32))
      ((x3 (ix2 0 q) * extractStridedSlice S1x4096 ![1, 0] (k0_pay2 (F := Ideal) x0 x1 x4 x5) slices_S8x4096_o1_0_S1x4096 (ix2 0 q)) + Ideal.ofBits .f32 0x00000000#32)
      (max (x3 (ix2 0 q) * extractStridedSlice S1x4096 ![1, 0] (k0_pay2 (F := Ideal) x0 x1 x4 x5) slices_S8x4096_o1_0_S1x4096 (ix2 0 q)) (Ideal.ofBits .f32 0x00000000#32) + Ideal.log1p (Ideal.exp (Ideal.ofBits .f32 0x00000000#32
        - max ((x3 (ix2 0 q) * extractStridedSlice S1x4096 ![1, 0] (k0_pay2 (F := Ideal) x0 x1 x4 x5) slices_S8x4096_o1_0_S1x4096 (ix2 0 q)) - Ideal.ofBits .f32 0x00000000#32) (-((x3 (ix2 0 q) * extractStridedSlice S1x4096 ![1, 0] (k0_pay2 (F := Ideal) x0 x1 x4 x5) slices_S8x4096_o1_0_S1x4096 (ix2 0 q)) - Ideal.ofBits .f32 0x00000000#32))))))) = _
  rw [rows_softplus_spelt, hs]
  rfl
theorem rowPi_apply (q : Fin 4096) :
    rowPi x0 x1 x4 x5 (ix2 0 q) = Decoder.dropAct (Decoder.head (fun k => x0 (ix2 k q)) (fun k => x1 (ix2 k q)) (fun k => x4 (ix2 2 k)) (x5 (ix2 2 0))) := by
  unfold rowPi
  simp only [View.ld_unit_zero (S := S128x4096) rows_off_zero, View.ld_unit_zero (S := S8x128) rows_off_zero,
    View.ld_unit_zero (S := S8x1) rows_off_zero]
  unfold k0_pay5
  have hs := headRow_apply x0 x1 x4 x5 2 slices_S8x4096_o2_0_S1x4096 2 rfl q
  show Ideal.logistic (extractStridedSlice S1x4096 ![2, 0] (k0_pay2 (F := Ideal) x0 x1 x4 x5) slices_S8x4096_o2_0_S1x4096 (ix2 0 q)) = _
  rw [hs]
  rfl

end Cert.KernelIdeal.Region

end
-- ==== Proof.KIPacked.lean ====
/-
  The packed array after the region, cell by cell: position `q` of the padded edge axis lies in block `q / 4096`, whose
  write-back is the body's three row pieces of that block's inputs; read at `(r, q)` they are the decoder's three
  activations of the linear heads of column `q` of the two gathered feature arrays against rows 0, 1, 2 of the stacked
  weights and biases.
-/
import proofs.«414667_j76184129896495_3_alg».proof.Proof.KINames
import proofs.«414667_j76184129896495_3_alg».proof.Proof.Decoder
import proofs.«414667_j76184129896495_3_alg».proof.Proof.KIRows
import Idealize.ShloMosaic.Lib.Pipeline.Value
import Idealize.ShloMosaic.Lib.ValueLayout
import Idealize.ShloMosaic.PureOps.Ideal.Laws

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

/-! ## The output block row by row

The block's buffer is written by three stores, one per row; row `r` of what they leave is the `r`-th piece, read at the
same lane. -/

section Rows

variable (x0 x1 : Vec Ideal S128x4096 .f32) (x2 x3 : Vec Ideal S1x4096 .f32) (x4 : Vec Ideal S8x128 .bf16) (x5 : Vec Ideal S8x1 .f32)

/-- Lane `q` of row `r` of the block is lane `q` of the one-row rectangle at row offset `r`. -/
theorem emb_rOut0 (q : Fin 4096) : (ix2 0 q : S3x4096.Idx) = rOut0.emb (ix2 0 q) := by
  funext a; apply Fin.ext
  match a with
  | ⟨0, _⟩ => rfl
  | ⟨1, _⟩ => show q.val = 0 + 1 * q.val; omega
theorem emb_rOut1 (q : Fin 4096) : (ix2 1 q : S3x4096.Idx) = rOut1.emb (ix2 0 q) := by
  funext a; apply Fin.ext
  match a with
  | ⟨0, _⟩ => rfl
  | ⟨1, _⟩ => show q.val = 0 + 1 * q.val; omega
theorem emb_rOut2 (q : Fin 4096) : (ix2 2 q : S3x4096.Idx) = rOut2.emb (ix2 0 q) := by
  funext a; apply Fin.ext
  match a with
  | ⟨0, _⟩ => rfl
  | ⟨1, _⟩ => show q.val = 0 + 1 * q.val; omega

/-- Row 2 is the last store's payload. -/
theorem outBlk_row2 (q : Fin 4096) : outBlk x0 x1 x2 x3 x4 x5 (ix2 2 q) = rowPi x0 x1 x4 x5 (ix2 0 q) := by
  unfold outBlk
  rw [emb_rOut2 q]
  exact View.canon_cons_emb rOut2 _ _ (ix2 0 q)

/-- Row 1 lies off the last store's row and under the middle one's. -/
theorem outBlk_row1 (q : Fin 4096) : outBlk x0 x1 x2 x3 x4 x5 (ix2 1 q) = rowDisp x0 x1 x3 x4 x5 (ix2 0 q) := by
  have h2 : (ix2 1 q : S3x4096.Idx) ∉ rOut2.set := by
    rw [Rect.mem_set_unit]
    intro h
    have h' : (2 : Nat) ≤ 1 := (h 0).1
    omega
  unfold outBlk
  refine (View.canon_cons_of_not_mem (⟨rOut2, rowPi x0 x1 x4 x5⟩ : View.Piece (Elt Ideal) S3x4096 .f32) _ h2).trans ?_
  rw [emb_rOut1 q]
  exact View.canon_cons_emb rOut1 _ _ (ix2 0 q)

/-- Row 0 lies off the two later stores' rows and under the first one's. -/
theorem outBlk_row0 (q : Fin 4096) : outBlk x0 x1 x2 x3 x4 x5 (ix2 0 q) = rowMu x0 x1 x2 x3 x4 x5 (ix2 0 q) := by
  have h2 : (ix2 0 q : S3x4096.Idx) ∉ rOut2.set := by
    rw [Rect.mem_set_unit]
    intro h
    have h' : (2 : Nat) ≤ 0 := (h 0).1
    omega
  have h1 : (ix2 0 q : S3x4096.Idx) ∉ rOut1.set := by
    rw [Rect.mem_set_unit]
    intro h
    have h' : (1 : Nat) ≤ 0 := (h 0).1
    omega
  unfold outBlk
  refine (View.canon_cons_of_not_mem (⟨rOut2, rowPi x0 x1 x4 x5⟩ : View.Piece (Elt Ideal) S3x4096 .f32) _ h2).trans ?_
  refine (View.canon_cons_of_not_mem (⟨rOut1, rowDisp x0 x1 x3 x4 x5⟩ : View.Piece (Elt Ideal) S3x4096 .f32) _ h1).trans ?_
  rw [emb_rOut0 q]
  exact View.canon_cons_emb rOut0 _ _ (ix2 0 q)

end Rows

/-! ## The index maps, and a block read at an index of its array

Windows 0 to 3 and the output window move along the edge axis one block per grid point and stay at block row 0; the
weight and bias windows stay at block (0, 0). An element of a block sits in the array at block index times block size
plus its coordinate in the block. -/

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

section Reads

variable (t : Fin cfg0.N)

/-- A feature block at `(k, q)` is the array at `(k, 4096 t + q)`. -/
theorem read_blk0 (A : S128x2002944.Idx → EReal) (k : Fin 128) (q : Fin 4096) (p : Fin 2002944) (hp : p.val = t.val * 4096 + q.val) :
    ((cfg0.win 0).blk t).view.read (Elt Ideal) A (ix2 k q) = A (ix2 k p) := by
  obtain ⟨e0, e1, -⟩ := idx_facts t
  rw [View.read_apply]
  show A _ = A _
  refine congrArg A (funext fun a => Fin.ext ?_)
  match a with
  | ⟨0, _⟩ => show win0_0.index t (0 : Fin 2) * 128 + 1 * k.val = k.val; rw [e0]; omega
  | ⟨1, _⟩ => show win0_0.index t (1 : Fin 2) * 4096 + 1 * q.val = p.val; rw [e1, hp]; omega

theorem read_blk1 (A : S128x2002944.Idx → EReal) (k : Fin 128) (q : Fin 4096) (p : Fin 2002944) (hp : p.val = t.val * 4096 + q.val) :
    ((cfg0.win 1).blk t).view.read (Elt Ideal) A (ix2 k q) = A (ix2 k p) := by
  obtain ⟨-, -, e0, e1, -⟩ := idx_facts t
  rw [View.read_apply]
  show A _ = A _
  refine congrArg A (funext fun a => Fin.ext ?_)
  match a with
  | ⟨0, _⟩ => show win0_1.index t (0 : Fin 2) * 128 + 1 * k.val = k.val; rw [e0]; omega
  | ⟨1, _⟩ => show win0_1.index t (1 : Fin 2) * 4096 + 1 * q.val = p.val; rw [e1, hp]; omega

/-- A factor row's block at lane `q` is the row at `4096 t + q`. -/
theorem read_blk2 (A : S1x2002944.Idx → EReal) (q : Fin 4096) (p : Fin 2002944) (hp : p.val = t.val * 4096 + q.val) :
    ((cfg0.win 2).blk t).view.read (Elt Ideal) A (ix2 0 q) = A (ix2 0 p) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1 + 1 * 0 = 0; rw [e0]
  | ⟨1, _⟩ => show win0_2.index t (1 : Fin 2) * 4096 + 1 * q.val = p.val; rw [e1, hp]; omega
theorem read_blk3 (A : S1x2002944.Idx → EReal) (q : Fin 4096) (p : Fin 2002944) (hp : p.val = t.val * 4096 + q.val) :
    ((cfg0.win 3).blk t).view.read (Elt Ideal) A (ix2 0 q) = A (ix2 0 p) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 4096 + 1 * q.val = p.val; rw [e1, hp]; omega

/-- The weight and bias blocks are their whole arrays at every point. -/
theorem read_blk4 (A : S8x128.Idx → EReal) (r : Fin 8) (k : Fin 128) :
    ((cfg0.win 4).blk t).view.read (Elt Ideal) A (ix2 r k) = A (ix2 r k) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 8 + 1 * r.val = r.val; rw [e0]; omega
  | ⟨1, _⟩ => show win0_4.index t (1 : Fin 2) * 128 + 1 * k.val = k.val; rw [e1]; omega
theorem read_blk5 (A : S8x1.Idx → EReal) (r : Fin 8) :
    ((cfg0.win 5).blk t).view.read (Elt Ideal) A (ix2 r 0) = A (ix2 r 0) := by
  obtain ⟨-, -, -, -, -, -, -, -, -, -, e0, e1, -⟩ := idx_facts t
  rw [View.read_apply]
  show A _ = A _
  refine congrArg A (funext fun a => Fin.ext ?_)
  match a with
  | ⟨0, _⟩ => show win0_5.index t (0 : Fin 2) * 8 + 1 * r.val = r.val; rw [e0]; omega
  | ⟨1, _⟩ => show win0_5.index t (1 : Fin 2) * 1 + 1 * 0 = 0; rw [e1]

/-- The output's block at `(r, q)` is the array at `(r, 4096 t + q)`. -/
theorem read_blk6 (A : S3x2002944.Idx → EReal) (r : Fin 3) (q : Fin 4096) (p : Fin 2002944) (hp : p.val = t.val * 4096 + q.val) :
    ((cfg0.win 6).blk t).view.read (Elt Ideal) A (ix2 r q) = A (ix2 r p) := by
  obtain ⟨-, -, -, -, -, -, -, -, -, -, -, -, e0, e1⟩ := idx_facts t
  rw [View.read_apply]
  show A _ = A _
  refine congrArg A (funext fun a => Fin.ext ?_)
  match a with
  | ⟨0, _⟩ => show win0_6.index t (0 : Fin 2) * 3 + 1 * r.val = r.val; rw [e0]; omega
  | ⟨1, _⟩ => show win0_6.index t (1 : Fin 2) * 4096 + 1 * q.val = p.val; rw [e1, hp]; omega

end Reads

/-! ## The packed array as one function of the six entry arrays -/

/-- Equal arguments give equal activations of equal heads. -/
theorem head_congr {u u' v v' w w' : Fin 128 → EReal} {z z' : EReal} (hu : ∀ k, u k = u' k) (hv : ∀ k, v k = v' k)
    (hw : ∀ k, w k = w' k) (hz : z = z') : Decoder.head u v w z = Decoder.head u' v' w' z' := by
  rw [funext hu, funext hv, funext hw, hz]

variable (m : (ℓ : Loc nD τ sig) → Buf (Elt Ideal) ℓ)

/-- Row `r`, padded edge position `p` of the packed array: the decoder's `r`-th activation of the linear head of column `p`
    of the two gathered feature arrays against row `r` of the stacked weights and biases. -/
def packedRC (c : Dev nD) (r : Fin 3) (p : Fin 2002944) : EReal :=
  if r.val = 0 then
    Decoder.meanAct (entSz m c (ix2 0 p)) (entGe m c (ix2 0 p)) (Decoder.head (fun k => entU m c (ix2 k p)) (fun k => entV m c (ix2 k p)) (fun k => entW m c (ix2 0 k)) (entB m c (ix2 0 0)))
  else if r.val = 1 then
    Decoder.dispAct (entGe m c (ix2 0 p)) (Decoder.head (fun k => entU m c (ix2 k p)) (fun k => entV m c (ix2 k p)) (fun k => entW m c (ix2 1 k)) (entB m c (ix2 1 0)))
  else
    Decoder.dropAct (Decoder.head (fun k => entU m c (ix2 k p)) (fun k => entV m c (ix2 k p)) (fun k => entW m c (ix2 2 k)) (entB m c (ix2 2 0)))

theorem packedRC_0 (c : Dev nD) (p : Fin 2002944) : packedRC m c 0 p =
    Decoder.meanAct (entSz m c (ix2 0 p)) (entGe m c (ix2 0 p)) (Decoder.head (fun k => entU m c (ix2 k p)) (fun k => entV m c (ix2 k p)) (fun k => entW m c (ix2 0 k)) (entB m c (ix2 0 0))) := by
  unfold packedRC; exact if_pos rfl
theorem packedRC_1 (c : Dev nD) (p : Fin 2002944) : packedRC m c 1 p =
    Decoder.dispAct (entGe m c (ix2 0 p)) (Decoder.head (fun k => entU m c (ix2 k p)) (fun k => entV m c (ix2 k p)) (fun k => entW m c (ix2 1 k)) (entB m c (ix2 1 0))) := by
  unfold packedRC; rw [if_neg (by decide)]; exact if_pos rfl
theorem packedRC_2 (c : Dev nD) (p : Fin 2002944) : packedRC m c 2 p =
    Decoder.dropAct (Decoder.head (fun k => entU m c (ix2 k p)) (fun k => entV m c (ix2 k p)) (fun k => entW m c (ix2 2 k)) (entB m c (ix2 2 0))) := by
  unfold packedRC; rw [if_neg (by decide), if_neg (by decide)]

/-- The same as a function of the array's index. -/
def packedFn (c : Dev nD) : S3x2002944.Idx → EReal := fun i => packedRC m c ⟨(i 0).val, idx2_lt0 i⟩ ⟨(i 1).val, idx2_lt1 i⟩

theorem packedFn_ix2 (c : Dev nD) (r : Fin 3) (p : Fin 2002944) : packedFn m c (ix2 r p) = packedRC m c r p := rfl

/-! ## What a point writes back -/

/-- The body's block at grid point `t`, row `r`, lane `q`, is the packed function at `(r, 4096 t + q)`: the row piece is the
    activation of the head of lane `q` of the input blocks, and lane `q` of each input block is column `4096 t + q` of its array
    (the weight and bias blocks are the whole arrays). -/
theorem outBlk_at (c : Dev nD) (t : Fin cfg0.N) (q : Fin 4096) (p : Fin 2002944) (hp : p.val = t.val * 4096 + q.val) (r : Fin 3) :
    outBlk (iblk m c 0 t) (iblk m c 1 t) (iblk m c 2 t) (iblk m c 3 t) (iblk m c 4 t) (iblk m c 5 t) (ix2 r q) = packedRC m c r p := by
  have hU : ∀ k : Fin 128, (iblk m c 0 t : Vec Ideal S128x4096 .f32) (ix2 k q) = entU m c (ix2 k p) := fun k => read_blk0 t (entU m c) k q p hp
  have hV : ∀ k : Fin 128, (iblk m c 1 t : Vec Ideal S128x4096 .f32) (ix2 k q) = entV m c (ix2 k p) := fun k => read_blk1 t (entV m c) k q p hp
  have hSz : (iblk m c 2 t : Vec Ideal S1x4096 .f32) (ix2 0 q) = entSz m c (ix2 0 p) := read_blk2 t (entSz m c) q p hp
  have hGe : (iblk m c 3 t : Vec Ideal S1x4096 .f32) (ix2 0 q) = entGe m c (ix2 0 p) := read_blk3 t (entGe m c) q p hp
  have hW : ∀ (r : Fin 8) (k : Fin 128), (iblk m c 4 t : Vec Ideal S8x128 .bf16) (ix2 r k) = entW m c (ix2 r k) := fun r k => read_blk4 t (entW m c) r k
  have hB : ∀ r : Fin 8, (iblk m c 5 t : Vec Ideal S8x1 .f32) (ix2 r 0) = entB m c (ix2 r 0) := fun r => read_blk5 t (entB m c) r
  have hr : r.val = 0 ∨ r.val = 1 ∨ r.val = 2 := by have := r.isLt; omega
  rcases hr with h | h | h
  · obtain rfl : r = 0 := Fin.ext h
    rw [packedRC_0]
    refine ((outBlk_row0 (iblk m c 0 t) (iblk m c 1 t) (iblk m c 2 t) (iblk m c 3 t) (iblk m c 4 t) (iblk m c 5 t) q).trans
      (rowMu_apply (iblk m c 0 t) (iblk m c 1 t) (iblk m c 2 t) (iblk m c 3 t) (iblk m c 4 t) (iblk m c 5 t) q)).trans ?_
    rw [hSz, hGe]
    exact congrArg _ (head_congr hU hV (hW 0) (hB 0))
  · obtain rfl : r = 1 := Fin.ext h
    rw [packedRC_1]
    refine ((outBlk_row1 (iblk m c 0 t) (iblk m c 1 t) (iblk m c 2 t) (iblk m c 3 t) (iblk m c 4 t) (iblk m c 5 t) q).trans
      (rowDisp_apply (iblk m c 0 t) (iblk m c 1 t) (iblk m c 3 t) (iblk m c 4 t) (iblk m c 5 t) q)).trans ?_
    rw [hGe]
    exact congrArg _ (head_congr hU hV (hW 1) (hB 1))
  · obtain rfl : r = 2 := Fin.ext h
    rw [packedRC_2]
    refine ((outBlk_row2 (iblk m c 0 t) (iblk m c 1 t) (iblk m c 2 t) (iblk m c 3 t) (iblk m c 4 t) (iblk m c 5 t) q).trans
      (rowPi_apply (iblk m c 0 t) (iblk m c 1 t) (iblk m c 4 t) (iblk m c 5 t) q)).trans ?_
    exact congrArg _ (head_congr hU hV (hW 2) (hB 2))

/-- What point `t` writes back is block `t` of the packed function. -/
theorem flushed_eq (c : Dev nD) (t : Fin cfg0.N) :
    (dats m 0 c).flushed 6 t = ((cfg0.win 6).blk t).view.read (Elt Ideal) (packedFn m c) := by
  show (cfg0.win 6).cut (grid0.coords t) ((dats m 0 c).after 6 t) = _
  rw [after6]
  refine funext fun (j : S3x4096.Idx) => ?_
  obtain ⟨r, q, rfl⟩ : ∃ (r : Fin 3) (q : Fin 4096), j = ix2 r q := ⟨j 0, j 1, eq_ix2 j⟩
  have ht : t.val < 489 := lt_of_lt_of_eq t.isLt N_0
  have hp : (⟨t.val * 4096 + q.val, by have := q.isLt; omega⟩ : Fin 2002944).val = t.val * 4096 + q.val := rfl
  refine (outBlk_at m c t q _ hp r).trans ?_
  exact (read_blk6 t (packedFn m c) r q _ hp).symm

/-! ## The blocks cover the array -/

/-- An index of the array is in point `t`'s block iff each coordinate is in the block's range on its axis. -/
theorem mem_blk (t : Fin cfg0.N) (i : S3x2002944.Idx) :
    i ∈ ((cfg0.win 6).blk t).view.set ↔ ∀ a : Fin 2, win0_6.index t a * S3x4096.size a ≤ (i a).val ∧ (i a).val < win0_6.index t a * S3x4096.size a + S3x4096.size a := by
  show i ∈ ((View.whole main_v23).slice (win0_6.rect t)).set ↔ _
  rw [View.set_slice_whole, Rect.mem_set_unit]
  exact Iff.rfl

/-- Position `p` of the edge axis is in the block of point `p / 4096` (2002944 = 489 · 4096). -/
theorem cover (i : S3x2002944.Idx) : ∃ t : Fin cfg0.N, (cfg0.win 6).flush t = true ∧ i ∈ ((cfg0.win 6).blk t).view.set := by
  have hi0 : (i 0).val < 3 := (i 0).isLt
  have hi1 : (i 1).val < 2002944 := (i 1).isLt
  obtain ⟨t, ht⟩ : ∃ t : Fin cfg0.N, t.val = (i 1).val / 4096 :=
    ⟨⟨(i 1).val / 4096, lt_of_lt_of_eq (by omega : (i 1).val / 4096 < 489) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 3 ≤ (i 0).val ∧ (i 0).val < win0_6.index t (0 : Fin 2) * 3 + 3; rw [e0]; omega
  | ⟨1, _⟩ => show win0_6.index t (1 : Fin 2) * 4096 ≤ (i 1).val ∧ (i 1).val < win0_6.index t (1 : Fin 2) * 4096 + 4096; rw [e1, ht]; omega

/-- The packed array after the last write-back is the packed function. -/
theorem packed_eq (c : Dev nD) : packed m c = packedFn m c :=
  (dats m 0 c).arrAt_eq_of_cover 6 (packedFn m c) (fun t _ => flushed_eq m c t) cover

theorem packed_mu (c : Dev nD) (q : Fin 2002944) :
    packed m c (ix2 0 q) = Decoder.meanAct (entSz m c (ix2 0 q)) (entGe m c (ix2 0 q)) (Decoder.head (fun k => entU m c (ix2 k q)) (fun k => entV m c (ix2 k q)) (fun k => entW m c (ix2 0 k)) (entB m c (ix2 0 0))) := by
  rw [packed_eq, packedFn_ix2, packedRC_0]
theorem packed_disp (c : Dev nD) (q : Fin 2002944) :
    packed m c (ix2 1 q) = Decoder.dispAct (entGe m c (ix2 0 q)) (Decoder.head (fun k => entU m c (ix2 k q)) (fun k => entV m c (ix2 k q)) (fun k => entW m c (ix2 1 k)) (entB m c (ix2 1 0))) := by
  rw [packed_eq, packedFn_ix2, packedRC_1]
theorem packed_pi (c : Dev nD) (q : Fin 2002944) :
    packed m c (ix2 2 q) = Decoder.dropAct (Decoder.head (fun k => entU m c (ix2 k q)) (fun k => entV m c (ix2 k q)) (fun k => entW m c (ix2 2 k)) (entB m c (ix2 2 0))) := by
  rw [packed_eq, packedFn_ix2, packedRC_2]

end Cert.KernelIdeal.Region

end
-- ==== Proof.LibGatherCols.lean ====
import Idealize.ShloMosaic.Lib.ValueIdx

/-!
# Gathering columns of a rank-2 array

What `x[:, idx]` of an array `x : [Q, C]` at an integer array `idx : [T]` lowers to: a gather with offset_dims
`[0]`, collapsed_slice_dims `[1]`, start_index_map `[1]`, slice_sizes `[Q, 1]` and index_vector_dim 1 over the
indices as `[T, 1]`. Result element `(r, t)` is `x` at row `r` and at the column given by the start index
`idx[t, 0]`, read as a signed integer and clamped into `[0, C − 1]` (a gather clamps every start index).
-/

namespace Cert.LibGatherCols
open Idealize.ShloMosaic Idealize.ShloMosaic.ValueIdx
variable {α : Type}

/-- Those dimension numbers for an operand `[Q, C]`, start indices `[T, 1]` and result `[Q, T]`: axis 0 of the
    operand is kept whole (an offset axis of the result), axis 1 is collapsed and indexed. Their conditions `wf` are
    decided on a program's literal shapes. -/
abbrev colDims (Q C T : Nat) (wf : GatherDims.WF ⟨2, ![Q, C]⟩ ⟨2, ![T, 1]⟩ ⟨2, ![Q, T]⟩ [0] [1] [] [1] [] 1 ![Q, 1]) :
    GatherDims ⟨2, ![Q, C]⟩ ⟨2, ![T, 1]⟩ ⟨2, ![Q, T]⟩ where
  offsetDims := [0]
  collapsedSliceDims := [1]
  operandBatchingDims := []
  startIndicesBatchingDims := []
  startIndexMap := [1]
  indexVectorDim := 1
  sliceSizes := ![Q, 1]
  wf := wf

/-- THE GATHER READ AT `(r, t)`: the operand at row `r` and at the column `idx[t, 0]`, read signed and clamped into
    `[0, C − 1]`. -/
theorem gather_cols_apply {Q C T w : Nat} (hC : 0 < C)
    (wf : GatherDims.WF ⟨2, ![Q, C]⟩ ⟨2, ![T, 1]⟩ ⟨2, ![Q, T]⟩ [0] [1] [] [1] [] 1 ![Q, 1])
    (x : (⟨2, ![Q, C]⟩ : Shape).Idx → α) (idx : IVec ⟨2, ![T, 1]⟩ w) (r : Fin Q) (t : Fin T) :
    Host.gather (colDims Q C T wf) x idx (ix2 r t)
      = x (ix2 r ⟨min (idx (ix2 t (0 : Fin 1))).toInt.toNat (C - 1), by omega⟩) := by
  unfold Host.gather
  congr 1
  funext a
  refine Fin.ext ?_
  match a with
  | ⟨0, _⟩ =>
    -- axis 0 is an offset axis: no start index, no batching; the offset coordinate is the result's coordinate 0
    show (colDims Q C T wf).start (ix2 r t) idx 0 + (colDims Q C T wf).batchCoord (ix2 r t) 0
      + (colDims Q C T wf).offCoord (ix2 r t) 0 = r.val
    have h01 : (0 : Fin 2) ≠ 1 := by decide
    rw [GatherDims.batchCoord_eq_zero _ _ _ List.not_mem_nil]
    unfold GatherDims.start
    rw [dif_neg (show (0 : Fin 2) ∉ (colDims Q C T wf).startIndexMap from fun h => h01 (List.mem_singleton.mp h))]
    unfold GatherDims.offCoord
    rw [dif_pos (show (0 : Fin 2) ∈ (colDims Q C T wf).sKept from
      (GatherDims.mem_sKept _ _).mpr ⟨fun h => h01 (List.mem_singleton.mp h), List.not_mem_nil⟩)]
    simp only [Nat.zero_add, Nat.add_zero]
    rfl
  | ⟨1, _⟩ =>
    -- axis 1 is collapsed and indexed: offset coordinate 0, no batching; the start is the clamped start index
    show (colDims Q C T wf).start (ix2 r t) idx 1 + (colDims Q C T wf).batchCoord (ix2 r t) 1
      + (colDims Q C T wf).offCoord (ix2 r t) 1 = min (idx (ix2 t (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims Q C T wf).startIndexMap from List.mem_singleton.mpr rfl)]
    have hsi : (colDims Q C T wf).siIdx (ix2 r t) ⟨List.idxOf (1 : Fin 2) (colDims Q C T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl

end Cert.LibGatherCols
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.LibReduceAnd.lean ====
/-
  A conjunction of ones is one: a left fold by `and` from 1 over 1s is 1, and so a reduction by `and` (the mask a
  default-mode take builds from its range test, or a `jnp.all`) is 1 at a result index when its initial value is 1 and
  every operand element that reduces into that index is 1. The converse direction of reading a `jnp.all` that is 1.
-/
import Idealize.ShloMosaic.PureOps.Reduce
import Idealize.ShloMosaic.PureOps.Ideal

noncomputable section

namespace Cert.LibReduceAnd

open Idealize.ShloMosaic

/-! ## A conjunction of ones is one -/

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a List.mem_cons_self]
    rfl

/-- A reduction by `and` is 1 at `j` when its initial value is 1 and every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_one x _ _ hinit (fun i hi => hx i ?_)
  simpa using (List.mem_filter.mp hi).2

end Cert.LibReduceAnd

end
-- ==== Proof.KIEntryFeat.lean ====
/-
  What the region finds in its two gathered feature arrays, read at an index, when every source word is below 10000
  and every destination word below 2000: column `e` of the first holds the cell row the edge's source word picks, and
  column `e` of the second the gene row its destination word picks. On the way the index vector is padded with zeros to
  the padded edge count (position `e` below 2000000 still holds the edge's word), a negative word would be wrapped (an
  in-range word is not negative), the table is transposed, its columns gathered, and a read whose word is out of range
  replaced by a fill constant (an in-range word's read is kept).
-/
import proofs.«414667_j76184129896495_3_alg».proof.Proof.KINames
import proofs.«414667_j76184129896495_3_alg».proof.Proof.Decoder
import proofs.«414667_j76184129896495_3_alg».proof.Proof.LibGatherCols
import proofs.«414667_j76184129896495_3_alg».proof.Proof.LibWordArith
import proofs.«414667_j76184129896495_3_alg».proof.Proof.LibLayoutReads
import Idealize.ShloMosaic.Lib.KernelVsHost
import Idealize.ShloMosaic.PureOps.Reduce
import proofs.«414667_j76184129896495_3_alg».proof.Proof.LibReduceAnd

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open Cert.LibReduceAnd

/-! ## The stages of a column take, as functions of the index vector and the table -/

/-- The index vector padded with zeros to the padded edge count. -/
def padIdx (w : S2000000.Idx → BitVec 32) : S2002944.Idx → BitVec 32 :=
  pad S2002944 ![0] ![2944] ![0] w (id (constantI S_ 32 0#32)) pads_S2000000_S2002944_029440 h_S_

/-- A negative word wrapped around by the table's row count `n`; any other word kept. -/
def wrapIdx (n : BitVec 32) (p : S2002944.Idx → BitVec 32) : S2002944.Idx → BitVec 32 :=
  select (cmpi .slt p (broadcastInDim S2002944 ![] bcast_S_S2002944 (constantI S_ 32 0#32)))
    (addi p (broadcastInDim S2002944 ![] bcast_S_S2002944 (constantI S_ 32 n))) p

/-- The index vector as a column of start indices. -/
def colIdx (q : S2002944.Idx → BitVec 32) : S2002944x1.Idx → BitVec 32 :=
  broadcastInDim S2002944x1 ![0] bcast_S2002944_S2002944x1_0 q

/-- The mask of the start indices that lie in `[0, hi]`: the conjunction, along the unit axis, of the two signed
    comparisons. -/
def inRange (hi : BitVec 32) (i5 : S2002944x1.Idx → BitVec 32) : S2002944.Idx → BitVec 1 :=
  Host.reduce IntOp.andi
    (andi (cmpi .sge i5 (broadcastInDim S2002944x1 ![] bcast_S_S2002944x1 (constantI S_ 32 0#32)))
      (cmpi .sle i5 (broadcastInDim S2002944x1 ![0, 1] bcast_S1x1_S2002944x1_0_1
        (broadcastInDim S1x1 ![1] bcast_S1_S1x1_1 (constantI S1 32 hi)))))
    (constantI S_ 1 1#1) reducesTo_S2002944x1_S2002944_d1 h_S_

/-- The gathered columns with every column whose mask bit is clear replaced by the fill constant. -/
def fillMask (g : S128x2002944.Idx → EReal) (mask : S2002944.Idx → BitVec 1) : S128x2002944.Idx → EReal :=
  select (broadcastInDim S128x2002944 ![1] bcast_S2002944_S128x2002944_1 mask) g
    (broadcastInDim S128x2002944 ![] bcast_S_S128x2002944 (constant (F := Ideal) S_ .f32 0x7FC00000#32))

/-! ## Each stage read at an index -/

/-- Below the edge count the padded vector holds the vector's own word. -/
theorem padIdx_apply (w : S2000000.Idx → BitVec 32) (e : Fin 2000000) : padIdx w (ix1 (padE e)) = w (ix1 e) := by
  unfold padIdx
  refine pad_apply_of_inside _ _ _ w _ pads_S2000000_S2002944_029440 h_S_ (ix1 (padE e)) (ix1 e) ?_
  intro a
  have ha : a = 0 := Subsingleton.elim _ _
  subst ha
  show e.val = 0 + e.val * (0 + 1)
  omega

/-- A word below 2³¹ is not negative, so the wrap keeps it. -/
theorem wrapIdx_apply_small (n : BitVec 32) (p : S2002944.Idx → BitVec 32) (j : S2002944.Idx)
    (h : (p j).toNat < 2 ^ 31) : wrapIdx n p j = p j := by
  show Scalar.select (IntOp.cmpi .slt (p j) 0#32) (IntOp.addi (p j) n) (p j) = p j
  exact Cert.Gcn.WordArith.select_slt_zero_small n h

/-- The column of start indices holds, in row `t`, the vector's word `t`. -/
theorem colIdx_apply (q : S2002944.Idx → BitVec 32) (t : Fin 2002944) (u : Fin 1) : colIdx q (ix2 t u) = q (ix1 t) :=
  Cert.Gcn.LayoutReads.broadcastInDim_a_a1_apply bcast_S2002944_S2002944x1_0 q t u

/-- A start index whose value is at most the bound (itself below 2³¹) is in range: its mask bit is 1. -/
theorem inRange_one (hi : BitVec 32) (i5 : S2002944x1.Idx → BitVec 32) (t : Fin 2002944) (hhi : hi.toNat < 2 ^ 31)
    (h : (i5 (ix2 t (0 : Fin 1))).toNat ≤ hi.toNat) : inRange hi i5 (ix1 t) = 1#1 := by
  unfold inRange
  refine reduce_andi_one _ _ _ _ _ rfl ?_
  intro i hi'
  have h0 : (i 0).val = t.val := by
    have e0 := Shape.ReducesTo.drop_apply_val_of_eq reducesTo_S2002944x1_S2002944_d1 i (0 : Fin 1) (0 : Fin 2)
    rw [hi'] at e0
    exact e0.symm
  have h1 : (i 1).val = 0 := by have := idx2_lt1 i; omega
  have hi0 : i = ix2 t (0 : Fin 1) := by
    funext a
    refine Fin.ext ?_
    match a with
    | ⟨0, _⟩ => exact h0
    | ⟨1, _⟩ => exact h1
  subst hi0
  have hw : (i5 (ix2 t (0 : Fin 1))).toNat < 2 ^ 31 := by omega
  show IntOp.andi (IntOp.cmpi .sge (i5 (ix2 t (0 : Fin 1))) 0#32) (IntOp.cmpi .sle (i5 (ix2 t (0 : Fin 1))) hi) = 1#1
  rw [Cert.Gcn.WordArith.sge_small hw (by decide), Cert.Gcn.WordArith.sle_small hw hhi,
    if_pos (show (0#32 : BitVec 32).toNat ≤ (i5 (ix2 t (0 : Fin 1))).toNat from Nat.zero_le _), if_pos h]
  rfl

/-- Where the mask bit is 1 the gathered column is kept. -/
theorem fillMask_apply_one (g : S128x2002944.Idx → EReal) (mask : S2002944.Idx → BitVec 1) (k : Fin 128) (t : Fin 2002944)
    (h : mask (ix1 t) = 1#1) : fillMask g mask (ix2 k t) = g (ix2 k t) := by
  have hb : broadcastInDim S128x2002944 ![1] bcast_S2002944_S128x2002944_1 mask (ix2 k t) = mask (ix1 t) :=
    broadcastInDim_apply ![1] bcast_S2002944_S128x2002944_1 mask (ix2 k t) (ix1 t) (fun a => by
      match a with
      | ⟨0, _⟩ =>
        show t.val = if (2002944 : Nat) = 1 then 0 else t.val
        split
        · next h1 => exact absurd h1 (by decide)
        · rfl)
  show Scalar.select (broadcastInDim S128x2002944 ![1] bcast_S2002944_S128x2002944_1 mask (ix2 k t)) (g (ix2 k t)) _ = _
  rw [hb, h]
  exact select_one _ _

/-- A column of the transposed cell table gathered at a start index is the cell row the start index picks. -/
theorem gatherCell_apply (x : S10000x128.Idx → EReal) (idx : S2002944x1.Idx → BitVec 32) (k : Fin 128) (t : Fin 2002944) :
    Host.gather gather_S128x10000_S2002944x1_S128x2002944_0_1_n_n_1_1_1281
        (transpose S128x10000 [1, 0] x transposes_S10000x128_S128x10000_1_0) idx (ix2 k t)
      = x (ix2 (Decoder.cellRow (idx (ix2 t (0 : Fin 1)))) k) := by
  refine (Cert.LibGatherCols.gather_cols_apply (Q := 128) (C := 10000) (T := 2002944) (by decide)
    gather_S128x10000_S2002944x1_S128x2002944_0_1_n_n_1_1_1281_wf _ idx k t).trans ?_
  exact transpose_apply [1, 0] x transposes_S10000x128_S128x10000_1_0 _ (ix2 (Decoder.cellRow (idx (ix2 t (0 : Fin 1)))) k)
    (fun b => by
      match b with
      | ⟨0, _⟩ => rfl
      | ⟨1, _⟩ => rfl)

/-- A column of the transposed gene table gathered at a start index is the gene row the start index picks. -/
theorem gatherGene_apply (x : S2000x128.Idx → EReal) (idx : S2002944x1.Idx → BitVec 32) (k : Fin 128) (t : Fin 2002944) :
    Host.gather gather_S128x2000_S2002944x1_S128x2002944_0_1_n_n_1_1_1281
        (transpose S128x2000 [1, 0] x transposes_S2000x128_S128x2000_1_0) idx (ix2 k t)
      = x (ix2 (Decoder.geneRow (idx (ix2 t (0 : Fin 1)))) k) := by
  refine (Cert.LibGatherCols.gather_cols_apply (Q := 128) (C := 2000) (T := 2002944) (by decide)
    gather_S128x2000_S2002944x1_S128x2002944_0_1_n_n_1_1_1281_wf _ idx k t).trans ?_
  exact transpose_apply [1, 0] x transposes_S2000x128_S128x2000_1_0 _ (ix2 (Decoder.geneRow (idx (ix2 t (0 : Fin 1)))) k)
    (fun b => by
      match b with
      | ⟨0, _⟩ => rfl
      | ⟨1, _⟩ => rfl)

/-- The start index the take uses for edge `e` is the edge's own word, when that word is below 2³¹. -/
theorem startIdx_apply (n : BitVec 32) (w : S2000000.Idx → BitVec 32) (e : Fin 2000000) (h : (w (ix1 e)).toNat < 2 ^ 31) :
    colIdx (wrapIdx n (padIdx w)) (ix2 (padE e) (0 : Fin 1)) = w (ix1 e) := by
  rw [colIdx_apply, wrapIdx_apply_small n _ _ (by rw [padIdx_apply]; exact h), padIdx_apply]

variable (m : (ℓ : Loc nD τ sig) → Buf (Elt Ideal) ℓ)

/-! ## The two gathered arrays as the host lines leave them -/

section Arrays
-- the reduction stays closed here: two reductions by one operation over one axis are equal when their operands are
attribute [local irreducible] Host.reduce

/-- The first gathered array: the take of the transposed cell table's columns at the padded, wrapped source words. -/
theorem entU_eq (c : Dev nD) : (V m c main_v4 : S128x2002944.Idx → EReal)
    = fillMask (Host.gather gather_S128x10000_S2002944x1_S128x2002944_0_1_n_n_1_1_1281
        (transpose S128x10000 [1, 0] (cellFeat m c) transposes_S10000x128_S128x10000_1_0)
        (colIdx (wrapIdx 10000#32 (padIdx (srcW m c)))))
      (inRange 9999#32 (colIdx (wrapIdx 10000#32 (padIdx (srcW m c))))) := by
  dsimp only [V, V0]
  simp only [preOps, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results_simp
  -- the outer transport is along an equation between equal types; then the select's three operands, one by one
  refine (cast_eq _ _).trans ?_
  unfold fillMask
  refine congr (congr (congrArg select ?_) ?_) ?_
  · refine (cast_eq _ _).trans ((cast_eq _ _).trans ?_)
    refine congrArg (broadcastInDim (s := S2002944) S128x2002944 (![1] : Fin S2002944.rank → Fin S128x2002944.rank)
      bcast_S2002944_S128x2002944_1) ?_
    rfl
  · rfl
  · rfl

/-- The second gathered array: the same take of the transposed gene table at the destination words. -/
theorem entV_eq (c : Dev nD) : (V m c main_v5 : S128x2002944.Idx → EReal)
    = fillMask (Host.gather gather_S128x2000_S2002944x1_S128x2002944_0_1_n_n_1_1_1281
        (transpose S128x2000 [1, 0] (geneFeat m c) transposes_S2000x128_S128x2000_1_0)
        (colIdx (wrapIdx 2000#32 (padIdx (dstW m c)))))
      (inRange 1999#32 (colIdx (wrapIdx 2000#32 (padIdx (dstW m c))))) := by
  dsimp only [V, V0]
  simp only [preOps, hostOps0, hostOps0_1, hostOps0_2, hostOps0_3, hostOps0_4, hostOps0_5, hostOps0_6, hostOps0_7, hostOps0_8,
    hostOps0_9, hostOps0_10, hostOps0_11, List.flatten_cons, List.flatten_nil, List.append_nil, List.cons_append, List.nil_append]
  after_results_simp
  -- the outer transport is along an equation between equal types; then the select's three operands, one by one
  refine (cast_eq _ _).trans ?_
  unfold fillMask
  refine congr (congr (congrArg select ?_) ?_) ?_
  · refine (cast_eq _ _).trans ((cast_eq _ _).trans ?_)
    refine congrArg (broadcastInDim (s := S2002944) S128x2002944 (![1] : Fin S2002944.rank → Fin S128x2002944.rank)
      bcast_S2002944_S128x2002944_1) ?_
    rfl
  · rfl
  · rfl

end Arrays

variable (hs : ∀ c i, (srcW m c i).toNat < 10000) (hd : ∀ c i, (dstW m c i).toNat < 2000)

include hs in
theorem ent_u (c : Dev nD) (k : Fin 128) (e : Fin 2000000) :
    entU m c (ix2 k (padE e)) = cellFeat m c (ix2 (Decoder.cellRow (srcW m c (ix1 e))) k) := by
  have hw : (srcW m c (ix1 e)).toNat < 10000 := hs c (ix1 e)
  have hst := startIdx_apply 10000#32 (srcW m c) e (by omega)
  refine (congrFun (entU_eq m c) (ix2 k (padE e))).trans ?_
  rw [fillMask_apply_one _ _ k (padE e) (inRange_one 9999#32 _ (padE e) (by decide) (by
    rw [hst]; show (srcW m c (ix1 e)).toNat ≤ 9999; omega)), gatherCell_apply, hst]
include hd in
theorem ent_v (c : Dev nD) (k : Fin 128) (e : Fin 2000000) :
    entV m c (ix2 k (padE e)) = geneFeat m c (ix2 (Decoder.geneRow (dstW m c (ix1 e))) k) := by
  have hw : (dstW m c (ix1 e)).toNat < 2000 := hd c (ix1 e)
  have hst := startIdx_apply 2000#32 (dstW m c) e (by omega)
  refine (congrFun (entV_eq m c) (ix2 k (padE e))).trans ?_
  rw [fillMask_apply_one _ _ k (padE e) (inRange_one 1999#32 _ (padE e) (by decide) (by
    rw [hst]; show (dstW m c (ix1 e)).toNat ≤ 1999; omega)), gatherGene_apply, hst]

end Cert.KernelIdeal.Region

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.KIEntryFac.lean ====
/-
  What the region finds in its two factor rows, read at a position `e` below 2000000, when every source word is below
  10000 and every destination word below 2000: the size factor of the cell the edge's source word picks, and the gene
  factor of the gene its destination word picks. Each row is the factor table's one column, gathered by the padded and
  wrapped index vector (an out-of-range read replaced by a fill constant, an in-range one kept), laid out as one row.
-/
import proofs.«414667_j76184129896495_3_alg».proof.Proof.KINames
import proofs.«414667_j76184129896495_3_alg».proof.Proof.Decoder
import proofs.«414667_j76184129896495_3_alg».proof.Proof.LibIndexMaps
import proofs.«414667_j76184129896495_3_alg».proof.Proof.LibWordArith
import proofs.«414667_j76184129896495_3_alg».proof.Proof.LibLayoutReads
import Idealize.ShloMosaic.Lib.KernelVsHost

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ)

variable (hs : ∀ c i, (srcW m c i).toNat < 10000) (hd : ∀ c i, (dstW m c i).toNat < 2000)

namespace Fac

/-! ## The take, as a function of the table and the index vector

A table of `N` entries is read at each of 2002944 index words: a word below zero first has the table's extent added;
the entry read is the one the word names, the word read signed and clamped into the table; and where the word is not
in `[0, N − 1]` the entry read is replaced by a fill constant. Stated for any float values. -/

section Take

variable {F : FTy → Type} [FloatOps F]

/-- The index vector with its negative words wrapped: a word below zero has the table's extent `ext` added. -/
def wrapW (ext : BitVec 32) (w : IVec S2002944 32) : IVec S2002944 32 :=
  select (cmpi .slt w (broadcastInDim S2002944 ![] bcast_S_S2002944 (constantI S_ 32 0#32)))
    (addi w (broadcastInDim S2002944 ![] bcast_S_S2002944 (constantI S_ 32 ext))) w

/-- The wrapped index vector as a column of start indices. -/
def colW (ext : BitVec 32) (w : IVec S2002944 32) : IVec S2002944x1 32 :=
  broadcastInDim S2002944x1 ![0] bcast_S2002944_S2002944x1_0 (wrapW ext w)

/-- Position by position, whether the wrapped word lies in `[0, top]`: the conjunction, over the column's one
    component, of the two signed comparisons. -/
def inRangeW (ext top : BitVec 32) (w : IVec S2002944 32) : IVec S2002944 1 :=
  Host.reduce IntOp.andi
    (andi (cmpi .sge (colW ext w) (broadcastInDim S2002944x1 ![] bcast_S_S2002944x1 (constantI S_ 32 0#32)))
      (cmpi .sle (colW ext w)
        (broadcastInDim S2002944x1 ![0, 1] bcast_S1x1_S2002944x1_0_1 (broadcastInDim S1x1 ![1] bcast_S1_S1x1_1 (constantI S1 32 top)))))
    (constantI S_ 1 1#1) reducesTo_S2002944x1_S2002944_d1 h_S_

/-- The take of the table `x` at the index vector `w`: the gathered entry where the wrapped word is in range, the fill
    constant elsewhere. -/
def takeW {N : Nat} (d : GatherDims ⟨1, ![N]⟩ S2002944x1 S2002944) (ext top : BitVec 32)
    (x : FVec F ⟨1, ![N]⟩ .f32) (w : IVec S2002944 32) : FVec F S2002944 .f32 :=
  select (inRangeW ext top w) (Host.gather d x (colW ext w))
    (broadcastInDim S2002944 ![] bcast_S_S2002944 (constant (F := F) S_ .f32 0x7FC00000#32))

/-- An index vector of 2000000 words padded with zero words to 2002944. -/
def padW (w : IVec S2000000 32) : IVec S2002944 32 :=
  pad S2002944 ![0] ![2944] ![0] w (id (constantI S_ 32 0#32)) pads_S2000000_S2002944_029440 h_S_

end Take

/-! ## The take read at one position -/

section Read

variable {F : FTy → Type} [FloatOps F]

/-- A reduction by `and`, from the word 1, over entries that are all 1 is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  have key : ∀ (l : List s.Idx) (a : BitVec 1), a = 1#1 → (∀ i ∈ l, x i = 1#1) →
      l.foldl (fun r i => IntOp.andi r (x i)) a = 1#1 := by
    intro l
    induction l with
    | nil => intro a ha _; exact ha
    | cons i l ih =>
      intro a ha hl
      rw [List.foldl_cons]
      exact ih _ (by rw [ha, hl i List.mem_cons_self]; rfl) (fun k hk => hl k (List.mem_cons_of_mem _ hk))
  exact key _ _ hinit (fun i hi => hx i (of_decide_eq_true (List.mem_filter.1 hi).2))

/-- A word below 2³¹ is not below zero, so the wrap leaves it. -/
theorem wrapW_apply (ext : BitVec 32) (w : IVec S2002944 32) (p : Fin 2002944) (hw : (w (ix1 p)).toNat < 2 ^ 31) :
    wrapW ext w (ix1 p) = w (ix1 p) := by
  show Scalar.select (IntOp.cmpi .slt (w (ix1 p)) 0#32) (IntOp.addi (w (ix1 p)) ext) (w (ix1 p)) = w (ix1 p)
  exact Cert.Gcn.WordArith.select_slt_zero_small ext hw

/-- The column of start indices at row `p` is the word at `p`. -/
theorem colW_apply (ext : BitVec 32) (w : IVec S2002944 32) (p : Fin 2002944) (u : Fin 1)
    (hw : (w (ix1 p)).toNat < 2 ^ 31) : colW ext w (ix2 p u) = w (ix1 p) :=
  (Cert.Gcn.LayoutReads.broadcastInDim_a_a1_apply bcast_S2002944_S2002944x1_0 (wrapW ext w) p u).trans
    (wrapW_apply ext w p hw)

/-- Where the word is in `[0, top]` the range mask is 1. -/
theorem inRangeW_apply (ext top : BitVec 32) (w : IVec S2002944 32) (p : Fin 2002944)
    (hw : (w (ix1 p)).toNat < 2 ^ 31) (htop : top.toNat < 2 ^ 31) (hle : (w (ix1 p)).toNat ≤ top.toNat) :
    inRangeW ext top w (ix1 p) = 1#1 := by
  unfold inRangeW
  refine reduce_andi_one _ _ _ _ _ rfl (fun i hd => ?_)
  obtain ⟨q, u, rfl⟩ : ∃ (q : Fin 2002944) (u : Fin 1), i = ix2 q u := ⟨i 0, i 1, eq_ix2 i⟩
  have h0 := Shape.ReducesTo.drop_apply_val_of_eq reducesTo_S2002944x1_S2002944_d1 (ix2 q u) 0 0
  rw [hd] at h0
  obtain rfl : p = q := Fin.ext h0
  have hcol : colW ext w (ix2 p u) = w (ix1 p) := colW_apply ext w p u hw
  show IntOp.andi (IntOp.cmpi .sge (colW ext w (ix2 p u)) 0#32) (IntOp.cmpi .sle (colW ext w (ix2 p u)) top) = 1#1
  rw [hcol, Cert.Gcn.WordArith.sge_small hw (by decide), Cert.Gcn.WordArith.sle_small hw htop,
    if_pos (by simp), if_pos hle]
  rfl

/-- THE TAKE AT AN IN-RANGE WORD: the table's entry the word names. -/
theorem takeW_apply {N : Nat} (d : GatherDims ⟨1, ![N]⟩ S2002944x1 S2002944)
    (hcoll : d.collapsedSliceDims = [0]) (hob : d.operandBatchingDims = [])
    (hsim : d.startIndexMap = [0]) (hivd : d.indexVectorDim = 1)
    (ext top : BitVec 32) (htop : top.toNat + 1 = N) (hN : N < 2 ^ 31)
    (x : FVec F ⟨1, ![N]⟩ .f32) (w : IVec S2002944 32) (p : Fin 2002944) (hw : (w (ix1 p)).toNat < N) :
    takeW d ext top x w (ix1 p) = x (ix1 ⟨(w (ix1 p)).toNat, hw⟩) := by
  have hw31 : (w (ix1 p)).toNat < 2 ^ 31 := by omega
  unfold takeW
  rw [select_apply, inRangeW_apply ext top w p hw31 (by omega) (by omega), select_one]
  exact Cert.Gcn.IndexMaps.gather1_ix_apply d hcoll hob hsim hivd x (colW ext w) p _ hw
    (by rw [colW_apply ext w p 0 hw31]; exact Cert.Gcn.WordArith.toInt_of_small hw31)

/-- The padded index vector at a position below 2000000 is the index vector there. -/
theorem padW_apply (w : IVec S2000000 32) (e : Fin 2000000) : padW w (ix1 (padE e)) = w (ix1 e) :=
  pad_apply_of_inside _ _ _ w _ pads_S2000000_S2002944_029440 h_S_ (ix1 (padE e)) (ix1 e) (fun a => by
    match a with
    | ⟨0, _⟩ => show e.val = 0 + e.val * (0 + 1); omega)

end Read

/-! ## The host lines before the region, stretch by stretch

What a stretch of host lines leaves at one buffer, from any contents `X` before it and for any float values: a buffer
the stretch does not write keeps what it held; a buffer it writes holds its operation's function of what the operand
buffers held. -/

section Stretches

variable {F : FTy → Type} [FloatOps F] (X : Valuation τ sig (Elt F))

/-- Contents moved to a typed reference's buffer type and back are the contents. -/
theorem ofBuf_toBuf {sig : RefSig} {Val : EltTy → Type} {T : BufTy} (x : StableHlo.TRef sig T) (v : T.Contents Val) :
    x.ofBuf (x.toBuf v) = v := by
  obtain ⟨r, h, h2, h3⟩ := x
  subst h
  rfl

/-- At a reference whose buffer type is the value's own, the transport is the identity. -/
theorem tr_v0 (h1 : (main_v0 : Ref sig .tc).ty = ⟨S2002944, .i32⟩) (h2 h3) (v : (⟨S2002944, .i32⟩ : BufTy).Contents (Elt F)) :
    @Eq ((⟨S2002944, .i32⟩ : BufTy).Contents (Elt F)) ((StableHlo.TRef.of main_v0 h1 h2 h3).ofBuf v) v := rfl
theorem tr_v6 (h1 : (main_v6 : Ref sig .tc).ty = ⟨S10000, .f32⟩) (h2 h3) (v : (⟨S10000, .f32⟩ : BufTy).Contents (Elt F)) :
    @Eq ((⟨S10000, .f32⟩ : BufTy).Contents (Elt F)) ((StableHlo.TRef.of main_v6 h1 h2 h3).ofBuf v) v := rfl
theorem tr_v7 (h1 : (main_v7 : Ref sig .tc).ty = ⟨S2002944, .f32⟩) (h2 h3) (v : (⟨S2002944, .f32⟩ : BufTy).Contents (Elt F)) :
    @Eq ((⟨S2002944, .f32⟩ : BufTy).Contents (Elt F)) ((StableHlo.TRef.of main_v7 h1 h2 h3).toBuf v) v := rfl

/-- The size-factor row is the reshape to one row of the take's result; no later line writes it. -/
theorem sz_tail : @Eq ((⟨S1x2002944, .f32⟩ : BufTy).Contents (Elt F)) (StableHlo.after (hostOps0_11 (F := F)) (StableHlo.after (hostOps0_10 (F := F)) (StableHlo.after (hostOps0_9 (F := F)) (X))) (Proc.devRef .tc main_v8))
    (shapeCast S1x2002944 (X (Proc.devRef .tc main_v7) : (⟨S2002944, .f32⟩ : BufTy).Contents (Elt F)) shapeCasts_S2002944_S1x2002944) := by
  simp only [hostOps0_9, hostOps0_10, hostOps0_11]; after_results; rfl

/-- The take's result, from the table's column as a vector and the padded source index vector. -/
theorem sz_take : @Eq ((⟨S2002944, .f32⟩ : BufTy).Contents (Elt F)) (StableHlo.after (hostOps0_8 (F := F)) (X) (Proc.devRef .tc main_v7))
    (takeW gather_S10000_S2002944x1_S2002944_n_0_n_n_0_1_1 10000#32 9999#32 (X (Proc.devRef .tc main_v6)) (X (Proc.devRef .tc main_v0))) := by
  simp only [hostOps0_8]; after_results_simp
  simp only [ofBuf_toBuf, tr_v0, tr_v6, tr_v7]
  rfl

/-- The table's column as a vector is the reshape of the size-factor table. -/
theorem sz_col : @Eq ((⟨S10000, .f32⟩ : BufTy).Contents (Elt F)) (StableHlo.after (hostOps0_7 (F := F)) (X) (Proc.devRef .tc main_v6))
    (shapeCast S10000 (X (Proc.devRef .tc main_arg3) : (⟨S10000x1, .f32⟩ : BufTy).Contents (Elt F)) shapeCasts_S10000x1_S10000) := by
  simp only [hostOps0_7]; after_results; rfl
theorem sz_keep_idx7 : @Eq ((⟨S2002944, .i32⟩ : BufTy).Contents (Elt F)) (StableHlo.after (hostOps0_7 (F := F)) (X) (Proc.devRef .tc main_v0)) (X (Proc.devRef .tc main_v0)) := by
  simp only [hostOps0_7]; after_results

theorem sz_keep_idx : @Eq ((⟨S2002944, .i32⟩ : BufTy).Contents (Elt F)) (StableHlo.after (hostOps0_6 (F := F)) (StableHlo.after (hostOps0_5 (F := F)) (StableHlo.after (hostOps0_4 (F := F)) (StableHlo.after (hostOps0_3 (F := F)) (StableHlo.after (hostOps0_2 (F := F)) (X))))) (Proc.devRef .tc main_v0)) (X (Proc.devRef .tc main_v0)) := by
  simp only [hostOps0_2, hostOps0_3, hostOps0_4, hostOps0_5, hostOps0_6]; after_results

theorem sz_keep_tab : @Eq ((⟨S10000x1, .f32⟩ : BufTy).Contents (Elt F)) (StableHlo.after (hostOps0_6 (F := F)) (StableHlo.after (hostOps0_5 (F := F)) (StableHlo.after (hostOps0_4 (F := F)) (StableHlo.after (hostOps0_3 (F := F)) (StableHlo.after (hostOps0_2 (F := F)) (StableHlo.after (hostOps0_1 (F := F)) (StableHlo.after (hostOps0 (F := F)) (X))))))) (Proc.devRef .tc main_arg3)) (X (Proc.devRef .tc main_arg3)) := by
  simp only [hostOps0, hostOps0_1, hostOps0_2, hostOps0_3, hostOps0_4, hostOps0_5, hostOps0_6]; after_results

/-- The padded source index vector. -/
theorem sz_pad : @Eq ((⟨S2002944, .i32⟩ : BufTy).Contents (Elt F)) (StableHlo.after (hostOps0_1 (F := F)) (StableHlo.after (hostOps0 (F := F)) (X)) (Proc.devRef .tc main_v0))
    (padW (X (Proc.devRef .tc main_arg10))) := by
  simp only [hostOps0, hostOps0_1]; after_results; rfl

end Stretches

section StretchesGene

variable {F : FTy → Type} [FloatOps F] (X : Valuation τ sig (Elt F))

theorem tr_v1 (h1 : (main_v1 : Ref sig .tc).ty = ⟨S2002944, .i32⟩) (h2 h3) (v : (⟨S2002944, .i32⟩ : BufTy).Contents (Elt F)) :
    @Eq ((⟨S2002944, .i32⟩ : BufTy).Contents (Elt F)) ((StableHlo.TRef.of main_v1 h1 h2 h3).ofBuf v) v := rfl
theorem tr_v9 (h1 : (main_v9 : Ref sig .tc).ty = ⟨S2000, .f32⟩) (h2 h3) (v : (⟨S2000, .f32⟩ : BufTy).Contents (Elt F)) :
    @Eq ((⟨S2000, .f32⟩ : BufTy).Contents (Elt F)) ((StableHlo.TRef.of main_v9 h1 h2 h3).ofBuf v) v := rfl
theorem tr_v10 (h1 : (main_v10 : Ref sig .tc).ty = ⟨S2002944, .f32⟩) (h2 h3) (v : (⟨S2002944, .f32⟩ : BufTy).Contents (Elt F)) :
    @Eq ((⟨S2002944, .f32⟩ : BufTy).Contents (Elt F)) ((StableHlo.TRef.of main_v10 h1 h2 h3).toBuf v) v := rfl

/-- The gene-factor row is the reshape to one row of the take's result; no later line writes it. -/
theorem ge_tail : @Eq ((⟨S1x2002944, .f32⟩ : BufTy).Contents (Elt F)) (StableHlo.after (hostOps0_11 (F := F)) (X) (Proc.devRef .tc main_v11))
    (shapeCast S1x2002944 (X (Proc.devRef .tc main_v10) : (⟨S2002944, .f32⟩ : BufTy).Contents (Elt F)) shapeCasts_S2002944_S1x2002944) := by
  simp only [hostOps0_11]; after_results; rfl

/-- The take's result, from the table's column as a vector and the padded destination index vector. -/
theorem ge_take : @Eq ((⟨S2002944, .f32⟩ : BufTy).Contents (Elt F)) (StableHlo.after (hostOps0_10 (F := F)) (X) (Proc.devRef .tc main_v10))
    (takeW gather_S2000_S2002944x1_S2002944_n_0_n_n_0_1_1 2000#32 1999#32 (X (Proc.devRef .tc main_v9)) (X (Proc.devRef .tc main_v1))) := by
  simp only [hostOps0_10]; after_results_simp
  simp only [ofBuf_toBuf, tr_v1, tr_v9, tr_v10]
  rfl

/-- The table's column as a vector is the reshape of the gene-factor table. -/
theorem ge_col : @Eq ((⟨S2000, .f32⟩ : BufTy).Contents (Elt F)) (StableHlo.after (hostOps0_9 (F := F)) (X) (Proc.devRef .tc main_v9))
    (shapeCast S2000 (X (Proc.devRef .tc main_arg2) : (⟨S2000x1, .f32⟩ : BufTy).Contents (Elt F)) shapeCasts_S2000x1_S2000) := by
  simp only [hostOps0_9]; after_results; rfl
theorem ge_keep_idx9 : @Eq ((⟨S2002944, .i32⟩ : BufTy).Contents (Elt F)) (StableHlo.after (hostOps0_9 (F := F)) (X) (Proc.devRef .tc main_v1)) (X (Proc.devRef .tc main_v1)) := by
  simp only [hostOps0_9]; after_results

theorem ge_keep_idx : @Eq ((⟨S2002944, .i32⟩ : BufTy).Contents (Elt F)) (StableHlo.after (hostOps0_8 (F := F)) (StableHlo.after (hostOps0_7 (F := F)) (StableHlo.after (hostOps0_6 (F := F)) (StableHlo.after (hostOps0_5 (F := F)) (StableHlo.after (hostOps0_4 (F := F)) (X))))) (Proc.devRef .tc main_v1)) (X (Proc.devRef .tc main_v1)) := by
  simp only [hostOps0_4, hostOps0_5, hostOps0_6, hostOps0_7, hostOps0_8]; after_results

theorem ge_keep_tab : @Eq ((⟨S2000x1, .f32⟩ : BufTy).Contents (Elt F)) (StableHlo.after (hostOps0_8 (F := F)) (StableHlo.after (hostOps0_7 (F := F)) (StableHlo.after (hostOps0_6 (F := F)) (StableHlo.after (hostOps0_5 (F := F)) (StableHlo.after (hostOps0_4 (F := F)) (StableHlo.after (hostOps0_3 (F := F)) (StableHlo.after (hostOps0_2 (F := F)) (StableHlo.after (hostOps0_1 (F := F)) (StableHlo.after (hostOps0 (F := F)) (X))))))))) (Proc.devRef .tc main_arg2)) (X (Proc.devRef .tc main_arg2)) := by
  simp only [hostOps0, hostOps0_1, hostOps0_2, hostOps0_3, hostOps0_4, hostOps0_5, hostOps0_6, hostOps0_7, hostOps0_8]; after_results

/-- The padded destination index vector. -/
theorem ge_pad : @Eq ((⟨S2002944, .i32⟩ : BufTy).Contents (Elt F)) (StableHlo.after (hostOps0_3 (F := F)) (StableHlo.after (hostOps0_2 (F := F)) (StableHlo.after (hostOps0_1 (F := F)) (StableHlo.after (hostOps0 (F := F)) (X)))) (Proc.devRef .tc main_v1))
    (padW (X (Proc.devRef .tc main_arg11))) := by
  simp only [hostOps0, hostOps0_1, hostOps0_2, hostOps0_3]; after_results; rfl

end StretchesGene

/-! ## The two rows in closed form -/

/-- The contents the region finds are the launch contents taken through the twelve stretches in order. -/
theorem V0_split (c : Dev nD) : V0 m c = StableHlo.after (hostOps0_11 (F := Ideal)) (StableHlo.after (hostOps0_10 (F := Ideal)) (StableHlo.after (hostOps0_9 (F := Ideal)) (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (fun b => m (c, b))))))))))))) := by
  show StableHlo.after (List.flatten (preOps (F := Ideal))) _ = _
  simp only [preOps, List.flatten_cons, List.flatten_nil, List.append_nil, StableHlo.after_append]

/-- The size-factor row: the take of the size-factor table's column at the padded source index vector, as one row. -/
theorem entSz_eq (c : Dev nD) : entSz m c = shapeCast S1x2002944
    (takeW (F := Ideal) gather_S10000_S2002944x1_S2002944_n_0_n_n_0_1_1 10000#32 9999#32
      (shapeCast S10000 (sizeFac m c) shapeCasts_S10000x1_S10000) (padW (srcW m c)))
    shapeCasts_S2002944_S1x2002944 := by
  show V0 m c (Proc.devRef .tc main_v8) = _
  rw [V0_split, sz_tail, sz_take, sz_col, sz_keep_idx7, sz_keep_idx, sz_keep_tab, sz_pad]

/-- The gene-factor row: the take of the gene-factor table's column at the padded destination index vector, as one
    row. -/
theorem entGe_eq (c : Dev nD) : entGe m c = shapeCast S1x2002944
    (takeW (F := Ideal) gather_S2000_S2002944x1_S2002944_n_0_n_n_0_1_1 2000#32 1999#32
      (shapeCast S2000 (geneFac m c) shapeCasts_S2000x1_S2000) (padW (dstW m c)))
    shapeCasts_S2002944_S1x2002944 := by
  show V0 m c (Proc.devRef .tc main_v11) = _
  rw [V0_split, ge_tail, ge_take, ge_col, ge_keep_idx9, ge_keep_idx, ge_keep_tab, ge_pad]

end Fac

/-! ## The two rows at an edge -/

include hs in
theorem ent_sz (c : Dev nD) (e : Fin 2000000) :
    entSz m c (ix2 0 (padE e)) = sizeFac m c (ix2 (Decoder.cellRow (srcW m c (ix1 e))) 0) := by
  have hpad : Fac.padW (srcW m c) (ix1 (padE e)) = srcW m c (ix1 e) := Fac.padW_apply _ e
  have hw : (Fac.padW (srcW m c) (ix1 (padE e))).toNat < 10000 := by rw [hpad]; exact hs c _
  rw [Fac.entSz_eq,
    Cert.Gcn.LayoutReads.shapeCast_n_ab_apply _ _ (0 : Fin 1) (padE e) (padE e) (by show _ = 0 * 2002944 + _; omega),
    Fac.takeW_apply _ rfl rfl rfl rfl 10000#32 9999#32 (by decide) (by decide) _ _ (padE e) hw,
    Cert.Gcn.LayoutReads.shapeCast_ab_n_apply _ _ ⟨_, hw⟩ ⟨_, hw⟩ (0 : Fin 1) (by show _ = _ * 1 + 0; omega)]
  exact congrArg (fun r : Fin 10000 => sizeFac m c (ix2 r 0))
    (Fin.ext (by rw [Decoder.cellRow_val (hs c _)]; exact congrArg BitVec.toNat hpad))
include hd in
theorem ent_ge (c : Dev nD) (e : Fin 2000000) :
    entGe m c (ix2 0 (padE e)) = geneFac m c (ix2 (Decoder.geneRow (dstW m c (ix1 e))) 0) := by
  have hpad : Fac.padW (dstW m c) (ix1 (padE e)) = dstW m c (ix1 e) := Fac.padW_apply _ e
  have hw : (Fac.padW (dstW m c) (ix1 (padE e))).toNat < 2000 := by rw [hpad]; exact hd c _
  rw [Fac.entGe_eq,
    Cert.Gcn.LayoutReads.shapeCast_n_ab_apply _ _ (0 : Fin 1) (padE e) (padE e) (by show _ = 0 * 2002944 + _; omega),
    Fac.takeW_apply _ rfl rfl rfl rfl 2000#32 1999#32 (by decide) (by decide) _ _ (padE e) hw,
    Cert.Gcn.LayoutReads.shapeCast_ab_n_apply _ _ ⟨_, hw⟩ ⟨_, hw⟩ (0 : Fin 1) (by show _ = _ * 1 + 0; omega)]
  exact congrArg (fun r : Fin 2000 => geneFac m c (ix2 r 0))
    (Fin.ext (by rw [Decoder.geneRow_val (hd c _)]; exact congrArg BitVec.toNat hpad))

end Cert.KernelIdeal.Region

end
-- ==== Proof.LibStack4.lean ====
/-
  General reads at an index for matrices stacked along the rows: four matrices of one width stacked (a 4-piece
  concatenate along axis 0) read, at a row that falls in the first, second or third piece, that piece's row; and a
  column laid out as a row (a transpose of an [a,1] array to [1,a]) reads, at (0, k), the column's entry (k, 0).
-/
import Idealize.ShloMosaic.Lib.Pipeline.Value
import Idealize.ShloMosaic.Lib.ValueIdx

noncomputable section

namespace Cert.LibStack4

open Idealize.ShloMosaic Idealize.ShloMosaic.ValueIdx

/-! ## Four matrices of one width stacked, and a column laid as a row -/

section Stack4
variable {α : Type} {m1 m2 m3 m4 mm f : Nat}
  (x1 : (⟨2, ![m1, f]⟩ : Shape).Idx → α) (x2 : (⟨2, ![m2, f]⟩ : Shape).Idx → α)
  (x3 : (⟨2, ![m3, f]⟩ : Shape).Idx → α) (x4 : (⟨2, ![m4, f]⟩ : Shape).Idx → α)
  (h : Shape.Concatenates [(⟨2, ![m1, f]⟩ : Shape), ⟨2, ![m2, f]⟩, ⟨2, ![m3, f]⟩, ⟨2, ![m4, f]⟩] ⟨2, ![mm, f]⟩ 0)

/-- A row below the first height: the first matrix's row. -/
theorem stack4_fst_apply (r : Fin mm) (c : Fin f) (i : Fin m1) (hr : r.val = i.val) :
    concatenate ⟨2, ![mm, f]⟩ 0 [⟨⟨2, ![m1, f]⟩, x1⟩, ⟨⟨2, ![m2, f]⟩, x2⟩, ⟨⟨2, ![m3, f]⟩, x3⟩, ⟨⟨2, ![m4, f]⟩, x4⟩] h (ix2 r c)
      = x1 (ix2 i c) :=
  concatenate_apply_piece (t := ⟨2, ![mm, f]⟩) (0 : Fin 2)
    [⟨⟨2, ![m1, f]⟩, x1⟩, ⟨⟨2, ![m2, f]⟩, x2⟩, ⟨⟨2, ![m3, f]⟩, x3⟩, ⟨⟨2, ![m4, f]⟩, x4⟩] h (ix2 r c)
    0 (by simp) ⟨2, ![m1, f]⟩ x1 rfl rfl 0 rfl (ix2 i c)
    (fun b hb => by
      match b, hb with
      | ⟨0, _⟩, hb => exact absurd rfl hb
      | ⟨1, _⟩, _ => rfl)
    (by show 0 + i.val = r.val; omega)

/-- A row from the first height on and below the first two: the second matrix's row, the first height less. -/
theorem stack4_snd_apply (r : Fin mm) (c : Fin f) (i : Fin m2) (hr : r.val = m1 + i.val) :
    concatenate ⟨2, ![mm, f]⟩ 0 [⟨⟨2, ![m1, f]⟩, x1⟩, ⟨⟨2, ![m2, f]⟩, x2⟩, ⟨⟨2, ![m3, f]⟩, x3⟩, ⟨⟨2, ![m4, f]⟩, x4⟩] h (ix2 r c)
      = x2 (ix2 i c) :=
  concatenate_apply_piece (t := ⟨2, ![mm, f]⟩) (0 : Fin 2)
    [⟨⟨2, ![m1, f]⟩, x1⟩, ⟨⟨2, ![m2, f]⟩, x2⟩, ⟨⟨2, ![m3, f]⟩, x3⟩, ⟨⟨2, ![m4, f]⟩, x4⟩] h (ix2 r c)
    1 (by simp) ⟨2, ![m2, f]⟩ x2 rfl rfl m1 (by simp) (ix2 i c)
    (fun b hb => by
      match b, hb with
      | ⟨0, _⟩, hb => exact absurd rfl hb
      | ⟨1, _⟩, _ => rfl)
    (by show m1 + i.val = r.val; omega)

/-- A row from the first two heights on and below the first three: the third matrix's row, both heights less. -/
theorem stack4_thd_apply (r : Fin mm) (c : Fin f) (i : Fin m3) (hr : r.val = m1 + m2 + i.val) :
    concatenate ⟨2, ![mm, f]⟩ 0 [⟨⟨2, ![m1, f]⟩, x1⟩, ⟨⟨2, ![m2, f]⟩, x2⟩, ⟨⟨2, ![m3, f]⟩, x3⟩, ⟨⟨2, ![m4, f]⟩, x4⟩] h (ix2 r c)
      = x3 (ix2 i c) :=
  concatenate_apply_piece (t := ⟨2, ![mm, f]⟩) (0 : Fin 2)
    [⟨⟨2, ![m1, f]⟩, x1⟩, ⟨⟨2, ![m2, f]⟩, x2⟩, ⟨⟨2, ![m3, f]⟩, x3⟩, ⟨⟨2, ![m4, f]⟩, x4⟩] h (ix2 r c)
    2 (by simp) ⟨2, ![m3, f]⟩ x3 rfl rfl (m1 + m2) (by simp) (ix2 i c)
    (fun b hb => by
      match b, hb with
      | ⟨0, _⟩, hb => exact absurd rfl hb
      | ⟨1, _⟩, _ => rfl)
    (by show m1 + m2 + i.val = r.val; omega)

end Stack4

/-- A column laid as a row reads, at (0, k), the column's entry (k, 0). -/
theorem transpose_col_row_apply {α : Type} {a : Nat} (x : (⟨2, ![a, 1]⟩ : Shape).Idx → α)
    (h : (⟨2, ![a, 1]⟩ : Shape).Transposes [1, 0] ⟨2, ![1, a]⟩) (u v : Fin 1) (k : Fin a) :
    transpose ⟨2, ![1, a]⟩ [1, 0] x h (ix2 u k) = x (ix2 k v) :=
  transpose_apply [1, 0] x h (ix2 u k) (ix2 k v) (fun b => by
    match b with
    | ⟨0, _⟩ => show v.val = u.val; omega
    | ⟨1, _⟩ => rfl)

end Cert.LibStack4

end
-- ==== Proof.KIEntryWts.lean ====
/-
  What the region finds in its stacked weights and stacked biases: the three weight columns, transposed, are rows 0, 1
  and 2 of an 8 x 128 array whose other five rows are zero (its change of float format is the identity on the extended
  reals), and the three biases are rows 0, 1 and 2 of an 8 x 1 column whose other five entries are zero.
-/
import proofs.«414667_j76184129896495_3_alg».proof.Proof.KINames
import proofs.«414667_j76184129896495_3_alg».proof.Proof.Decoder
import proofs.«414667_j76184129896495_3_alg».proof.Proof.LibLayoutReads
import proofs.«414667_j76184129896495_3_alg».proof.Proof.LibStack4

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open Cert.LibStack4

variable (m : (ℓ : Loc nD τ sig) → Buf (Elt Ideal) ℓ)

namespace Wts

/-! ## The last stretch of host lines cut from the earlier ones, which write none of the weight and bias arguments -/

/-- Core c's buffer contents after the first eleven stretches of host lines. -/
abbrev preV (c : Dev nD) : Valuation τ sig (Elt Ideal) :=
  StableHlo.after (List.flatten [hostOps0 (F := Ideal), hostOps0_1, hostOps0_2, hostOps0_3, hostOps0_4, hostOps0_5, hostOps0_6,
    hostOps0_7, hostOps0_8, hostOps0_9, hostOps0_10]) (fun b => m (c, b))

/-- The contents when the region is entered are the last stretch applied to what the earlier stretches leave. -/
theorem V0_cut (c : Dev nD) : V0 m c = StableHlo.after (hostOps0_11 (F := Ideal)) (preV m c) := by
  show StableHlo.after (List.flatten [hostOps0 (F := Ideal), hostOps0_1, hostOps0_2, hostOps0_3, hostOps0_4, hostOps0_5, hostOps0_6,
    hostOps0_7, hostOps0_8, hostOps0_9, hostOps0_10, hostOps0_11]) (fun b => m (c, b)) = _
  rw [preV, ← StableHlo.after_append]
  congr 1

/-- No line of the earlier stretches writes argument 4. -/
theorem pre_arg4 (c : Dev nD) : preV m c (Proc.devRef .tc main_arg4) = m (c, Proc.devRef .tc main_arg4) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-- No line of the earlier stretches writes argument 5. -/
theorem pre_arg5 (c : Dev nD) : preV m c (Proc.devRef .tc main_arg5) = m (c, Proc.devRef .tc main_arg5) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-- No line of the earlier stretches writes argument 6. -/
theorem pre_arg6 (c : Dev nD) : preV m c (Proc.devRef .tc main_arg6) = m (c, Proc.devRef .tc main_arg6) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-- No line of the earlier stretches writes argument 7. -/
theorem pre_arg7 (c : Dev nD) : preV m c (Proc.devRef .tc main_arg7) = m (c, Proc.devRef .tc main_arg7) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-- No line of the earlier stretches writes argument 8. -/
theorem pre_arg8 (c : Dev nD) : preV m c (Proc.devRef .tc main_arg8) = m (c, Proc.devRef .tc main_arg8) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-- No line of the earlier stretches writes argument 9. -/
theorem pre_arg9 (c : Dev nD) : preV m c (Proc.devRef .tc main_arg9) = m (c, Proc.devRef .tc main_arg9) := by
  dsimp only [preV]
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results_simp

/-! ## The stacked weights and the stacked biases as terms -/

/-- The stacked weights: the three weight columns laid as rows over a block of five zero rows. -/
theorem entW_eq (c : Dev nD) (j : S8x128.Idx) :
    entW m c j = concatenate S8x128 0
      [⟨S1x128, transpose S1x128 [1, 0] (wMean m c) transposes_S128x1_S1x128_1_0⟩,
       ⟨S1x128, transpose S1x128 [1, 0] (wDisp m c) transposes_S128x1_S1x128_1_0⟩,
       ⟨S1x128, transpose S1x128 [1, 0] (wPi m c) transposes_S128x1_S1x128_1_0⟩,
       ⟨S5x128, broadcastInDim S5x128 ![] bcast_S_S5x128 (constant (F := Ideal) S_ .f32 0x00000000#32)⟩]
      concatenates_S1x128_S1x128_S1x128_S5x128_S8x128_d0 j := by
  show V0 m c (Proc.devRef .tc main_v17) j = _
  rw [V0_cut]
  dsimp only [hostOps0_11]
  simp only [StableHlo.after_cons, StableHlo.after_nil]
  rw [StableHlo.nary_result_ne]; rotate_left; decide
  rw [StableHlo.unary_result_ne]; rotate_left; decide
  rw [StableHlo.nullary_result_ne]; rotate_left; decide
  rw [StableHlo.reshape_result_ne]; rotate_left; decide
  rw [StableHlo.reshape_result_ne]; rotate_left; decide
  rw [StableHlo.reshape_result_ne]; rotate_left; decide
  rw [StableHlo.unary_result, StableHlo.nary4_result]
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide)
    | (rw [StableHlo.nary_result_ne]; rotate_left; decide))
  rw [pre_arg4, pre_arg6, pre_arg8]
  rfl

set_option maxHeartbeats 1000000 in
/-- The stacked biases: the three biases as 1 x 1 blocks over a block of five zeros. -/
theorem entB_eq (c : Dev nD) (j : S8x1.Idx) :
    entB m c j = concatenate S8x1 0
      [⟨S1x1, shapeCast S1x1 (bMean m c) shapeCasts_S1_S1x1⟩,
       ⟨S1x1, shapeCast S1x1 (bDisp m c) shapeCasts_S1_S1x1⟩,
       ⟨S1x1, shapeCast S1x1 (bPi m c) shapeCasts_S1_S1x1⟩,
       ⟨S5x1, broadcastInDim S5x1 ![] bcast_S_S5x1 (constant (F := Ideal) S_ .f32 0x00000000#32)⟩]
      concatenates_S1x1_S1x1_S1x1_S5x1_S8x1_d0 j := by
  show V0 m c (Proc.devRef .tc main_v22) j = _
  rw [V0_cut]
  dsimp only [hostOps0_11]
  simp only [StableHlo.after_cons, StableHlo.after_nil]
  rw [StableHlo.nary4_result]
  repeat (first
    | rw [StableHlo.nullary_result] | rw [StableHlo.unary_result] | rw [StableHlo.reshape_result]
    | (rw [StableHlo.nullary_result_ne]; rotate_left; decide)
    | (rw [StableHlo.unary_result_ne]; rotate_left; decide)
    | (rw [StableHlo.reshape_result_ne]; rotate_left; decide)
    | (rw [StableHlo.nary_result_ne]; rotate_left; decide))
  rw [pre_arg5, pre_arg7, pre_arg9]
  rfl

end Wts

/-! ## Their rows 0, 1 and 2 -/

theorem ent_w0 (c : Dev nD) (k : Fin 128) : entW m c (ix2 0 k) = wMean m c (ix2 k 0) := by
  rw [Wts.entW_eq]
  refine (LibStack4.stack4_fst_apply _ _ _ _ _ (0 : Fin 8) k (0 : Fin 1) (by decide)).trans ?_
  exact LibStack4.transpose_col_row_apply _ _ (0 : Fin 1) (0 : Fin 1) k
theorem ent_w1 (c : Dev nD) (k : Fin 128) : entW m c (ix2 1 k) = wDisp m c (ix2 k 0) := by
  rw [Wts.entW_eq]
  refine (LibStack4.stack4_snd_apply _ _ _ _ _ (1 : Fin 8) k (0 : Fin 1) (by decide)).trans ?_
  exact LibStack4.transpose_col_row_apply _ _ (0 : Fin 1) (0 : Fin 1) k
theorem ent_w2 (c : Dev nD) (k : Fin 128) : entW m c (ix2 2 k) = wPi m c (ix2 k 0) := by
  rw [Wts.entW_eq]
  refine (LibStack4.stack4_thd_apply _ _ _ _ _ (2 : Fin 8) k (0 : Fin 1) (by decide)).trans ?_
  exact LibStack4.transpose_col_row_apply _ _ (0 : Fin 1) (0 : Fin 1) k
theorem ent_b0 (c : Dev nD) : entB m c (ix2 0 0) = bMean m c (ix1 0) := by
  rw [Wts.entB_eq]
  refine (LibStack4.stack4_fst_apply _ _ _ _ _ (0 : Fin 8) (0 : Fin 1) (0 : Fin 1) (by decide)).trans ?_
  exact Cert.Gcn.LayoutReads.shapeCast_a_a1_apply (a := 1) _ _ (0 : Fin 1) (0 : Fin 1)
theorem ent_b1 (c : Dev nD) : entB m c (ix2 1 0) = bDisp m c (ix1 0) := by
  rw [Wts.entB_eq]
  refine (LibStack4.stack4_snd_apply _ _ _ _ _ (1 : Fin 8) (0 : Fin 1) (0 : Fin 1) (by decide)).trans ?_
  exact Cert.Gcn.LayoutReads.shapeCast_a_a1_apply (a := 1) _ _ (0 : Fin 1) (0 : Fin 1)
theorem ent_b2 (c : Dev nD) : entB m c (ix2 2 0) = bPi m c (ix1 0) := by
  rw [Wts.entB_eq]
  refine (LibStack4.stack4_thd_apply _ _ _ _ _ (2 : Fin 8) (0 : Fin 1) (0 : Fin 1) (by decide)).trans ?_
  exact Cert.Gcn.LayoutReads.shapeCast_a_a1_apply (a := 1) _ _ (0 : Fin 1) (0 : Fin 1)

end Cert.KernelIdeal.Region

end
-- ==== Proof.KIValue.lean ====
/-
  The idealized kernel's three results at one edge, as functions of the argument arrays, when every source word is
  below 10000 and every destination word below 2000: the tail after the region reads the packed array at the edge's
  column, the packed array there is the decoder's activation of the linear head of that column of the gathered
  arrays, and those columns hold the rows the edge's two words pick.
-/
import proofs.«414667_j76184129896495_3_alg».proof.Proof.KITail
import proofs.«414667_j76184129896495_3_alg».proof.Proof.KIPacked
import proofs.«414667_j76184129896495_3_alg».proof.Proof.KIEntryFeat
import proofs.«414667_j76184129896495_3_alg».proof.Proof.KIEntryFac
import proofs.«414667_j76184129896495_3_alg».proof.Proof.KIEntryWts

set_option maxRecDepth 16384

noncomputable section

namespace Cert.KernelIdeal.Region

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ)

variable (hs : ∀ c i, (srcW m c i).toNat < 10000) (hd : ∀ c i, (dstW m c i).toNat < 2000)

include hs hd in
theorem kernel_mu (c : Dev nD) (e : Fin 2000000) :
    (Pipeline.afterTail₀ cfgs (dats m) 0 (V0 m) [hostOps1] c main_v26 : S2000000x1.Idx → EReal) (ix2 e 0)
      = Decoder.meanAct (sizeFac m c (ix2 (Decoder.cellRow (srcW m c (ix1 e))) 0)) (geneFac m c (ix2 (Decoder.geneRow (dstW m c (ix1 e))) 0)) (Decoder.head (fun k => cellFeat m c (ix2 (Decoder.cellRow (srcW m c (ix1 e))) k)) (fun k => geneFeat m c (ix2 (Decoder.geneRow (dstW m c (ix1 e))) k)) (fun k => wMean m c (ix2 k 0)) (bMean m c (ix1 0))) := by
  rw [out_mu, packed_mu, ent_sz m hs, ent_ge m hd]
  exact congrArg _ (head_congr (fun k => ent_u m hs c k e) (fun k => ent_v m hd c k e) (fun k => ent_w0 m c k) (ent_b0 m c))

include hs hd in
theorem kernel_disp (c : Dev nD) (e : Fin 2000000) :
    (Pipeline.afterTail₀ cfgs (dats m) 0 (V0 m) [hostOps1] c main_v29 : S2000000x1.Idx → EReal) (ix2 e 0)
      = Decoder.dispAct (geneFac m c (ix2 (Decoder.geneRow (dstW m c (ix1 e))) 0)) (Decoder.head (fun k => cellFeat m c (ix2 (Decoder.cellRow (srcW m c (ix1 e))) k)) (fun k => geneFeat m c (ix2 (Decoder.geneRow (dstW m c (ix1 e))) k)) (fun k => wDisp m c (ix2 k 0)) (bDisp m c (ix1 0))) := by
  rw [out_disp, packed_disp, ent_ge m hd]
  exact congrArg _ (head_congr (fun k => ent_u m hs c k e) (fun k => ent_v m hd c k e) (fun k => ent_w1 m c k) (ent_b1 m c))

include hs hd in
theorem kernel_pi (c : Dev nD) (e : Fin 2000000) :
    (Pipeline.afterTail₀ cfgs (dats m) 0 (V0 m) [hostOps1] c main_v32 : S2000000x1.Idx → EReal) (ix2 e 0)
      = Decoder.dropAct (Decoder.head (fun k => cellFeat m c (ix2 (Decoder.cellRow (srcW m c (ix1 e))) k)) (fun k => geneFeat m c (ix2 (Decoder.geneRow (dstW m c (ix1 e))) k)) (fun k => wPi m c (ix2 k 0)) (bPi m c (ix1 0))) := by
  rw [out_pi, packed_pi]
  exact congrArg _ (head_congr (fun k => ent_u m hs c k e) (fun k => ent_v m hd c k e) (fun k => ent_w2 m c k) (ent_b2 m c))

end Cert.KernelIdeal.Region

end
-- ==== Proof.KIPre.lean ====
/-
  The precondition, opened: its last two conjuncts say that every source index word is at least 0 and below 10000
  and every destination index word at least 0 and below 2000, as signed words; such a word's unsigned value is below
  the bound.
-/
import proofs.«414667_j76184129896495_3_alg».proof.Defs
import proofs.«414667_j76184129896495_3_alg».proof.Proof.KINames
import Idealize.ShloMosaic.Lib.ReduceAll
import Idealize.ShloMosaic.Lib.StableHlo.Predicate

set_option maxRecDepth 16384

noncomputable section

namespace Cert.KernelIdeal.Region

open Idealize.ShloMosaic Idealize.ShloMosaic.TcCoe Idealize.SL.Sem
open Cert.KernelIdeal Cert.KernelIdeal.Gen

/-- A word that is at least 0 and below `N` as a signed word has unsigned value below `N`. -/
theorem toNat_lt_of_signed {w : BitVec 32} (N : Nat) (hN : N < 2 ^ 31)
    (h0 : IntOp.cmpi .sge w 0#32 = 1#1) (h1 : IntOp.cmpi .slt w (BitVec.ofNat 32 N) = 1#1) : w.toNat < N := by
  unfold IntOp.cmpi at h0 h1
  rw [StableHlo.Predicate.ofBool_eq_one_iff] at h0 h1
  simp only [BitVec.sle, BitVec.slt, decide_eq_true_eq] at h0 h1
  rw [StableHlo.Predicate.toInt_ofNat_small N hN] at h1
  have hz : (0#32 : BitVec 32).toInt = 0 := by decide
  rw [hz] at h0
  rw [BitVec.toInt_eq_toNat_cond] at h0 h1
  have := w.isLt
  split at h0 <;> split at h1 <;> omega

instance : Subsingleton Cert.Pre_finite_inputs.S_.Idx := ⟨fun a b => funext fun d => d.elim0⟩

/-- Under the precondition every source word is below 10000 and every destination word below 2000. -/
theorem inRange_of_pre [hP : Cert.Pre_finite_inputs.Facts] (m : (ℓ : Loc nD τ sig) → Buf (Elt Ideal) ℓ) (h : Cert.Pre_KernelIdeal m) :
    (∀ c i, (srcW m c i).toNat < 10000) ∧ (∀ c i, (dstW m c i).toNat < 2000) := by
  have key : ∀ c : Dev nD, (∀ i, (srcW m c i).toNat < 10000) ∧ (∀ i, (dstW m c i).toNat < 2000) := fun c => by
    have h1 := congrFun (h c) ValueIdx.ix0
    dsimp only [Cert.Pre_finite_inputs.fn, Cert.Pre_finite_inputs.fn_part1, Cert.Pre_finite_inputs.fn_part2, Cert.Pre_finite_inputs.fn_part3] at h1
    obtain ⟨h2, hdst⟩ := IntOp.andi_eq_one.mp h1
    obtain ⟨-, hsrc⟩ := IntOp.andi_eq_one.mp h2
    refine ⟨fun i => ?_, fun i => ?_⟩
    · obtain ⟨a, b⟩ := IntOp.andi_eq_one.mp (Host.reduce_andi_all _ _ _ _ ValueIdx.ix0 hsrc i)
      exact toNat_lt_of_signed 10000 (by norm_num) a b
    · obtain ⟨a, b⟩ := IntOp.andi_eq_one.mp (Host.reduce_andi_all _ _ _ _ ValueIdx.ix0 hdst i)
      exact toNat_lt_of_signed 2000 (by norm_num) a b
  exact ⟨fun c i => (key c).1 i, fun c i => (key c).2 i⟩

end Cert.KernelIdeal.Region

end
-- ==== Proof.RefValue.lean ====
/-
  The reference's three results, read at one edge: each is an activation of a linear head of the elementwise product
  of a cell's and a gene's feature rows, picked by the edge's two index words. The reference wraps a negative word
  before it gathers, which leaves a word below the table's size alone; its gather then reads the row the word names.
  Its sigmoid is spelt `1 / (1 + exp(−x))`, which is the logistic function on the extended reals, and its linear head
  multiplies the feature product by the weight, the other way round from the kernel: multiplication commutes.
-/
import proofs.«414667_j76184129896495_3_alg».proof.Defs
import proofs.«414667_j76184129896495_3_alg».proof.Proof.Gen.ReferenceIdeal.Run
import proofs.«414667_j76184129896495_3_alg».proof.Proof.Gen.ReferenceIdeal.Read
import proofs.«414667_j76184129896495_3_alg».proof.Proof.Decoder
import proofs.«414667_j76184129896495_3_alg».proof.Proof.LibIndexMaps
import proofs.«414667_j76184129896495_3_alg».proof.Proof.LibWordArith

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

variable (x0 : S10000x128.Idx → EReal) (x1 : S2000x128.Idx → EReal) (x2 : S2000x1.Idx → EReal) (x3 : S10000x1.Idx → EReal)
  (x4 : S128x1.Idx → EReal) (x5 : S1.Idx → EReal) (x6 : S128x1.Idx → EReal) (x7 : S1.Idx → EReal)
  (x8 : S128x1.Idx → EReal) (x9 : S1.Idx → EReal) (x10 x11 : S2000000.Idx → BitVec 32)
  (hs : ∀ i, (x10 i).toNat < 10000) (hd : ∀ i, (x11 i).toNat < 2000)

/-! ## The index words: the wrap-around leaves an in-range word alone -/

include hs in
/-- The cell word wrapped against the 10000 rows (before the feature gather) is the word. -/
theorem wrap_cell_feat (i : S2000000.Idx) : val_main_v4 (F := Ideal) x10 i = x10 i := by
  rw [val_main_v4_apply, val_main_v1_apply, val_main_v0_apply, val_main_c_apply, val_main_v3_apply]
  exact Cert.Gcn.WordArith.select_slt_zero_small _ (by have := hs i; omega)

include hs in
/-- The cell word wrapped against the 10000 rows (before the size-factor gather) is the word. -/
theorem wrap_cell_fac (i : S2000000.Idx) : val_main_v50 (F := Ideal) x10 i = x10 i := by
  rw [val_main_v50_apply, val_main_v47_apply, val_main_v46_apply, val_main_c_8_apply, val_main_v49_apply]
  exact Cert.Gcn.WordArith.select_slt_zero_small _ (by have := hs i; omega)

include hd in
/-- The gene word wrapped against the 2000 rows (before the feature gather) is the word. -/
theorem wrap_gene_feat (i : S2000000.Idx) : val_main_v11 (F := Ideal) x11 i = x11 i := by
  rw [val_main_v11_apply, val_main_v8_apply, val_main_v7_apply, val_main_c_1_apply, val_main_v10_apply]
  exact Cert.Gcn.WordArith.select_slt_zero_small _ (by have := hd i; omega)

include hd in
/-- The gene word wrapped against the 2000 rows (before the gene-factor gather) is the word. -/
theorem wrap_gene_fac (i : S2000000.Idx) : val_main_v43 (F := Ideal) x11 i = x11 i := by
  rw [val_main_v43_apply, val_main_v40_apply, val_main_v39_apply, val_main_c_6_apply, val_main_v42_apply]
  exact Cert.Gcn.WordArith.select_slt_zero_small _ (by have := hd i; omega)

/-- The column of start indices at `(e, 0)` reads the word vector at `e`. -/
theorem col_idx (e : Fin 2000000) : idx_main_v5 (ix2 e (0 : Fin 1)) = ix1 e :=
  funext fun a => by match a with | ⟨0, _⟩ => rfl

/-! ## The four gathers: each reads the row its word names -/

include hs in
/-- The gathered cell feature at `(e, k)` is the cell table's feature `k` of the row the cell word picks. -/
theorem read_cell_feat (e : Fin 2000000) (k : Fin 128) :
    val_main_v6 (F := Ideal) x0 x10 (ix2 e k) = x0 (ix2 (Decoder.cellRow (x10 (ix1 e))) k) := by
  have hk : (x10 (ix1 e)).toNat < 10000 := hs _
  have hidx : (val_main_v5 (F := Ideal) x10 (ix2 e (0 : Fin 1))).toInt = ((x10 (ix1 e)).toNat : Int) := by
    rw [val_main_v5_apply, wrap_cell_feat x10 hs, col_idx]
    exact Cert.Gcn.WordArith.toInt_of_small (by omega)
  have hrow : (⟨(x10 (ix1 e)).toNat, hk⟩ : Fin 10000) = Decoder.cellRow (x10 (ix1 e)) :=
    Fin.ext (Decoder.cellRow_val hk).symm
  unfold val_main_v6
  refine (Cert.Gcn.IndexMaps.gather2_ix_apply gather_S10000x128_S2000000x1_S2000000x128_1_0_n_n_0_1_1128 rfl rfl rfl rfl rfl
    x0 (val_main_v5 (F := Ideal) x10) e k _ hk hidx).trans ?_
  rw [hrow]

include hd in
/-- The gathered gene feature at `(e, k)` is the gene table's feature `k` of the row the gene word picks. -/
theorem read_gene_feat (e : Fin 2000000) (k : Fin 128) :
    val_main_v13 (F := Ideal) x1 x11 (ix2 e k) = x1 (ix2 (Decoder.geneRow (x11 (ix1 e))) k) := by
  have hk : (x11 (ix1 e)).toNat < 2000 := hd _
  have hidx : (val_main_v12 (F := Ideal) x11 (ix2 e (0 : Fin 1))).toInt = ((x11 (ix1 e)).toNat : Int) := by
    rw [val_main_v12_apply, wrap_gene_feat x11 hd, show idx_main_v12 (ix2 e (0 : Fin 1)) = ix1 e from col_idx e]
    exact Cert.Gcn.WordArith.toInt_of_small (by omega)
  have hrow : (⟨(x11 (ix1 e)).toNat, hk⟩ : Fin 2000) = Decoder.geneRow (x11 (ix1 e)) :=
    Fin.ext (Decoder.geneRow_val hk).symm
  unfold val_main_v13
  refine (Cert.Gcn.IndexMaps.gather2_ix_apply gather_S2000x128_S2000000x1_S2000000x128_1_0_n_n_0_1_1128 rfl rfl rfl rfl rfl
    x1 (val_main_v12 (F := Ideal) x11) e k _ hk hidx).trans ?_
  rw [hrow]

include hd in
/-- The gathered gene factor at `(e, 0)` is the factor of the row the gene word picks. -/
theorem read_gene_fac (e : Fin 2000000) :
    val_main_v45 (F := Ideal) x2 x11 (ix2 e 0) = x2 (ix2 (Decoder.geneRow (x11 (ix1 e))) 0) := by
  have hk : (x11 (ix1 e)).toNat < 2000 := hd _
  have hidx : (val_main_v44 (F := Ideal) x11 (ix2 e (0 : Fin 1))).toInt = ((x11 (ix1 e)).toNat : Int) := by
    rw [val_main_v44_apply, wrap_gene_fac x11 hd, show idx_main_v44 (ix2 e (0 : Fin 1)) = ix1 e from col_idx e]
    exact Cert.Gcn.WordArith.toInt_of_small (by omega)
  have hrow : (⟨(x11 (ix1 e)).toNat, hk⟩ : Fin 2000) = Decoder.geneRow (x11 (ix1 e)) :=
    Fin.ext (Decoder.geneRow_val hk).symm
  unfold val_main_v45
  refine (Cert.Gcn.IndexMaps.gather2_ix_apply gather_S2000x1_S2000000x1_S2000000x1_1_0_n_n_0_1_11 rfl rfl rfl rfl rfl
    x2 (val_main_v44 (F := Ideal) x11) e (0 : Fin 1) _ hk hidx).trans ?_
  rw [hrow]

include hs in
/-- The gathered size factor at `(e, 0)` is the factor of the row the cell word picks. -/
theorem read_cell_fac (e : Fin 2000000) :
    val_main_v52 (F := Ideal) x3 x10 (ix2 e 0) = x3 (ix2 (Decoder.cellRow (x10 (ix1 e))) 0) := by
  have hk : (x10 (ix1 e)).toNat < 10000 := hs _
  have hidx : (val_main_v51 (F := Ideal) x10 (ix2 e (0 : Fin 1))).toInt = ((x10 (ix1 e)).toNat : Int) := by
    rw [val_main_v51_apply, wrap_cell_fac x10 hs, show idx_main_v51 (ix2 e (0 : Fin 1)) = ix1 e from col_idx e]
    exact Cert.Gcn.WordArith.toInt_of_small (by omega)
  have hrow : (⟨(x10 (ix1 e)).toNat, hk⟩ : Fin 10000) = Decoder.cellRow (x10 (ix1 e)) :=
    Fin.ext (Decoder.cellRow_val hk).symm
  unfold val_main_v52
  refine (Cert.Gcn.IndexMaps.gather2_ix_apply gather_S10000x1_S2000000x1_S2000000x1_1_0_n_n_0_1_11 rfl rfl rfl rfl rfl
    x3 (val_main_v51 (F := Ideal) x10) e (0 : Fin 1) _ hk hidx).trans ?_
  rw [hrow]

/-! ## The feature product and the three linear heads -/

include hs hd in
/-- The product of the two gathered feature rows at `(e, k)`. -/
theorem read_prod (e : Fin 2000000) (k : Fin 128) :
    val_main_v14 (F := Ideal) x0 x1 x10 x11 (ix2 e k)
      = x0 (ix2 (Decoder.cellRow (x10 (ix1 e))) k) * x1 (ix2 (Decoder.geneRow (x11 (ix1 e))) k) := by
  rw [val_main_v14_apply, read_cell_feat x0 x10 hs, read_gene_feat x1 x11 hd]
  rfl

/-- The contraction reads the product at `(e, k)`. -/
theorem lidx_eq (e : Fin 2000000) (k : Fin 128) : lidx_main_v15 (ix2 e (0 : Fin 1)) k = ix2 e k :=
  funext fun a => by match a with | ⟨0, _⟩ => rfl | ⟨1, _⟩ => rfl
/-- The contraction reads the weight column at `(k, 0)`. -/
theorem ridx_eq (e : Fin 2000000) (k : Fin 128) : ridx_main_v15 (ix2 e (0 : Fin 1)) k = ix2 k (0 : Fin 1) :=
  funext fun a => by match a with | ⟨0, _⟩ => rfl | ⟨1, _⟩ => rfl
/-- The bias, broadcast twice, is read at its one element. -/
theorem bias_idx (e : Fin 2000000) : idx_main_v16 (idx_main_v17 (ix2 e (0 : Fin 1))) = ix1 (0 : Fin 1) :=
  funext fun a => by match a with | ⟨0, _⟩ => rfl

include hs hd in
/-- A contraction of the feature product against a weight column is the head's sum, the factors the other way round. -/
theorem sum_eq (w : S128x1.Idx → EReal) (e : Fin 2000000) :
    (∑ k : Fin 128, val_main_v14 (F := Ideal) x0 x1 x10 x11 (lidx_main_v15 (ix2 e (0 : Fin 1)) k) * w (ridx_main_v15 (ix2 e (0 : Fin 1)) k))
      = ∑ k : Fin 128, w (ix2 k 0) * (x0 (ix2 (Decoder.cellRow (x10 (ix1 e))) k) * x1 (ix2 (Decoder.geneRow (x11 (ix1 e))) k)) := by
  refine Finset.sum_congr rfl fun k _ => ?_
  rw [lidx_eq, ridx_eq, read_prod x0 x1 x10 x11 hs hd, mul_comm]

include hs hd in
/-- The mean head at edge `e`. -/
theorem head_mean (e : Fin 2000000) :
    val_main_v18 (F := Ideal) x0 x1 x4 x5 x10 x11 (ix2 e 0)
      = Decoder.head (fun k => x0 (ix2 (Decoder.cellRow (x10 (ix1 e))) k)) (fun k => x1 (ix2 (Decoder.geneRow (x11 (ix1 e))) k)) (fun k => x4 (ix2 k 0)) (x5 (ix1 0)) := by
  rw [val_main_v18_apply, val_main_v15_apply, val_main_v17_apply, val_main_v16_apply, bias_idx,
    sum_eq x0 x1 x10 x11 hs hd x4 e]
  rfl

include hs hd in
/-- The dispersion head at edge `e`. -/
theorem head_disp (e : Fin 2000000) :
    val_main_v28 (F := Ideal) x0 x1 x6 x7 x10 x11 (ix2 e 0)
      = Decoder.head (fun k => x0 (ix2 (Decoder.cellRow (x10 (ix1 e))) k)) (fun k => x1 (ix2 (Decoder.geneRow (x11 (ix1 e))) k)) (fun k => x6 (ix2 k 0)) (x7 (ix1 0)) := by
  rw [val_main_v28_apply, val_main_v25_apply, val_main_v27_apply, val_main_v26_apply]
  exact congrArg₂ (· + ·) (sum_eq x0 x1 x10 x11 hs hd x6 e) (congrArg x7 (bias_idx e))

include hs hd in
/-- The dropout head at edge `e`. -/
theorem head_drop (e : Fin 2000000) :
    val_main_v32 (F := Ideal) x0 x1 x8 x9 x10 x11 (ix2 e 0)
      = Decoder.head (fun k => x0 (ix2 (Decoder.cellRow (x10 (ix1 e))) k)) (fun k => x1 (ix2 (Decoder.geneRow (x11 (ix1 e))) k)) (fun k => x8 (ix2 k 0)) (x9 (ix1 0)) := by
  rw [val_main_v32_apply, val_main_v29_apply, val_main_v31_apply, val_main_v30_apply]
  exact congrArg₂ (· + ·) (sum_eq x0 x1 x10 x11 hs hd x8 e) (congrArg x9 (bias_idx e))

/-! ## The activations -/

/-- The word `0x3F800000` is the real number one. -/
theorem one_f32 : Ideal.ofBits .f32 0x3F800000#32 = 1 := by
  simp [Ideal.ofBits, Ideal.ieee, -EReal.coe_mul]; norm_num

/-- The sigmoid spelt `1 / (1 + exp(−s))`, its ones as words, is the logistic function. -/
theorem sigmoid_spelt (s : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf s)))
      = Ideal.logistic s := by
  rw [Ideal.ofBits_def, one_f32]
  rfl

/-- The softplus as the reference spells it: the guard `y ≠ y` never holds on the extended reals, the zero it
    subtracts and adds is zero, and `|y|` is `max y (−y)`. -/
theorem softplus_spelt (y : Ideal .f32) :
    Scalar.select
        (FloatOps.cmpf .une (FloatOps.subf y (FloatOps.ofBits (F := Ideal) .f32 0x00000000#32)) (FloatOps.subf y (FloatOps.ofBits (F := Ideal) .f32 0x00000000#32)))
        (FloatOps.addf y (FloatOps.ofBits (F := Ideal) .f32 0x00000000#32))
        (FloatOps.addf (FloatOps.maximumf y (FloatOps.ofBits (F := Ideal) .f32 0x00000000#32))
          (FloatOps.hostUnary .log1p (FloatOps.hostUnary .exp (FloatOps.hostNegf
            (FloatOps.hostAbsf (FloatOps.subf y (FloatOps.ofBits (F := Ideal) .f32 0x00000000#32)))))))
      = Decoder.softplus y := by
  have hg : ∀ z : EReal, Ideal.cmp .une z z = 0#1 := fun z => by simp [Ideal.cmp]
  rw [Ideal.cmpf_def, hg]
  simp only [Ideal.ofBits_def, Ideal.ofBits_zero_f32, Ideal.subf_def, sub_zero]
  unfold Scalar.select
  rw [if_neg (by decide)]
  rfl

include hs hd in
theorem ref_mu (e : Fin 2000000) :
    val_main_v61 (F := Ideal) x0 x1 x2 x3 x4 x5 x10 x11 (ix2 e 0)
      = Decoder.meanAct (x3 (ix2 (Decoder.cellRow (x10 (ix1 e))) 0)) (x2 (ix2 (Decoder.geneRow (x11 (ix1 e))) 0)) (Decoder.head (fun k => x0 (ix2 (Decoder.cellRow (x10 (ix1 e))) k)) (fun k => x1 (ix2 (Decoder.geneRow (x11 (ix1 e))) k)) (fun k => x4 (ix2 k 0)) (x5 (ix1 0))) := by
  rw [val_main_v61_apply, read_cell_fac x3 x10 hs, val_main_v60_apply, val_main_call2_v4_apply, val_main_call2_v3_apply,
    val_main_cst_14_apply, val_main_call2_v2_apply, val_main_call2_v1_apply, val_main_call2_v0_apply, val_main_cst_13_apply,
    val_main_v59_apply, val_main_v58_apply, val_main_cst_12_apply, val_main_v57_apply, val_main_v56_apply,
    read_gene_fac x2 x11 hd, val_main_v24_apply, val_main_v23_apply, val_main_cst_3_apply, val_main_v22_apply,
    val_main_v21_apply, val_main_cst_apply, val_main_v20_apply, val_main_v19_apply, head_mean x0 x1 x4 x5 x10 x11 hs hd,
    sigmoid_spelt]
  rfl
include hs hd in
theorem ref_disp (e : Fin 2000000) :
    val_main_v55 (F := Ideal) x0 x1 x2 x6 x7 x10 x11 (ix2 e 0)
      = Decoder.dispAct (x2 (ix2 (Decoder.geneRow (x11 (ix1 e))) 0)) (Decoder.head (fun k => x0 (ix2 (Decoder.cellRow (x10 (ix1 e))) k)) (fun k => x1 (ix2 (Decoder.geneRow (x11 (ix1 e))) k)) (fun k => x6 (ix2 k 0)) (x7 (ix1 0))) := by
  rw [val_main_v55_apply, val_main_call1_v4_apply, val_main_call1_v3_apply, val_main_cst_11_apply,
    val_main_call1_v2_apply, val_main_call1_v1_apply, val_main_call1_v0_apply, val_main_cst_10_apply,
    val_main_v54_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_cst_apply,
    val_main_call0_v2_apply, val_main_call0_cst_apply, val_main_call0_v5_apply, val_main_call0_cst_apply,
    val_main_v53_apply, read_gene_fac x2 x11 hd, head_disp x0 x1 x6 x7 x10 x11 hs hd, softplus_spelt]
  rfl
include hs hd in
theorem ref_pi (e : Fin 2000000) :
    val_main_v38 (F := Ideal) x0 x1 x8 x9 x10 x11 (ix2 e 0) = Decoder.dropAct (Decoder.head (fun k => x0 (ix2 (Decoder.cellRow (x10 (ix1 e))) k)) (fun k => x1 (ix2 (Decoder.geneRow (x11 (ix1 e))) k)) (fun k => x8 (ix2 k 0)) (x9 (ix1 0))) := by
  rw [val_main_v38_apply, val_main_v37_apply, val_main_cst_5_apply, val_main_v36_apply, val_main_v35_apply,
    val_main_cst_4_apply, val_main_v34_apply, val_main_v33_apply, head_drop x0 x1 x8 x9 x10 x11 hs hd]
  exact sigmoid_spelt _

end Cert.ReferenceIdeal.RefValue

end
-- ==== Proof.lean ====
/-
  The certificate's five claims for the edge decoder. The two kernel programs' frames are the hand-written run of
  @main around its one region (the same text at both float families); the reference's frame is its generated run with
  the results dropped; the idealization rewrote nothing, so the fourth claim is trivial. For the fifth, under the
  precondition every index word is in range, so the kernel's gathers never fill: at every edge both programs' three
  results are the decoder's activations of the same linear heads of the same picked rows.
-/
import proofs.«414667_j76184129896495_3_alg».proof.Defs
import proofs.«414667_j76184129896495_3_alg».proof.Proof.Gen.Kernel
import proofs.«414667_j76184129896495_3_alg».proof.Proof.Gen.KernelIdeal
import proofs.«414667_j76184129896495_3_alg».proof.Proof.Gen.ReferenceIdeal
import proofs.«414667_j76184129896495_3_alg».proof.Proof.Gen.Pre_finite_inputs
import proofs.«414667_j76184129896495_3_alg».proof.Proof.Gen.ReferenceIdeal.Run
import proofs.«414667_j76184129896495_3_alg».proof.Proof.Gen.ReferenceIdeal.Read
import proofs.«414667_j76184129896495_3_alg».proof.Proof.KRun
import proofs.«414667_j76184129896495_3_alg».proof.Proof.KIRun
import proofs.«414667_j76184129896495_3_alg».proof.Proof.KIValue
import proofs.«414667_j76184129896495_3_alg».proof.Proof.KIPre
import proofs.«414667_j76184129896495_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

section Algebraic

open Cert.KernelIdeal Cert.KernelIdeal.Gen Cert.KernelIdeal.Region

/-- An index of a one-column array is a row with column 0. -/
theorem col_idx (i : S2000000x1.Idx) : ∃ e : Fin 2000000, i = ix2 e (0 : Fin 1) :=
  ⟨i 0, by
    funext a
    match a with
    | ⟨0, _⟩ => rfl
    | ⟨1, _⟩ => exact Fin.ext (by show (i 1).val = 0; have h : (i 1).val < 1 := (i 1).isLt; omega)⟩

theorem algebraic : Cert.algebraic_KernelIdeal_ReferenceIdeal := by
  intro m ρ m' ρ' hpre hagree
  obtain ⟨hs, hd⟩ := inRange_of_pre m hpre
  refine ⟨fun c => Pipeline.afterTail₀ cfgs (dats m) 0 (V0 m) [hostOps1] c main_v26,
    fun c => Pipeline.afterTail₀ cfgs (dats m) 0 (V0 m) [hostOps1] c main_v29,
    fun c => Pipeline.afterTail₀ cfgs (dats m) 0 (V0 m) [hostOps1] c main_v32, ?_, ?_⟩
  · refine (θ_run Cert.KernelIdeal.defs _ _).mono (fun r h c => ?_) (run_main m ρ)
    have hr := (h c).2
    exact ⟨hr main_v26 (Pipeline.mem_restRefs_of main_v26 (by decide) (by decide)),
      hr main_v29 (Pipeline.mem_restRefs_of main_v29 (by decide) (by decide)),
      hr main_v32 (Pipeline.mem_restRefs_of main_v32 (by decide) (by decide)),
      (hr main_arg0 (Pipeline.mem_restRefs_of main_arg0 (by decide) (by decide))).trans (W_main_arg0 m (dats m) c),
      (hr main_arg1 (Pipeline.mem_restRefs_of main_arg1 (by decide) (by decide))).trans (W_main_arg1 m (dats m) c),
      (hr main_arg2 (Pipeline.mem_restRefs_of main_arg2 (by decide) (by decide))).trans (W_main_arg2 m (dats m) c),
      (hr main_arg3 (Pipeline.mem_restRefs_of main_arg3 (by decide) (by decide))).trans (W_main_arg3 m (dats m) c),
      (hr main_arg4 (Pipeline.mem_restRefs_of main_arg4 (by decide) (by decide))).trans (W_main_arg4 m (dats m) c),
      (hr main_arg5 (Pipeline.mem_restRefs_of main_arg5 (by decide) (by decide))).trans (W_main_arg5 m (dats m) c),
      (hr main_arg6 (Pipeline.mem_restRefs_of main_arg6 (by decide) (by decide))).trans (W_main_arg6 m (dats m) c),
      (hr main_arg7 (Pipeline.mem_restRefs_of main_arg7 (by decide) (by decide))).trans (W_main_arg7 m (dats m) c),
      (hr main_arg8 (Pipeline.mem_restRefs_of main_arg8 (by decide) (by decide))).trans (W_main_arg8 m (dats m) c),
      (hr main_arg9 (Pipeline.mem_restRefs_of main_arg9 (by decide) (by decide))).trans (W_main_arg9 m (dats m) c),
      (hr main_arg10 (Pipeline.mem_restRefs_of main_arg10 (by decide) (by decide))).trans (W_main_arg10 m (dats m) c),
      (hr main_arg11 (Pipeline.mem_restRefs_of main_arg11 (by decide) (by decide))).trans (W_main_arg11 m (dats m) c)⟩
  · refine (θ_run Cert.ReferenceIdeal.defs _ _).mono (fun r h c => ?_) (Cert.ReferenceIdeal.Value.run (F := Ideal) m' ρ')
    obtain ⟨h61, h55, h38, hargs⟩ := h c
    obtain ⟨a0, a1, a2, a3, a4, a5, a6, a7, a8, a9, a10, a11⟩ := hagree c
    refine ⟨h61.trans ?_, h55.trans ?_, h38.trans ?_, hargs⟩
    · rw [a0, a1, a2, a3, a4, a5, a10, a11]
      refine (Cert.ReferenceIdeal.Read.val_main_v61_eq (F := Ideal) _ _ _ _ _ _ _ _).trans ?_
      funext i
      obtain ⟨e, rfl⟩ := col_idx i
      exact (Cert.ReferenceIdeal.RefValue.ref_mu _ _ _ _ _ _ _ _ (hs c) (hd c) e).trans (kernel_mu m hs hd c e).symm
    · rw [Cert.ReferenceIdeal.Read.val_main_v55_eq, a0, a1, a2, a6, a7, a10, a11]
      funext i
      obtain ⟨e, rfl⟩ := col_idx i
      exact (Cert.ReferenceIdeal.RefValue.ref_disp _ _ _ _ _ _ _ (hs c) (hd c) e).trans (kernel_disp m hs hd c e).symm
    · rw [a0, a1, a8, a9, a10, a11]
      refine (Cert.ReferenceIdeal.Read.val_main_v38_eq (F := Ideal) _ _ _ _ _ _).trans ?_
      funext i
      obtain ⟨e, rfl⟩ := col_idx i
      exact (Cert.ReferenceIdeal.RefValue.ref_pi _ _ _ _ _ _ (hs c) (hd c) e).trans (kernel_pi m hs hd c e).symm

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
